-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32x1024x2 : Shape := ⟨3, ![32, 1024, 2]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel

variable [Facts]

def fn {F : FTy → Type} [FloatOps F] (main_arg0 : FVec F S32x2048x256 .f32) (main_arg1 : FVec F S32x2048x256 .f32) (main_arg2 : IVec S32x1024x2 32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x2048x256 .f32 := Host.absf main_arg1
  let main_cst_0 : FVec F S_ .f32 := constant S_ .f32 0x7F800000#32
  let main_v5 : FVec F S32x2048x256 .f32 := broadcastInDim S32x2048x256 ![] bcast_S_S32x2048x256 main_cst_0
  let main_v6 : IVec S32x2048x256 1 := cmpf .olt main_v4 main_v5
  let main_c_1 : IVec S_ 1 := constantI S_ 1 1#1
  let main_v7 : IVec S_ 1 := (fun x v => Host.reduce IntOp.andi x v reducesTo_S32x2048x256_S_d0_1_2 h_S_) main_v6 main_c_1
  let main_v8 : IVec S_ 1 := andi main_v3 main_v7
  main_v8
-- ==== Kernel.lean ====
abbrev S32x2048x256 : Shape := ⟨3, ![32, 2048, 256]⟩
abbrev S32x1024x2 : Shape := ⟨3, ![32, 1024, 2]⟩
abbrev S32x1024x1 : Shape := ⟨3, ![32, 1024, 1]⟩
abbrev S32x1024 : Shape := ⟨2, ![32, 1024]⟩
abbrev S_ : Shape := ⟨0, ![]⟩
abbrev S1 : Shape := ⟨1, ![1]⟩
abbrev S1x1x1 : Shape := ⟨3, ![1, 1, 1]⟩
abbrev S32x1024x256 : Shape := ⟨3, ![32, 1024, 256]⟩
abbrev S32x2x1x1 : Shape := ⟨4, ![32, 2, 1, 1]⟩
abbrev S1x512x256 : Shape := ⟨3, ![1, 512, 256]⟩
abbrev S1x2048x256 : Shape := ⟨3, ![1, 2048, 256]⟩
abbrev S1x512x1 : Shape := ⟨3, ![1, 512, 1]⟩
abbrev S1x1x1x1 : Shape := ⟨4, ![1, 1, 1, 1]⟩
abbrev S512x256 : Shape := ⟨2, ![512, 256]⟩
abbrev S2048x256 : Shape := ⟨2, ![2048, 256]⟩
abbrev S512x1 : Shape := ⟨2, ![512, 1]⟩
abbrev S512x2048 : Shape := ⟨2, ![512, 2048]⟩
abbrev S512 : Shape := ⟨1, ![512]⟩
abbrev S1x1 : Shape := ⟨2, ![1, 1]⟩
abbrev S32x2 : Shape := ⟨2, ![32, 2]⟩
abbrev S32 : Shape := ⟨1, ![32]⟩

abbrev nBuf : Space → Nat
  | .hbm => 99
  | .vmem => 10
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x1024x2, .i32⟩
  | .hbm, ⟨3, _⟩ => ⟨S32x1024x1, .i32⟩
  | .hbm, ⟨4, _⟩ => ⟨S32x1024, .i32⟩
  | .hbm, ⟨5, _⟩ => ⟨S32x1024x1, .i32⟩
  | .hbm, ⟨6, _⟩ => ⟨S32x1024, .i32⟩
  | .hbm, ⟨7, _⟩ => ⟨S_, .i32⟩
  | .hbm, ⟨8, _⟩ => ⟨S32x1024, .i32⟩
  | .hbm, ⟨9, _⟩ => ⟨S32x1024, .i1⟩
  | .hbm, ⟨10, _⟩ => ⟨S_, .i32⟩
  | .hbm, ⟨11, _⟩ => ⟨S32x1024, .i32⟩
  | .hbm, ⟨12, _⟩ => ⟨S32x1024, .i1⟩
  | .hbm, ⟨13, _⟩ => ⟨S32x1024, .i1⟩
  | .hbm, ⟨14, _⟩ => ⟨S_, .i32⟩
  | .hbm, ⟨15, _⟩ => ⟨S32x1024, .i32⟩
  | .hbm, ⟨16, _⟩ => ⟨S32x1024, .i1⟩
  | .hbm, ⟨17, _⟩ => ⟨S32x1024, .i1⟩
  | .hbm, ⟨18, _⟩ => ⟨S_, .i32⟩
  | .hbm, ⟨19, _⟩ => ⟨S32x1024, .i32⟩
  | .hbm, ⟨20, _⟩ => ⟨S32x1024, .i1⟩
  | .hbm, ⟨21, _⟩ => ⟨S32x1024, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S32x1024, .i32⟩
  | .hbm, ⟨26, _⟩ => ⟨S32x1024, .i32⟩
  | .hbm, ⟨27, _⟩ => ⟨S_, .i32⟩
  | .hbm, ⟨28, _⟩ => ⟨S32x1024, .i32⟩
  | .hbm, ⟨29, _⟩ => ⟨S32x1024, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S32x1024, .i32⟩
  | .hbm, ⟨34, _⟩ => ⟨S32x1024, .i32⟩
  | .hbm, ⟨35, _⟩ => ⟨S_, .i32⟩
  | .hbm, ⟨36, _⟩ => ⟨S32x1024, .i32⟩
  | .hbm, ⟨37, _⟩ => ⟨S32x1024, .i32⟩
  | .hbm, ⟨38, _⟩ => ⟨S32x1024x1, .i32⟩
  | .hbm, ⟨39, _⟩ => ⟨S_, .i32⟩
  | .hbm, ⟨40, _⟩ => ⟨S32x1024x1, .i32⟩
  | .hbm, ⟨41, _⟩ => ⟨S32x1024x1, .i1⟩
  | .hbm, ⟨42, _⟩ => ⟨S_, .i32⟩
  | .hbm, ⟨43, _⟩ => ⟨S32x1024x1, .i32⟩
  | .hbm, ⟨44, _⟩ => ⟨S32x1024x1, .i32⟩
  | .hbm, ⟨45, _⟩ => ⟨S32x1024x1, .i32⟩
  | .hbm, ⟨46, _⟩ => ⟨S1, .i32⟩
  | .hbm, ⟨47, _⟩ => ⟨S_, .i32⟩
  | .hbm, ⟨48, _⟩ => ⟨S32x1024x1, .i32⟩
  | .hbm, ⟨49, _⟩ => ⟨S32x1024x1, .i1⟩
  | .hbm, ⟨50, _⟩ => ⟨S1x1x1, .i32⟩
  | .hbm, ⟨51, _⟩ => ⟨S32x1024x1, .i32⟩
  | .hbm, ⟨52, _⟩ => ⟨S32x1024x1, .i1⟩
  | .hbm, ⟨53, _⟩ => ⟨S32x1024x1, .i1⟩
  | .hbm, ⟨54, _⟩ => ⟨S_, .i1⟩
  | .hbm, ⟨55, _⟩ => ⟨S32x1024, .i1⟩
  | .hbm, ⟨56, _⟩ => ⟨S32x1024x256, .f32⟩
  | .hbm, ⟨57, _⟩ => ⟨S32x1024x256, .i1⟩
  | .hbm, ⟨58, _⟩ => ⟨S_, .f32⟩
  | .hbm, ⟨59, _⟩ => ⟨S32x1024x256, .f32⟩
  | .hbm, ⟨60, _⟩ => ⟨S32x1024x256, .f32⟩
  | .hbm, ⟨61, _⟩ => ⟨S32x1024x256, .bf16⟩
  | .hbm, ⟨62, _⟩ => ⟨S_, .i32⟩
  | .hbm, ⟨63, _⟩ => ⟨S_, .i32⟩
  | .hbm, ⟨64, _⟩ => ⟨S32x1024, .i32⟩
  | .hbm, ⟨65, _⟩ => ⟨S32x1024, .i32⟩
  | .hbm, ⟨66, _⟩ => ⟨S32x1024x1, .i32⟩
  | .hbm, ⟨67, _⟩ => ⟨S32x2x1x1, .f32⟩
  | .hbm, ⟨68, _⟩ => ⟨S32x2x1x1, .f32⟩
  | .hbm, ⟨69, _⟩ => ⟨S32x2, .f32⟩
  | .hbm, ⟨70, _⟩ => ⟨S_, .f32⟩
  | .hbm, ⟨71, _⟩ => ⟨S32, .f32⟩
  | .hbm, ⟨72, _⟩ => ⟨S32x2, .f32⟩
  | .hbm, ⟨73, _⟩ => ⟨S_, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .i1⟩
  | .hbm, ⟨82, _⟩ => ⟨S32, .i32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S_, .f32⟩
  | .hbm, ⟨90, _⟩ => ⟨S_, .f32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S1x512x256, .bf16⟩
  | .local _ .vmem, ⟨1, _⟩ => ⟨S1x512x256, .bf16⟩
  | .local _ .vmem, ⟨2, _⟩ => ⟨S1x2048x256, .f32⟩
  | .local _ .vmem, ⟨3, _⟩ => ⟨S1x2048x256, .f32⟩
  | .local _ .vmem, ⟨4, _⟩ => ⟨S1x512x1, .i32⟩
  | .local _ .vmem, ⟨5, _⟩ => ⟨S1x512x1, .i32⟩
  | .local _ .vmem, ⟨6, _⟩ => ⟨S1x1x1x1, .f32⟩
  | .local _ .vmem, ⟨7, _⟩ => ⟨S1x1x1x1, .f32⟩
  | .local _ .vmem, ⟨8, _⟩ => ⟨S1x1x1x1, .f32⟩
  | .local _ .vmem, ⟨9, _⟩ => ⟨S1x1x1x1, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_c_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_c_5 : Ref sig .tc := ⟨.hbm, 30, rfl⟩
abbrev main_c_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v16 : Ref sig .tc := ⟨.hbm, 37, rfl⟩
abbrev main_v17 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_c_2 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_c_3 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v18 : Ref sig .tc := ⟨.hbm, 60, rfl⟩
abbrev main_v19 : Ref sig .tc := ⟨.hbm, 61, rfl⟩
abbrev main_c_7 : Ref sig .tc := ⟨.hbm, 62, rfl⟩
abbrev main_call3_v0 : Ref sig .tc := ⟨.hbm, 63, rfl⟩
abbrev main_call3_v1 : Ref sig .tc := ⟨.hbm, 64, rfl⟩
abbrev main_v20 : Ref sig .tc := ⟨.hbm, 65, rfl⟩
abbrev main_v21 : Ref sig .tc := ⟨.hbm, 66, rfl⟩
abbrev main_v22_0 : Ref sig .tc := ⟨.hbm, 67, rfl⟩
abbrev main_v22_1 : Ref sig .tc := ⟨.hbm, 68, rfl⟩
abbrev main_v23 : Ref sig .tc := ⟨.hbm, 69, rfl⟩
abbrev main_cst : Ref sig .tc := ⟨.hbm, 70, rfl⟩
abbrev main_v24 : Ref sig .tc := ⟨.hbm, 71, rfl⟩
abbrev main_v25 : Ref sig .tc := ⟨.hbm, 72, rfl⟩
abbrev main_cst_8 : Ref sig .tc := ⟨.hbm, 73, rfl⟩
abbrev main_v26 : Ref sig .tc := ⟨.hbm, 74, rfl⟩
abbrev main_cst_9 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_10 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_11 : Ref sig .tc := ⟨.hbm, 83, rfl⟩
abbrev main_v33 : Ref sig .tc := ⟨.hbm, 84, rfl⟩
abbrev main_cst_12 : Ref sig .tc := ⟨.hbm, 85, rfl⟩
abbrev main_call4_v0 : Ref sig .tc := ⟨.hbm, 86, rfl⟩
abbrev main_call4_v1 : Ref sig .tc := ⟨.hbm, 87, rfl⟩
abbrev main_v34 : Ref sig .tc := ⟨.hbm, 88, rfl⟩
abbrev main_cst_13 : Ref sig .tc := ⟨.hbm, 89, rfl⟩
abbrev main_v35 : Ref sig .tc := ⟨.hbm, 90, rfl⟩
abbrev main_c_14 : Ref sig .tc := ⟨.hbm, 91, rfl⟩
abbrev main_v36 : Ref sig .tc := ⟨.hbm, 92, rfl⟩
abbrev main_c_15 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_16 : Ref sig .tc := ⟨.hbm, 97, rfl⟩
abbrev main_v40 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S32x1024x2_S32x1024x1_0_0_0 : S32x1024x2.Slices ![0, 0, 0] S32x1024x1
  shapeCasts_S32x1024x1_S32x1024 : S32x1024x1.ShapeCasts S32x1024
  slices_S32x1024x2_S32x1024x1_0_0_1 : S32x1024x2.Slices ![0, 0, 1] S32x1024x1
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  h_S_ : 0 < S_.numel
  bcast_S32x1024_S32x1024x256_0_1 : S32x1024.BroadcastsInDim S32x1024x256 (![0, 1] : Fin 2 → Fin S32x1024x256.rank)
  bcast_S_S32x1024x256 : S_.BroadcastsInDim S32x1024x256 (![] : Fin 0 → Fin S32x1024x256.rank)
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  natLt_1_32 : 1 < 32
  iota_S512x2048_d1_w32 : S512x2048.Iotas .tc 32 [1]
  broadcasts_S512x1_S512x2048 : S512x1.Broadcasts S512x2048
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1 : S1x1x1x1.ShapeCasts S1x1
  shapeCasts_S1x1_S1x1x1x1 : S1x1.ShapeCasts S1x1x1x1
  shapeCasts_S32x2x1x1_S32x2 : S32x2x1x1.ShapeCasts S32x2
  reducesTo_S32x2_S32_d1 : S32x2.ReducesTo [1] S32
  bcast_S_S32 : S_.BroadcastsInDim S32 (![] : Fin 0 → Fin S32.rank)
  reducesTo_S32_S_d0 : S32.ReducesTo [0] S_
  gather_S32x2048x256_S32x1024x1_S32x1024x256_2_1_0_0_1_2_11256_wf : GatherDims.WF S32x2048x256 S32x1024x1 S32x1024x256 [2] [1] [0] [1] [0] 2 ![1, 1, 256]
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x1024x256.size a
  hwx0_0 : ∀ i : grid0.Coords, EltTy.bits .bf16 = 32 ∨ (Rect.block (s := S32x1024x256) S1x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S32x2048x256.size a
  hwx0_1 : ∀ i : grid0.Coords, EltTy.bits .f32 = 32 ∨ (Rect.block (s := S32x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x1024x1.size a
  hwx0_2 : ∀ i : grid0.Coords, EltTy.bits .i32 = 32 ∨ (Rect.block (s := S32x1024x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x1.size a ≤ S32x2x1x1.size a
  hwx0_3 : ∀ i : grid0.Coords, EltTy.bits .f32 = 32 ∨ (Rect.block (s := S32x2x1x1) S1x1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x1.size a ≤ S32x2x1x1.size a
  hwx0_4 : ∀ i : grid0.Coords, EltTy.bits .f32 = 32 ∨ (Rect.block (s := S32x2x1x1) S1x1x1x1.size (cc0_transform_4 i) (hinb0_4 i)).WholeWords (EltTy.packing .f32)

variable [Facts₀]

def gather_S32x2048x256_S32x1024x1_S32x1024x256_2_1_0_0_1_2_11256 : GatherDims S32x2048x256 S32x1024x1 S32x1024x256 where
  offsetDims := [2]
  collapsedSliceDims := [1]
  operandBatchingDims := [0]
  startIndicesBatchingDims := [0]
  startIndexMap := [1]
  indexVectorDim := 2
  sliceSizes := ![1, 1, 256]
  wf := gather_S32x2048x256_S32x1024x1_S32x1024x256_2_1_0_0_1_2_11256_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v19) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S1x1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S1x1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x256 : Shape := ⟨3, ![32, 2048, 256]⟩
abbrev S32x1024x2 : Shape := ⟨3, ![32, 1024, 2]⟩
abbrev S32x1024x1 : Shape := ⟨3, ![32, 1024, 1]⟩
abbrev S32x1024 : Shape := ⟨2, ![32, 1024]⟩
abbrev S_ : Shape := ⟨0, ![]⟩
abbrev S1 : Shape := ⟨1, ![1]⟩
abbrev S1x1x1 : Shape := ⟨3, ![1, 1, 1]⟩
abbrev S32x1024x256 : Shape := ⟨3, ![32, 1024, 256]⟩
abbrev S32x1024x2048 : Shape := ⟨3, ![32, 1024, 2048]⟩
abbrev S32x1024x1x1 : Shape := ⟨4, ![32, 1024, 1, 1]⟩
abbrev S1x1x1x1 : Shape := ⟨4, ![1, 1, 1, 1]⟩
abbrev S32 : Shape := ⟨1, ![32]⟩

abbrev nBuf : Space → Nat
  | .hbm => 147
  | .vmem => 0
  | .smem => 0
  | _ => 0

abbrev hbmTy0_0 (i : Nat) : BufTy := match i % 128 with
  | 0 => ⟨S32x2048x256, .f32⟩
  | 1 => ⟨S32x2048x256, .f32⟩
  | 2 => ⟨S32x1024x2, .i32⟩
  | 3 => ⟨S32x1024x1, .i32⟩
  | 4 => ⟨S32x1024, .i32⟩
  | 5 => ⟨S32x1024x1, .i32⟩
  | 6 => ⟨S32x1024, .i32⟩
  | 7 => ⟨S_, .i32⟩
  | 8 => ⟨S32x1024, .i32⟩
  | 9 => ⟨S32x1024, .i1⟩
  | 10 => ⟨S_, .i32⟩
  | 11 => ⟨S32x1024, .i32⟩
  | 12 => ⟨S32x1024, .i1⟩
  | 13 => ⟨S32x1024, .i1⟩
  | 14 => ⟨S_, .i32⟩
  | 15 => ⟨S32x1024, .i32⟩
  | 16 => ⟨S32x1024, .i1⟩
  | 17 => ⟨S32x1024, .i1⟩
  | 18 => ⟨S_, .i32⟩
  | 19 => ⟨S32x1024, .i32⟩
  | 20 => ⟨S32x1024, .i1⟩
  | 21 => ⟨S32x1024, .i1⟩
  | 22 => ⟨S_, .i32⟩
  | 23 => ⟨S_, .i32⟩
  | 24 => ⟨S_, .i32⟩
  | 25 => ⟨S32x1024, .i32⟩
  | 26 => ⟨S32x1024, .i32⟩
  | 27 => ⟨S_, .i32⟩
  | 28 => ⟨S32x1024, .i32⟩
  | 29 => ⟨S32x1024, .i32⟩
  | 30 => ⟨S_, .i32⟩
  | 31 => ⟨S_, .i32⟩
  | 32 => ⟨S_, .i32⟩
  | 33 => ⟨S32x1024, .i32⟩
  | 34 => ⟨S32x1024, .i32⟩
  | 35 => ⟨S_, .i32⟩
  | 36 => ⟨S32x1024, .i32⟩
  | 37 => ⟨S32x1024, .i32⟩
  | 38 => ⟨S32x1024x1, .i32⟩
  | 39 => ⟨S_, .i32⟩
  | 40 => ⟨S32x1024x1, .i32⟩
  | 41 => ⟨S32x1024x1, .i1⟩
  | 42 => ⟨S_, .i32⟩
  | 43 => ⟨S32x1024x1, .i32⟩
  | 44 => ⟨S32x1024x1, .i32⟩
  | 45 => ⟨S32x1024x1, .i32⟩
  | 46 => ⟨S1, .i32⟩
  | 47 => ⟨S_, .i32⟩
  | 48 => ⟨S32x1024x1, .i32⟩
  | 49 => ⟨S32x1024x1, .i1⟩
  | 50 => ⟨S1x1x1, .i32⟩
  | 51 => ⟨S32x1024x1, .i32⟩
  | 52 => ⟨S32x1024x1, .i1⟩
  | 53 => ⟨S32x1024x1, .i1⟩
  | 54 => ⟨S_, .i1⟩
  | 55 => ⟨S32x1024, .i1⟩
  | 56 => ⟨S32x1024x256, .f32⟩
  | 57 => ⟨S32x1024x256, .i1⟩
  | 58 => ⟨S_, .f32⟩
  | 59 => ⟨S32x1024x256, .f32⟩
  | 60 => ⟨S32x1024x256, .f32⟩
  | 61 => ⟨S32x1024x2048, .f32⟩
  | 62 => ⟨S_, .f32⟩
  | 63 => ⟨S32x1024x2048, .f32⟩
  | 64 => ⟨S32x1024x2048, .f32⟩
  | 65 => ⟨S_, .f32⟩
  | 66 => ⟨S_, .f32⟩
  | 67 => ⟨S_, .f32⟩
  | 68 => ⟨S32x1024x2048, .f32⟩
  | 69 => ⟨S32x1024x2048, .f32⟩
  | 70 => ⟨S_, .f32⟩
  | 71 => ⟨S32x1024x2048, .f32⟩
  | 72 => ⟨S32x1024x2048, .f32⟩
  | 73 => ⟨S_, .f32⟩
  | 74 => ⟨S32x1024, .f32⟩
  | 75 => ⟨S_, .f32⟩
  | 76 => ⟨S32x1024, .f32⟩
  | 77 => ⟨S32x1024, .f32⟩
  | 78 => ⟨S32x1024x1, .f32⟩
  | 79 => ⟨S32x1024x2048, .f32⟩
  | 80 => ⟨S32x1024x2048, .f32⟩
  | 81 => ⟨S32x1024x2048, .f32⟩
  | 82 => ⟨S_, .f32⟩
  | 83 => ⟨S32x1024, .f32⟩
  | 84 => ⟨S32x1024x1, .f32⟩
  | 85 => ⟨S32x1024x1, .f32⟩
  | 86 => ⟨S32x1024x2048, .f32⟩
  | 87 => ⟨S32x1024x2048, .f32⟩
  | 88 => ⟨S32x1024x1, .i32⟩
  | 89 => ⟨S_, .i32⟩
  | 90 => ⟨S32x1024x1, .i32⟩
  | 91 => ⟨S32x1024x1, .i1⟩
  | 92 => ⟨S_, .i32⟩
  | 93 => ⟨S32x1024x1, .i32⟩
  | 94 => ⟨S32x1024x1, .i32⟩
  | 95 => ⟨S32x1024x1, .i32⟩
  | 96 => ⟨S32x1024x1x1, .i32⟩
  | 97 => ⟨S1, .i32⟩
  | 98 => ⟨S_, .i32⟩
  | 99 => ⟨S32x1024x1x1, .i32⟩
  | 100 => ⟨S32x1024x1x1, .i1⟩
  | 101 => ⟨S1x1x1x1, .i32⟩
  | 102 => ⟨S32x1024x1x1, .i32⟩
  | 103 => ⟨S32x1024x1x1, .i1⟩
  | 104 => ⟨S32x1024x1x1, .i1⟩
  | 105 => ⟨S_, .i1⟩
  | 106 => ⟨S32x1024x1, .i1⟩
  | 107 => ⟨S32x1024x1, .f32⟩
  | 108 => ⟨S_, .f32⟩
  | 109 => ⟨S32x1024x1, .f32⟩
  | 110 => ⟨S32x1024x1, .f32⟩
  | 111 => ⟨S32x1024, .f32⟩
  | 112 => ⟨S32x1024, .f32⟩
  | 113 => ⟨S_, .f32⟩
  | 114 => ⟨S_, .f32⟩
  | 115 => ⟨S32x1024, .f32⟩
  | 116 => ⟨S32x1024, .f32⟩
  | 117 => ⟨S32x1024, .i32⟩
  | 118 => ⟨S_, .i32⟩
  | 119 => ⟨S32, .i32⟩
  | 120 => ⟨S_, .f32⟩
  | 121 => ⟨S32, .f32⟩
  | 122 => ⟨S_, .i32⟩
  | 123 => ⟨S32, .i32⟩
  | 124 => ⟨S32, .i32⟩
  | 125 => ⟨S32, .f32⟩
  | 126 => ⟨S32, .f32⟩
  | 127 => ⟨S_, .i32⟩
  | _ => ⟨S32x2048x256, .f32⟩

abbrev hbmTy0_1 (i : Nat) : BufTy := match i % 128 with
  | 0 => ⟨S32, .i32⟩
  | 1 => ⟨S32, .i1⟩
  | 2 => ⟨S32, .i32⟩
  | 3 => ⟨S_, .i32⟩
  | 4 => ⟨S_, .i32⟩
  | 5 => ⟨S_, .f32⟩
  | 6 => ⟨S_, .f32⟩
  | 7 => ⟨S32, .f32⟩
  | 8 => ⟨S32, .f32⟩
  | 9 => ⟨S_, .f32⟩
  | 10 => ⟨S_, .f32⟩
  | 11 => ⟨S_, .i32⟩
  | 12 => ⟨S_, .i1⟩
  | 13 => ⟨S_, .i32⟩
  | 14 => ⟨S_, .i32⟩
  | 15 => ⟨S_, .f32⟩
  | 16 => ⟨S_, .f32⟩
  | 17 => ⟨S_, .f32⟩
  | 18 => ⟨S_, .f32⟩
  | _ => ⟨S32x2048x256, .f32⟩

abbrev hbmTy (i : Nat) : BufTy := match i / 128 with
  | 0 => hbmTy0_0 i
  | 1 => hbmTy0_1 i
  | _ => ⟨S32x2048x256, .f32⟩

abbrev bufTy : (tb : Table) → Fin (tcTables nBuf tb) → BufTy
  | .hbm, ⟨i, _⟩ => hbmTy i
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_c_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_c_5 : Ref sig .tc := ⟨.hbm, 30, rfl⟩
abbrev main_c_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v16 : Ref sig .tc := ⟨.hbm, 37, rfl⟩
abbrev main_v17 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_c_2 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_c_3 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v18 : Ref sig .tc := ⟨.hbm, 60, rfl⟩
abbrev main_v19 : Ref sig .tc := ⟨.hbm, 61, rfl⟩
abbrev main_cst : Ref sig .tc := ⟨.hbm, 62, rfl⟩
abbrev main_v20 : Ref sig .tc := ⟨.hbm, 63, rfl⟩
abbrev main_v21 : Ref sig .tc := ⟨.hbm, 64, rfl⟩
abbrev main_cst_7 : Ref sig .tc := ⟨.hbm, 65, rfl⟩
abbrev main_cst_8 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v22 : Ref sig .tc := ⟨.hbm, 72, rfl⟩
abbrev main_call4_cst : Ref sig .tc := ⟨.hbm, 73, rfl⟩
abbrev main_call4_v0 : Ref sig .tc := ⟨.hbm, 74, rfl⟩
abbrev main_call4_cst_0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_v6 : Ref sig .tc := ⟨.hbm, 81, rfl⟩
abbrev main_call4_cst_1 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_v23 : Ref sig .tc := ⟨.hbm, 87, rfl⟩
abbrev main_v24 : Ref sig .tc := ⟨.hbm, 88, rfl⟩
abbrev main_call5_c : Ref sig .tc := ⟨.hbm, 89, rfl⟩
abbrev main_call5_v0 : Ref sig .tc := ⟨.hbm, 90, rfl⟩
abbrev main_call5_v1 : Ref sig .tc := ⟨.hbm, 91, rfl⟩
abbrev main_call5_c_0 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_v5 : Ref sig .tc := ⟨.hbm, 96, rfl⟩
abbrev main_call5_c_1 : Ref sig .tc := ⟨.hbm, 97, rfl⟩
abbrev main_call5_c_2 : Ref sig .tc := ⟨.hbm, 98, rfl⟩
abbrev main_call5_v6 : Ref sig .tc := ⟨.hbm, 99, rfl⟩
abbrev main_call5_v7 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_c_3 : Ref sig .tc := ⟨.hbm, 105, rfl⟩
abbrev main_call5_v12 : Ref sig .tc := ⟨.hbm, 106, rfl⟩
abbrev main_call5_v13 : Ref sig .tc := ⟨.hbm, 107, rfl⟩
abbrev main_call5_cst : Ref sig .tc := ⟨.hbm, 108, rfl⟩
abbrev main_call5_v14 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_cst_9 : Ref sig .tc := ⟨.hbm, 113, rfl⟩
abbrev main_call6_v0 : Ref sig .tc := ⟨.hbm, 114, rfl⟩
abbrev main_call6_v1 : Ref sig .tc := ⟨.hbm, 115, rfl⟩
abbrev main_v28 : Ref sig .tc := ⟨.hbm, 116, rfl⟩
abbrev main_v29 : Ref sig .tc := ⟨.hbm, 117, rfl⟩
abbrev main_c_10 : Ref sig .tc := ⟨.hbm, 118, rfl⟩
abbrev main_v30 : Ref sig .tc := ⟨.hbm, 119, rfl⟩
abbrev main_cst_11 : Ref sig .tc := ⟨.hbm, 120, rfl⟩
abbrev main_v31 : Ref sig .tc := ⟨.hbm, 121, rfl⟩
abbrev main_c_12 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_c_13 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_c_14 : Ref sig .tc := ⟨.hbm, 131, rfl⟩
abbrev main_v39 : Ref sig .tc := ⟨.hbm, 132, rfl⟩
abbrev main_cst_15 : Ref sig .tc := ⟨.hbm, 133, rfl⟩
abbrev main_call7_v0 : Ref sig .tc := ⟨.hbm, 134, rfl⟩
abbrev main_call7_v1 : Ref sig .tc := ⟨.hbm, 135, rfl⟩
abbrev main_v40 : Ref sig .tc := ⟨.hbm, 136, rfl⟩
abbrev main_cst_16 : Ref sig .tc := ⟨.hbm, 137, rfl⟩
abbrev main_v41 : Ref sig .tc := ⟨.hbm, 138, rfl⟩
abbrev main_c_17 : Ref sig .tc := ⟨.hbm, 139, rfl⟩
abbrev main_v42 : Ref sig .tc := ⟨.hbm, 140, rfl⟩
abbrev main_c_18 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_cst_19 : Ref sig .tc := ⟨.hbm, 145, rfl⟩
abbrev main_v46 : Ref sig .tc := ⟨.hbm, 146, rfl⟩

abbrev nD : Nat := 1
abbrev τ : Topo := Topo.v7x

variable {F : FTy → Type} [FloatOps F]

class Facts₀ : Prop where
  slices_S32x1024x2_S32x1024x1_0_0_0 : S32x1024x2.Slices ![0, 0, 0] S32x1024x1
  shapeCasts_S32x1024x1_S32x1024 : S32x1024x1.ShapeCasts S32x1024
  slices_S32x1024x2_S32x1024x1_0_0_1 : S32x1024x2.Slices ![0, 0, 1] S32x1024x1
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  h_S_ : 0 < S_.numel
  bcast_S32x1024_S32x1024x256_0_1 : S32x1024.BroadcastsInDim S32x1024x256 (![0, 1] : Fin 2 → Fin S32x1024x256.rank)
  bcast_S_S32x1024x256 : S_.BroadcastsInDim S32x1024x256 (![] : Fin 0 → Fin S32x1024x256.rank)
  bcast_S_S32x1024x2048 : S_.BroadcastsInDim S32x1024x2048 (![] : Fin 0 → Fin S32x1024x2048.rank)
  reducesTo_S32x1024x2048_S32x1024_d2 : S32x1024x2048.ReducesTo [2] S32x1024
  bcast_S32x1024x1_S32x1024x2048_0_1_2 : S32x1024x1.BroadcastsInDim S32x1024x2048 (![0, 1, 2] : Fin 3 → Fin S32x1024x2048.rank)
  shapeCasts_S32x1024x1_S32x1024x1x1 : S32x1024x1.ShapeCasts S32x1024x1x1
  bcast_S_S32x1024x1x1 : S_.BroadcastsInDim S32x1024x1x1 (![] : Fin 0 → Fin S32x1024x1x1.rank)
  bcast_S1_S1x1x1x1_3 : S1.BroadcastsInDim S1x1x1x1 (![3] : Fin 1 → Fin S1x1x1x1.rank)
  bcast_S1x1x1x1_S32x1024x1x1_0_1_2_3 : S1x1x1x1.BroadcastsInDim S32x1024x1x1 (![0, 1, 2, 3] : Fin 4 → Fin S32x1024x1x1.rank)
  reducesTo_S32x1024x1x1_S32x1024x1_d3 : S32x1024x1x1.ReducesTo [3] S32x1024x1
  natLt_1_32 : 1 < 32
  reducesTo_S32x1024_S32_d1 : S32x1024.ReducesTo [1] S32
  bcast_S_S32 : S_.BroadcastsInDim S32 (![] : Fin 0 → Fin S32.rank)
  reducesTo_S32_S_d0 : S32.ReducesTo [0] S_
  gather_S32x2048x256_S32x1024x1_S32x1024x256_2_1_0_0_1_2_11256_wf : GatherDims.WF S32x2048x256 S32x1024x1 S32x1024x256 [2] [1] [0] [1] [0] 2 ![1, 1, 256]
  dot_S32x1024x256_S32x2048x256_S32x1024x2048_2_2_1_1_0_0_wf : DotDims.WF S32x1024x256 S32x2048x256 S32x1024x2048 [2] [2] [1] [1] [0] [0]
  gather_S32x1024x2048_S32x1024x1x1_S32x1024x1_n_2_01_01_2_3_111_wf : GatherDims.WF S32x1024x2048 S32x1024x1x1 S32x1024x1 [] [2] [0, 1] [2] [0, 1] 3 ![1, 1, 1]

variable [Facts₀]

def gather_S32x2048x256_S32x1024x1_S32x1024x256_2_1_0_0_1_2_11256 : GatherDims S32x2048x256 S32x1024x1 S32x1024x256 where
  offsetDims := [2]
  collapsedSliceDims := [1]
  operandBatchingDims := [0]
  startIndicesBatchingDims := [0]
  startIndexMap := [1]
  indexVectorDim := 2
  sliceSizes := ![1, 1, 256]
  wf := gather_S32x2048x256_S32x1024x1_S32x1024x256_2_1_0_0_1_2_11256_wf
def dot_S32x1024x256_S32x2048x256_S32x1024x2048_2_2_1_1_0_0 : DotDims S32x1024x256 S32x2048x256 S32x1024x2048 where
  lhsContracting := [2]
  rhsContracting := [2]
  lhsNonContracting := [1]
  rhsNonContracting := [1]
  lhsBatch := [0]
  rhsBatch := [0]
  wf := dot_S32x1024x256_S32x2048x256_S32x1024x2048_2_2_1_1_0_0_wf
def gather_S32x1024x2048_S32x1024x1x1_S32x1024x1_n_2_01_01_2_3_111 : GatherDims S32x1024x2048 S32x1024x1x1 S32x1024x1 where
  offsetDims := []
  collapsedSliceDims := [2]
  operandBatchingDims := [0, 1]
  startIndicesBatchingDims := [0, 1]
  startIndexMap := [2]
  indexVectorDim := 3
  sliceSizes := ![1, 1, 1]
  wf := gather_S32x1024x2048_S32x1024x1x1_S32x1024x1_n_2_01_01_2_3_111_wf

class Facts : Prop extends Facts₀ where

variable [Facts]
-- ==== Proof.LibTypedRef.lean ====
/-
  General lemma: typed references' transports cancel.
  A host function that jax outlined (log_softmax, take_along_axis, …) prints over typed references, whose operations move a
  value to the buffer's own type and back (a cast along the reference's type equation). Reading a line of such operations
  with the library's result lemmas leaves every stage wrapped in `ofBuf (toBuf v)`; this lemma removes the wrapping,
  for any typed reference, with no look at the signature's tables — apply it by `simp only` before comparing the composed term
  with its stages.
-/
import Idealize.ShloMosaic.Lib.StableHlo

noncomputable section

open Idealize.ShloMosaic Idealize.ShloMosaic.StableHlo

namespace Cert.Lib.TypedRef

/-- A value moved to a typed reference's buffer type and back is the value. -/
theorem ofBuf_toBuf {sig : RefSig} {Val : EltTy → Type} {T : BufTy} (x : TRef sig T) (v : T.Contents Val) :
    x.ofBuf (x.toBuf v) = v := by
  unfold TRef.ofBuf TRef.toBuf
  simp only [cast_cast, cast_eq]

end Cert.Lib.TypedRef

end
-- ==== Proof.RefRunValue.lean ====
/-
  The reference's run, stated over the stages of its read-back: every weakly fair execution of the reference
  terminates with its result at the last stage's value of the three arguments, the arguments unchanged.

  The 144 operations run in order, each writing its own buffer. They are read here in four consecutive stretches —
  the shared beginning up to the gathered query descriptors (operations 1–58), the logits and their log-softmax
  (59–85), the gather of the target's log-probability, its sign and mask (86–114), and the sums, counts and means
  (115–144) — each over ANY contents of the buffers before it, with what the earlier stretches left as hypotheses;
  only five buffers are read across a cut (the flags, the clipped targets, the descriptors, the log-softmax, the
  masked losses). The operations of an outlined function move each value to its buffer's own type and back; those
  transports cancel in pairs (Proof/LibTypedRef.lean); the few that stand alone at a seam with a plain operation
  are identities, stated one buffer at a time below. The four lists repeat the generated operation list, cut at operations 58, 85 and 114.
-/
import proofs.«403447_j22960895164759_3_alg».proof.Proof.RefRun
import proofs.«403447_j22960895164759_3_alg».proof.Proof.RefRead
import proofs.«403447_j22960895164759_3_alg».proof.Proof.LibTypedRef
import Idealize.ShloMosaic.Lib.StableHlo.Run
import Idealize.ShloMosaic.Lib.Pipeline.Frame

noncomputable section

namespace Cert.ReferenceIdeal.RunValue

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-- Operations 1–58: the validity flags, the clipped indices, the gather of the query descriptors. -/
abbrev opsA : List (HloOp τ sig (Elt F)) :=
  [ unary main_arg2 main_v0 ((extractStridedSlice S32x1024x1 ![0, 0, 0] · slices_S32x1024x2_S32x1024x1_0_0_0) : (⟨S32x1024x2, .i32⟩ : BufTy).Contents (Elt F) → (⟨S32x1024x1, .i32⟩ : BufTy).Contents (Elt F)),
    reshape main_v0 main_v1 rfl shapeCasts_S32x1024x1_S32x1024,
    unary main_arg2 main_v2 ((extractStridedSlice S32x1024x1 ![0, 0, 1] · slices_S32x1024x2_S32x1024x1_0_0_1) : (⟨S32x1024x2, .i32⟩ : BufTy).Contents (Elt F) → (⟨S32x1024x1, .i32⟩ : BufTy).Contents (Elt F)),
    reshape main_v2 main_v3 rfl shapeCasts_S32x1024x1_S32x1024,
    nullary main_c (constantI S_ 32 0#32),
    unary main_c main_v4 (broadcastInDim S32x1024 ![] bcast_S_S32x1024 : (⟨S_, .i32⟩ : BufTy).Contents (Elt F) → (⟨S32x1024, .i32⟩ : BufTy).Contents (Elt F)),
    binary main_v1 main_v4 main_v5 (cmpi .sge : (⟨S32x1024, .i32⟩ : BufTy).Contents (Elt F) → (⟨S32x1024, .i32⟩ : BufTy).Contents (Elt F) → (⟨S32x1024, .i1⟩ : BufTy).Contents (Elt F)),
    nullary main_c_0 (constantI S_ 32 2048#32),
    unary main_c_0 main_v6 (broadcastInDim S32x1024 ![] bcast_S_S32x1024 : (⟨S_, .i32⟩ : BufTy).Contents (Elt F) → (⟨S32x1024, .i32⟩ : BufTy).Contents (Elt F)),
    binary main_v1 main_v6 main_v7 (cmpi .slt : (⟨S32x1024, .i32⟩ : BufTy).Contents (Elt F) → (⟨S32x1024, .i32⟩ : BufTy).Contents (Elt F) → (⟨S32x1024, .i1⟩ : BufTy).Contents (Elt F)),
    binary main_v5 main_v7 main_v8 (andi : (⟨S32x1024, .i1⟩ : BufTy).Contents (Elt F) → (⟨S32x1024, .i1⟩ : BufTy).Contents (Elt F) → (⟨S32x1024, .i1⟩ : BufTy).Contents (Elt F)),
    nullary main_c_1 (constantI S_ 32 0#32),
    unary main_c_1 main_v9 (broadcastInDim S32x1024 ![] bcast_S_S32x1024 : (⟨S_, .i32⟩ : BufTy).Contents (Elt F) → (⟨S32x1024, .i32⟩ : BufTy).Contents (Elt F)),
    binary main_v3 main_v9 main_v10 (cmpi .sge : (⟨S32x1024, .i32⟩ : BufTy).Contents (Elt F) → (⟨S32x1024, .i32⟩ : BufTy).Contents (Elt F) → (⟨S32x1024, .i1⟩ : BufTy).Contents (Elt F)),
    binary main_v8 main_v10 main_v11 (andi : (⟨S32x1024, .i1⟩ : BufTy).Contents (Elt F) → (⟨S32x1024, .i1⟩ : BufTy).Contents (Elt F) → (⟨S32x1024, .i1⟩ : BufTy).Contents (Elt F)),
    nullary main_c_2 (constantI S_ 32 2048#32),
    unary main_c_2 main_v12 (broadcastInDim S32x1024 ![] bcast_S_S32x1024 : (⟨S_, .i32⟩ : BufTy).Contents (Elt F) → (⟨S32x1024, .i32⟩ : BufTy).Contents (Elt F)),
    binary main_v3 main_v12 main_v13 (cmpi .slt : (⟨S32x1024, .i32⟩ : BufTy).Contents (Elt F) → (⟨S32x1024, .i32⟩ : BufTy).Contents (Elt F) → (⟨S32x1024, .i1⟩ : BufTy).Contents (Elt F)),
    binary main_v11 main_v13 main_v14 (andi : (⟨S32x1024, .i1⟩ : BufTy).Contents (Elt F) → (⟨S32x1024, .i1⟩ : BufTy).Contents (Elt F) → (⟨S32x1024, .i1⟩ : BufTy).Contents (Elt F)),
    nullary main_c_3 (constantI S_ 32 0#32),
    nullary main_c_4 (constantI S_ 32 2047#32),
    TRef.unary (TRef.of (T := ⟨S_, .i32⟩) main_c_3) (TRef.of (T := ⟨S_, .i32⟩) main_call0_v0) id,
    TRef.unary (TRef.of (T := ⟨S_, .i32⟩) main_call0_v0) (TRef.of (T := ⟨S32x1024, .i32⟩) main_call0_v1) (broadcastInDim S32x1024 ![] bcast_S_S32x1024),
    TRef.binary (TRef.of (T := ⟨S32x1024, .i32⟩) main_call0_v1) (TRef.of (T := ⟨S32x1024, .i32⟩) main_v1) (TRef.of (T := ⟨S32x1024, .i32⟩) main_call0_v2) maxsi,
    TRef.unary (TRef.of (T := ⟨S_, .i32⟩) main_c_4) (TRef.of (T := ⟨S_, .i32⟩) main_call0_v3) id,
    TRef.unary (TRef.of (T := ⟨S_, .i32⟩) main_call0_v3) (TRef.of (T := ⟨S32x1024, .i32⟩) main_call0_v4) (broadcastInDim S32x1024 ![] bcast_S_S32x1024),
    TRef.binary (TRef.of (T := ⟨S32x1024, .i32⟩) main_call0_v4) (TRef.of (T := ⟨S32x1024, .i32⟩) main_call0_v2) (TRef.of (T := ⟨S32x1024, .i32⟩) main_v15) minsi,
    nullary main_c_5 (constantI S_ 32 0#32),
    nullary main_c_6 (constantI S_ 32 2047#32),
    TRef.unary (TRef.of (T := ⟨S_, .i32⟩) main_c_5) (TRef.of (T := ⟨S_, .i32⟩) main_call1_v0) id,
    TRef.unary (TRef.of (T := ⟨S_, .i32⟩) main_call1_v0) (TRef.of (T := ⟨S32x1024, .i32⟩) main_call1_v1) (broadcastInDim S32x1024 ![] bcast_S_S32x1024),
    TRef.binary (TRef.of (T := ⟨S32x1024, .i32⟩) main_call1_v1) (TRef.of (T := ⟨S32x1024, .i32⟩) main_v3) (TRef.of (T := ⟨S32x1024, .i32⟩) main_call1_v2) maxsi,
    TRef.unary (TRef.of (T := ⟨S_, .i32⟩) main_c_6) (TRef.of (T := ⟨S_, .i32⟩) main_call1_v3) id,
    TRef.unary (TRef.of (T := ⟨S_, .i32⟩) main_call1_v3) (TRef.of (T := ⟨S32x1024, .i32⟩) main_call1_v4) (broadcastInDim S32x1024 ![] bcast_S_S32x1024),
    TRef.binary (TRef.of (T := ⟨S32x1024, .i32⟩) main_call1_v4) (TRef.of (T := ⟨S32x1024, .i32⟩) main_call1_v2) (TRef.of (T := ⟨S32x1024, .i32⟩) main_v16) minsi,
    unary main_v15 main_v17 (broadcastInDim S32x1024x1 ![0, 1] bcast_S32x1024_S32x1024x1_0_1 : (⟨S32x1024, .i32⟩ : BufTy).Contents (Elt F) → (⟨S32x1024x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x1024x1, .i32⟩) main_call2_v0) (broadcastInDim S32x1024x1 ![] bcast_S_S32x1024x1),
    TRef.binary (TRef.of (T := ⟨S32x1024x1, .i32⟩) main_v17) (TRef.of (T := ⟨S32x1024x1, .i32⟩) main_call2_v0) (TRef.of (T := ⟨S32x1024x1, .i1⟩) main_call2_v1) (cmpi .slt),
    TRef.nullary (TRef.of (T := ⟨S_, .i32⟩) main_call2_c_0) (constantI S_ 32 2048#32),
    TRef.unary (TRef.of (T := ⟨S_, .i32⟩) main_call2_c_0) (TRef.of (T := ⟨S32x1024x1, .i32⟩) main_call2_v2) (broadcastInDim S32x1024x1 ![] bcast_S_S32x1024x1),
    TRef.binary (TRef.of (T := ⟨S32x1024x1, .i32⟩) main_v17) (TRef.of (T := ⟨S32x1024x1, .i32⟩) main_call2_v2) (TRef.of (T := ⟨S32x1024x1, .i32⟩) main_call2_v3) addi,
    TRef.ternary (TRef.of (T := ⟨S32x1024x1, .i1⟩) main_call2_v1) (TRef.of (T := ⟨S32x1024x1, .i32⟩) main_call2_v3) (TRef.of (T := ⟨S32x1024x1, .i32⟩) main_v17) (TRef.of (T := ⟨S32x1024x1, .i32⟩) main_call2_v4) select,
    TRef.nullary (TRef.of (T := ⟨S1, .i32⟩) main_call2_c_1) (constantI S1 32 2047#32),
    TRef.nullary (TRef.of (T := ⟨S_, .i32⟩) main_call2_c_2) (constantI S_ 32 0#32),
    TRef.unary (TRef.of (T := ⟨S_, .i32⟩) main_call2_c_2) (TRef.of (T := ⟨S32x1024x1, .i32⟩) main_call2_v5) (broadcastInDim S32x1024x1 ![] bcast_S_S32x1024x1),
    TRef.binary (TRef.of (T := ⟨S32x1024x1, .i32⟩) main_call2_v4) (TRef.of (T := ⟨S32x1024x1, .i32⟩) main_call2_v5) (TRef.of (T := ⟨S32x1024x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S32x1024x1, .i32⟩) main_call2_v8) (broadcastInDim S32x1024x1 ![0, 1, 2] bcast_S1x1x1_S32x1024x1_0_1_2),
    TRef.binary (TRef.of (T := ⟨S32x1024x1, .i32⟩) main_call2_v4) (TRef.of (T := ⟨S32x1024x1, .i32⟩) main_call2_v8) (TRef.of (T := ⟨S32x1024x1, .i1⟩) main_call2_v9) (cmpi .sle),
    TRef.binary (TRef.of (T := ⟨S32x1024x1, .i1⟩) main_call2_v6) (TRef.of (T := ⟨S32x1024x1, .i1⟩) main_call2_v9) (TRef.of (T := ⟨S32x1024x1, .i1⟩) main_call2_v10) andi,
    TRef.nullary (TRef.of (T := ⟨S_, .i1⟩) main_call2_c_3) (constantI S_ 1 1#1),
    TRef.binary (TRef.of (T := ⟨S32x1024x1, .i1⟩) main_call2_v10) (TRef.of (T := ⟨S_, .i1⟩) main_call2_c_3) (TRef.of (T := ⟨S32x1024, .i1⟩) main_call2_v11) (fun x v => Host.reduce IntOp.andi x v reducesTo_S32x1024x1_S32x1024_d2 h_S_),
    TRef.binary (TRef.of (T := ⟨S32x2048x256, .f32⟩) main_arg0) (TRef.of (T := ⟨S32x1024x1, .i32⟩) main_call2_v4) (TRef.of (T := ⟨S32x1024x256, .f32⟩) main_call2_v12) (fun x i => Host.gather gather_S32x2048x256_S32x1024x1_S32x1024x256_2_1_0_0_1_2_11256 x i),
    TRef.unary (TRef.of (T := ⟨S32x1024, .i1⟩) main_call2_v11) (TRef.of (T := ⟨S32x1024x256, .i1⟩) main_call2_v13) (broadcastInDim S32x1024x256 ![0, 1] bcast_S32x1024_S32x1024x256_0_1),
    TRef.nullary (TRef.of (T := ⟨S_, .f32⟩) main_call2_cst) (constant S_ .f32 0x7FC00000#32),
    TRef.unary (TRef.of (T := ⟨S_, .f32⟩) main_call2_cst) (TRef.of (T := ⟨S32x1024x256, .f32⟩) main_call2_v14) (broadcastInDim S32x1024x256 ![] bcast_S_S32x1024x256),
    TRef.ternary (TRef.of (T := ⟨S32x1024x256, .i1⟩) main_call2_v13) (TRef.of (T := ⟨S32x1024x256, .f32⟩) main_call2_v12) (TRef.of (T := ⟨S32x1024x256, .f32⟩) main_call2_v14) (TRef.of (T := ⟨S32x1024x256, .f32⟩) main_v18) select ]

/-- Operations 59–85: the inner products, the temperature, the clip, the log-softmax. -/
abbrev opsB : List (HloOp τ sig (Elt F)) :=
  [ binary main_v18 main_arg1 main_v19 ((fun l r => Host.dotGeneral dot_S32x1024x256_S32x2048x256_S32x1024x2048_2_2_1_1_0_0 none l r) : (⟨S32x1024x256, .f32⟩ : BufTy).Contents (Elt F) → (⟨S32x2048x256, .f32⟩ : BufTy).Contents (Elt F) → (⟨S32x1024x2048, .f32⟩ : BufTy).Contents (Elt F)),
    nullary main_cst (constant S_ .f32 0x3D8F5C29#32),
    unary main_cst main_v20 (broadcastInDim S32x1024x2048 ![] bcast_S_S32x1024x2048 : (⟨S_, .f32⟩ : BufTy).Contents (Elt F) → (⟨S32x1024x2048, .f32⟩ : BufTy).Contents (Elt F)),
    binary main_v19 main_v20 main_v21 (Host.divf : (⟨S32x1024x2048, .f32⟩ : BufTy).Contents (Elt F) → (⟨S32x1024x2048, .f32⟩ : BufTy).Contents (Elt F) → (⟨S32x1024x2048, .f32⟩ : BufTy).Contents (Elt F)),
    nullary main_cst_7 (constant S_ .f32 0xC2480000#32),
    nullary main_cst_8 (constant S_ .f32 0x42480000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S32x1024x2048, .f32⟩) main_call3_v1) (broadcastInDim S32x1024x2048 ![] bcast_S_S32x1024x2048),
    TRef.binary (TRef.of (T := ⟨S32x1024x2048, .f32⟩) main_call3_v1) (TRef.of (T := ⟨S32x1024x2048, .f32⟩) main_v21) (TRef.of (T := ⟨S32x1024x2048, .f32⟩) main_call3_v2) maximumf,
    TRef.unary (TRef.of (T := ⟨S_, .f32⟩) main_cst_8) (TRef.of (T := ⟨S_, .f32⟩) main_call3_v3) id,
    TRef.unary (TRef.of (T := ⟨S_, .f32⟩) main_call3_v3) (TRef.of (T := ⟨S32x1024x2048, .f32⟩) main_call3_v4) (broadcastInDim S32x1024x2048 ![] bcast_S_S32x1024x2048),
    TRef.binary (TRef.of (T := ⟨S32x1024x2048, .f32⟩) main_call3_v4) (TRef.of (T := ⟨S32x1024x2048, .f32⟩) main_call3_v2) (TRef.of (T := ⟨S32x1024x2048, .f32⟩) main_v22) minimumf,
    TRef.nullary (TRef.of (T := ⟨S_, .f32⟩) main_call4_cst) (constant S_ .f32 0xFF800000#32),
    TRef.binary (TRef.of (T := ⟨S32x1024x2048, .f32⟩) main_v22) (TRef.of (T := ⟨S_, .f32⟩) main_call4_cst) (TRef.of (T := ⟨S32x1024, .f32⟩) main_call4_v0) (fun x v => Host.reduce FloatOps.maximumf x v reducesTo_S32x1024x2048_S32x1024_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S32x1024, .f32⟩) main_call4_v1) (broadcastInDim S32x1024 ![] bcast_S_S32x1024),
    TRef.binary (TRef.of (T := ⟨S32x1024, .f32⟩) main_call4_v1) (TRef.of (T := ⟨S32x1024, .f32⟩) main_call4_v0) (TRef.of (T := ⟨S32x1024, .f32⟩) main_call4_v2) maximumf,
    TRef.unary (TRef.of (T := ⟨S32x1024, .f32⟩) main_call4_v2) (TRef.of (T := ⟨S32x1024x1, .f32⟩) main_call4_v3) (broadcastInDim S32x1024x1 ![0, 1] bcast_S32x1024_S32x1024x1_0_1),
    TRef.unary (TRef.of (T := ⟨S32x1024x1, .f32⟩) main_call4_v3) (TRef.of (T := ⟨S32x1024x2048, .f32⟩) main_call4_v4) (broadcastInDim S32x1024x2048 ![0, 1, 2] bcast_S32x1024x1_S32x1024x2048_0_1_2),
    TRef.binary (TRef.of (T := ⟨S32x1024x2048, .f32⟩) main_v22) (TRef.of (T := ⟨S32x1024x2048, .f32⟩) main_call4_v4) (TRef.of (T := ⟨S32x1024x2048, .f32⟩) main_call4_v5) subf,
    TRef.unary (TRef.of (T := ⟨S32x1024x2048, .f32⟩) main_call4_v5) (TRef.of (T := ⟨S32x1024x2048, .f32⟩) main_call4_v6) Host.exp,
    TRef.nullary (TRef.of (T := ⟨S_, .f32⟩) main_call4_cst_1) (constant S_ .f32 0x00000000#32),
    TRef.binary (TRef.of (T := ⟨S32x1024x2048, .f32⟩) main_call4_v6) (TRef.of (T := ⟨S_, .f32⟩) main_call4_cst_1) (TRef.of (T := ⟨S32x1024, .f32⟩) main_call4_v7) (fun x v => Host.reduceAdd x v reducesTo_S32x1024x2048_S32x1024_d2 h_S_),
    TRef.unary (TRef.of (T := ⟨S32x1024, .f32⟩) main_call4_v7) (TRef.of (T := ⟨S32x1024x1, .f32⟩) main_call4_v8) (broadcastInDim S32x1024x1 ![0, 1] bcast_S32x1024_S32x1024x1_0_1),
    TRef.unary (TRef.of (T := ⟨S32x1024x1, .f32⟩) main_call4_v8) (TRef.of (T := ⟨S32x1024x1, .f32⟩) main_call4_v9) Host.log,
    TRef.unary (TRef.of (T := ⟨S32x1024x1, .f32⟩) main_call4_v9) (TRef.of (T := ⟨S32x1024x2048, .f32⟩) main_call4_v10) (broadcastInDim S32x1024x2048 ![0, 1, 2] bcast_S32x1024x1_S32x1024x2048_0_1_2),
    TRef.binary (TRef.of (T := ⟨S32x1024x2048, .f32⟩) main_call4_v5) (TRef.of (T := ⟨S32x1024x2048, .f32⟩) main_call4_v10) (TRef.of (T := ⟨S32x1024x2048, .f32⟩) main_v23) subf ]

/-- Operations 86–114: the target's log-probability gathered, negated and masked. -/
abbrev opsC : List (HloOp τ sig (Elt F)) :=
  [ unary main_v16 main_v24 (broadcastInDim S32x1024x1 ![0, 1] bcast_S32x1024_S32x1024x1_0_1 : (⟨S32x1024, .i32⟩ : BufTy).Contents (Elt F) → (⟨S32x1024x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S32x1024x1, .i32⟩) main_call5_v0) (broadcastInDim S32x1024x1 ![] bcast_S_S32x1024x1),
    TRef.binary (TRef.of (T := ⟨S32x1024x1, .i32⟩) main_v24) (TRef.of (T := ⟨S32x1024x1, .i32⟩) main_call5_v0) (TRef.of (T := ⟨S32x1024x1, .i1⟩) main_call5_v1) (cmpi .slt),
    TRef.nullary (TRef.of (T := ⟨S_, .i32⟩) main_call5_c_0) (constantI S_ 32 2048#32),
    TRef.unary (TRef.of (T := ⟨S_, .i32⟩) main_call5_c_0) (TRef.of (T := ⟨S32x1024x1, .i32⟩) main_call5_v2) (broadcastInDim S32x1024x1 ![] bcast_S_S32x1024x1),
    TRef.binary (TRef.of (T := ⟨S32x1024x1, .i32⟩) main_v24) (TRef.of (T := ⟨S32x1024x1, .i32⟩) main_call5_v2) (TRef.of (T := ⟨S32x1024x1, .i32⟩) main_call5_v3) addi,
    TRef.ternary (TRef.of (T := ⟨S32x1024x1, .i1⟩) main_call5_v1) (TRef.of (T := ⟨S32x1024x1, .i32⟩) main_call5_v3) (TRef.of (T := ⟨S32x1024x1, .i32⟩) main_v24) (TRef.of (T := ⟨S32x1024x1, .i32⟩) main_call5_v4) select,
    TRef.reshape (TRef.of (T := ⟨S32x1024x1, .i32⟩) main_call5_v4) (TRef.of (T := ⟨S32x1024x1x1, .i32⟩) main_call5_v5) rfl shapeCasts_S32x1024x1_S32x1024x1x1,
    TRef.nullary (TRef.of (T := ⟨S1, .i32⟩) main_call5_c_1) (constantI S1 32 2047#32),
    TRef.nullary (TRef.of (T := ⟨S_, .i32⟩) main_call5_c_2) (constantI S_ 32 0#32),
    TRef.unary (TRef.of (T := ⟨S_, .i32⟩) main_call5_c_2) (TRef.of (T := ⟨S32x1024x1x1, .i32⟩) main_call5_v6) (broadcastInDim S32x1024x1x1 ![] bcast_S_S32x1024x1x1),
    TRef.binary (TRef.of (T := ⟨S32x1024x1x1, .i32⟩) main_call5_v5) (TRef.of (T := ⟨S32x1024x1x1, .i32⟩) main_call5_v6) (TRef.of (T := ⟨S32x1024x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S32x1024x1x1, .i32⟩) main_call5_v9) (broadcastInDim S32x1024x1x1 ![0, 1, 2, 3] bcast_S1x1x1x1_S32x1024x1x1_0_1_2_3),
    TRef.binary (TRef.of (T := ⟨S32x1024x1x1, .i32⟩) main_call5_v5) (TRef.of (T := ⟨S32x1024x1x1, .i32⟩) main_call5_v9) (TRef.of (T := ⟨S32x1024x1x1, .i1⟩) main_call5_v10) (cmpi .sle),
    TRef.binary (TRef.of (T := ⟨S32x1024x1x1, .i1⟩) main_call5_v7) (TRef.of (T := ⟨S32x1024x1x1, .i1⟩) main_call5_v10) (TRef.of (T := ⟨S32x1024x1x1, .i1⟩) main_call5_v11) andi,
    TRef.nullary (TRef.of (T := ⟨S_, .i1⟩) main_call5_c_3) (constantI S_ 1 1#1),
    TRef.binary (TRef.of (T := ⟨S32x1024x1x1, .i1⟩) main_call5_v11) (TRef.of (T := ⟨S_, .i1⟩) main_call5_c_3) (TRef.of (T := ⟨S32x1024x1, .i1⟩) main_call5_v12) (fun x v => Host.reduce IntOp.andi x v reducesTo_S32x1024x1x1_S32x1024x1_d3 h_S_),
    TRef.binary (TRef.of (T := ⟨S32x1024x2048, .f32⟩) main_v23) (TRef.of (T := ⟨S32x1024x1x1, .i32⟩) main_call5_v5) (TRef.of (T := ⟨S32x1024x1, .f32⟩) main_call5_v13) (fun x i => Host.gather gather_S32x1024x2048_S32x1024x1x1_S32x1024x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S32x1024x1, .f32⟩) main_call5_v14) (broadcastInDim S32x1024x1 ![] bcast_S_S32x1024x1),
    TRef.ternary (TRef.of (T := ⟨S32x1024x1, .i1⟩) main_call5_v12) (TRef.of (T := ⟨S32x1024x1, .f32⟩) main_call5_v13) (TRef.of (T := ⟨S32x1024x1, .f32⟩) main_call5_v14) (TRef.of (T := ⟨S32x1024x1, .f32⟩) main_v25) select,
    reshape main_v25 main_v26 rfl shapeCasts_S32x1024x1_S32x1024,
    unary main_v26 main_v27 (Host.negf : (⟨S32x1024, .f32⟩ : BufTy).Contents (Elt F) → (⟨S32x1024, .f32⟩ : BufTy).Contents (Elt F)),
    nullary main_cst_9 (constant S_ .f32 0x00000000#32),
    TRef.unary (TRef.of (T := ⟨S_, .f32⟩) main_cst_9) (TRef.of (T := ⟨S_, .f32⟩) main_call6_v0) id,
    TRef.unary (TRef.of (T := ⟨S_, .f32⟩) main_call6_v0) (TRef.of (T := ⟨S32x1024, .f32⟩) main_call6_v1) (broadcastInDim S32x1024 ![] bcast_S_S32x1024),
    TRef.ternary (TRef.of (T := ⟨S32x1024, .i1⟩) main_v14) (TRef.of (T := ⟨S32x1024, .f32⟩) main_v27) (TRef.of (T := ⟨S32x1024, .f32⟩) main_call6_v1) (TRef.of (T := ⟨S32x1024, .f32⟩) main_v28) select ]

/-- Operations 115–144: the per-batch counts, sums and losses, and their mean. -/
abbrev opsD : List (HloOp τ sig (Elt F)) :=
  [ unary main_v14 main_v29 ((extui 32 · natLt_1_32) : (⟨S32x1024, .i1⟩ : BufTy).Contents (Elt F) → (⟨S32x1024, .i32⟩ : BufTy).Contents (Elt F)),
    nullary main_c_10 (constantI S_ 32 0#32),
    binary main_v29 main_c_10 main_v30 ((fun x v => Host.reduce IntOp.addi x v reducesTo_S32x1024_S32_d1 h_S_) : (⟨S32x1024, .i32⟩ : BufTy).Contents (Elt F) → (⟨S_, .i32⟩ : BufTy).Contents (Elt F) → (⟨S32, .i32⟩ : BufTy).Contents (Elt F)),
    nullary main_cst_11 (constant S_ .f32 0x00000000#32),
    binary main_v28 main_cst_11 main_v31 ((fun x v => Host.reduceAdd x v reducesTo_S32x1024_S32_d1 h_S_) : (⟨S32x1024, .f32⟩ : BufTy).Contents (Elt F) → (⟨S_, .f32⟩ : BufTy).Contents (Elt F) → (⟨S32, .f32⟩ : BufTy).Contents (Elt F)),
    nullary main_c_12 (constantI S_ 32 1#32),
    unary main_c_12 main_v32 (broadcastInDim S32 ![] bcast_S_S32 : (⟨S_, .i32⟩ : BufTy).Contents (Elt F) → (⟨S32, .i32⟩ : BufTy).Contents (Elt F)),
    binary main_v30 main_v32 main_v33 (maxsi : (⟨S32, .i32⟩ : BufTy).Contents (Elt F) → (⟨S32, .i32⟩ : BufTy).Contents (Elt F) → (⟨S32, .i32⟩ : BufTy).Contents (Elt F)),
    unary main_v33 main_v34 (sitofp .f32 : (⟨S32, .i32⟩ : BufTy).Contents (Elt F) → (⟨S32, .f32⟩ : BufTy).Contents (Elt F)),
    binary main_v31 main_v34 main_v35 (Host.divf : (⟨S32, .f32⟩ : BufTy).Contents (Elt F) → (⟨S32, .f32⟩ : BufTy).Contents (Elt F) → (⟨S32, .f32⟩ : BufTy).Contents (Elt F)),
    nullary main_c_13 (constantI S_ 32 0#32),
    unary main_c_13 main_v36 (broadcastInDim S32 ![] bcast_S_S32 : (⟨S_, .i32⟩ : BufTy).Contents (Elt F) → (⟨S32, .i32⟩ : BufTy).Contents (Elt F)),
    binary main_v30 main_v36 main_v37 (cmpi .sgt : (⟨S32, .i32⟩ : BufTy).Contents (Elt F) → (⟨S32, .i32⟩ : BufTy).Contents (Elt F) → (⟨S32, .i1⟩ : BufTy).Contents (Elt F)),
    unary main_v37 main_v38 ((extui 32 · natLt_1_32) : (⟨S32, .i1⟩ : BufTy).Contents (Elt F) → (⟨S32, .i32⟩ : BufTy).Contents (Elt F)),
    nullary main_c_14 (constantI S_ 32 0#32),
    binary main_v38 main_c_14 main_v39 ((fun x v => Host.reduce IntOp.addi x v reducesTo_S32_S_d0 h_S_) : (⟨S32, .i32⟩ : BufTy).Contents (Elt F) → (⟨S_, .i32⟩ : BufTy).Contents (Elt F) → (⟨S_, .i32⟩ : BufTy).Contents (Elt F)),
    nullary main_cst_15 (constant S_ .f32 0x00000000#32),
    TRef.unary (TRef.of (T := ⟨S_, .f32⟩) main_cst_15) (TRef.of (T := ⟨S_, .f32⟩) main_call7_v0) id,
    TRef.unary (TRef.of (T := ⟨S_, .f32⟩) main_call7_v0) (TRef.of (T := ⟨S32, .f32⟩) main_call7_v1) (broadcastInDim S32 ![] bcast_S_S32),
    TRef.ternary (TRef.of (T := ⟨S32, .i1⟩) main_v37) (TRef.of (T := ⟨S32, .f32⟩) main_v35) (TRef.of (T := ⟨S32, .f32⟩) main_call7_v1) (TRef.of (T := ⟨S32, .f32⟩) main_v40) select,
    nullary main_cst_16 (constant S_ .f32 0x00000000#32),
    binary main_v40 main_cst_16 main_v41 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_c_17 (constantI S_ 32 0#32),
    binary main_v39 main_c_17 main_v42 (cmpi .sgt : (⟨S_, .i32⟩ : BufTy).Contents (Elt F) → (⟨S_, .i32⟩ : BufTy).Contents (Elt F) → (⟨S_, .i1⟩ : BufTy).Contents (Elt F)),
    nullary main_c_18 (constantI S_ 32 1#32),
    binary main_v39 main_c_18 main_v43 (maxsi : (⟨S_, .i32⟩ : BufTy).Contents (Elt F) → (⟨S_, .i32⟩ : BufTy).Contents (Elt F) → (⟨S_, .i32⟩ : BufTy).Contents (Elt F)),
    unary main_v43 main_v44 (sitofp .f32 : (⟨S_, .i32⟩ : BufTy).Contents (Elt F) → (⟨S_, .f32⟩ : BufTy).Contents (Elt F)),
    binary main_v41 main_v44 main_v45 (Host.divf : (⟨S_, .f32⟩ : BufTy).Contents (Elt F) → (⟨S_, .f32⟩ : BufTy).Contents (Elt F) → (⟨S_, .f32⟩ : BufTy).Contents (Elt F)),
    nullary main_cst_19 (constant S_ .f32 0x3DCCCCCD#32),
    TRef.ternary (TRef.of (T := ⟨S_, .i1⟩) main_v42) (TRef.of (T := ⟨S_, .f32⟩) main_v45) (TRef.of (T := ⟨S_, .f32⟩) main_cst_19) (TRef.of (T := ⟨S_, .f32⟩) main_v46) select ]

/-- The operation list is the four stretches in order. -/
theorem ops_split : (ops : List (HloOp τ sig (Elt F))) = opsA ++ (opsB ++ (opsC ++ opsD)) := rfl

/-! ## The transports at the seams

Where an outlined function's operation reads a buffer that a plain operation wrote, or writes a buffer a plain
operation reads, the transport stands alone; it is the identity, the buffer's declared type being the value's. One
equation per such buffer, each checked by evaluating that one buffer's type. -/

theorem ofBuf_main_arg0 (p q r) (v : (⟨S32x2048x256, .f32⟩ : BufTy).Contents (Elt F)) : (TRef.of (sig := sig) (T := ⟨S32x2048x256, .f32⟩) main_arg0 p q r).ofBuf (Val := Elt F) v = v := rfl
theorem ofBuf_main_c_3 (p q r) (v : (⟨S_, .i32⟩ : BufTy).Contents (Elt F)) : (TRef.of (sig := sig) (T := ⟨S_, .i32⟩) main_c_3 p q r).ofBuf (Val := Elt F) v = v := rfl
theorem ofBuf_main_c_4 (p q r) (v : (⟨S_, .i32⟩ : BufTy).Contents (Elt F)) : (TRef.of (sig := sig) (T := ⟨S_, .i32⟩) main_c_4 p q r).ofBuf (Val := Elt F) v = v := rfl
theorem ofBuf_main_v1 (p q r) (v : (⟨S32x1024, .i32⟩ : BufTy).Contents (Elt F)) : (TRef.of (sig := sig) (T := ⟨S32x1024, .i32⟩) main_v1 p q r).ofBuf (Val := Elt F) v = v := rfl
theorem ofBuf_main_v17 (p q r) (v : (⟨S32x1024x1, .i32⟩ : BufTy).Contents (Elt F)) : (TRef.of (sig := sig) (T := ⟨S32x1024x1, .i32⟩) main_v17 p q r).ofBuf (Val := Elt F) v = v := rfl
theorem toBuf_main_v15 (p q r) (v : (⟨S32x1024, .i32⟩ : BufTy).Contents (Elt F)) : (TRef.of (sig := sig) (T := ⟨S32x1024, .i32⟩) main_v15 p q r).toBuf (Val := Elt F) v = v := rfl
theorem toBuf_main_v18 (p q r) (v : (⟨S32x1024x256, .f32⟩ : BufTy).Contents (Elt F)) : (TRef.of (sig := sig) (T := ⟨S32x1024x256, .f32⟩) main_v18 p q r).toBuf (Val := Elt F) v = v := rfl
theorem ofBuf_main_call5_v5 (p q r) (v : (⟨S32x1024x1x1, .i32⟩ : BufTy).Contents (Elt F)) : (TRef.of (sig := sig) (T := ⟨S32x1024x1x1, .i32⟩) main_call5_v5 p q r).ofBuf (Val := Elt F) v = v := rfl
theorem ofBuf_main_cst_9 (p q r) (v : (⟨S_, .f32⟩ : BufTy).Contents (Elt F)) : (TRef.of (sig := sig) (T := ⟨S_, .f32⟩) main_cst_9 p q r).ofBuf (Val := Elt F) v = v := rfl
theorem ofBuf_main_v14 (p q r) (v : (⟨S32x1024, .i1⟩ : BufTy).Contents (Elt F)) : (TRef.of (sig := sig) (T := ⟨S32x1024, .i1⟩) main_v14 p q r).ofBuf (Val := Elt F) v = v := rfl
theorem ofBuf_main_v23 (p q r) (v : (⟨S32x1024x2048, .f32⟩ : BufTy).Contents (Elt F)) : (TRef.of (sig := sig) (T := ⟨S32x1024x2048, .f32⟩) main_v23 p q r).ofBuf (Val := Elt F) v = v := rfl
theorem ofBuf_main_v24 (p q r) (v : (⟨S32x1024x1, .i32⟩ : BufTy).Contents (Elt F)) : (TRef.of (sig := sig) (T := ⟨S32x1024x1, .i32⟩) main_v24 p q r).ofBuf (Val := Elt F) v = v := rfl
theorem ofBuf_main_v27 (p q r) (v : (⟨S32x1024, .f32⟩ : BufTy).Contents (Elt F)) : (TRef.of (sig := sig) (T := ⟨S32x1024, .f32⟩) main_v27 p q r).ofBuf (Val := Elt F) v = v := rfl
theorem toBuf_main_call5_v4 (p q r) (v : (⟨S32x1024x1, .i32⟩ : BufTy).Contents (Elt F)) : (TRef.of (sig := sig) (T := ⟨S32x1024x1, .i32⟩) main_call5_v4 p q r).toBuf (Val := Elt F) v = v := rfl
theorem toBuf_main_v25 (p q r) (v : (⟨S32x1024x1, .f32⟩ : BufTy).Contents (Elt F)) : (TRef.of (sig := sig) (T := ⟨S32x1024x1, .f32⟩) main_v25 p q r).toBuf (Val := Elt F) v = v := rfl
theorem toBuf_main_v28 (p q r) (v : (⟨S32x1024, .f32⟩ : BufTy).Contents (Elt F)) : (TRef.of (sig := sig) (T := ⟨S32x1024, .f32⟩) main_v28 p q r).toBuf (Val := Elt F) v = v := rfl
theorem ofBuf_main_cst_15 (p q r) (v : (⟨S_, .f32⟩ : BufTy).Contents (Elt F)) : (TRef.of (sig := sig) (T := ⟨S_, .f32⟩) main_cst_15 p q r).ofBuf (Val := Elt F) v = v := rfl
theorem ofBuf_main_cst_19 (p q r) (v : (⟨S_, .f32⟩ : BufTy).Contents (Elt F)) : (TRef.of (sig := sig) (T := ⟨S_, .f32⟩) main_cst_19 p q r).ofBuf (Val := Elt F) v = v := rfl
theorem ofBuf_main_v35 (p q r) (v : (⟨S32, .f32⟩ : BufTy).Contents (Elt F)) : (TRef.of (sig := sig) (T := ⟨S32, .f32⟩) main_v35 p q r).ofBuf (Val := Elt F) v = v := rfl
theorem ofBuf_main_v37 (p q r) (v : (⟨S32, .i1⟩ : BufTy).Contents (Elt F)) : (TRef.of (sig := sig) (T := ⟨S32, .i1⟩) main_v37 p q r).ofBuf (Val := Elt F) v = v := rfl
theorem ofBuf_main_v42 (p q r) (v : (⟨S_, .i1⟩ : BufTy).Contents (Elt F)) : (TRef.of (sig := sig) (T := ⟨S_, .i1⟩) main_v42 p q r).ofBuf (Val := Elt F) v = v := rfl
theorem ofBuf_main_v45 (p q r) (v : (⟨S_, .f32⟩ : BufTy).Contents (Elt F)) : (TRef.of (sig := sig) (T := ⟨S_, .f32⟩) main_v45 p q r).ofBuf (Val := Elt F) v = v := rfl
theorem toBuf_main_v40 (p q r) (v : (⟨S32, .f32⟩ : BufTy).Contents (Elt F)) : (TRef.of (sig := sig) (T := ⟨S32, .f32⟩) main_v40 p q r).toBuf (Val := Elt F) v = v := rfl
theorem toBuf_main_v46 (p q r) (v : (⟨S_, .f32⟩ : BufTy).Contents (Elt F)) : (TRef.of (sig := sig) (T := ⟨S_, .f32⟩) main_v46 p q r).toBuf (Val := Elt F) v = v := rfl

variable (X : Valuation τ sig (Elt F))

/-! ## The first stretch -/

set_option maxRecDepth 16384 in
set_option maxHeartbeats 8000000 in
theorem afterA_v14 : after (opsA (F := F)) X (Proc.devRef .tc main_v14) = val_main_v14 (F := F) (X (Proc.devRef .tc main_arg2)) := by
  after_results_simp <;> (try simp only [Cert.Lib.TypedRef.ofBuf_toBuf]) <;> rfl

set_option maxRecDepth 16384 in
set_option maxHeartbeats 8000000 in
theorem afterA_v16 : after (opsA (F := F)) X (Proc.devRef .tc main_v16) = val_main_v16 (F := F) (X (Proc.devRef .tc main_arg2)) := by
  after_results_simp <;> (try simp only [Cert.Lib.TypedRef.ofBuf_toBuf]) <;> rfl

set_option maxRecDepth 16384 in
set_option maxHeartbeats 8000000 in
theorem afterA_v18 : after (opsA (F := F)) X (Proc.devRef .tc main_v18) = val_main_v18 (F := F) (X (Proc.devRef .tc main_arg0)) (X (Proc.devRef .tc main_arg2)) := by
  after_results_simp <;> (try simp only [Cert.Lib.TypedRef.ofBuf_toBuf]) <;> (try simp only [ofBuf_main_arg0, ofBuf_main_c_3, ofBuf_main_c_4, ofBuf_main_v1, ofBuf_main_v17, toBuf_main_v15, toBuf_main_v18]) <;> rfl

set_option maxRecDepth 16384 in
set_option maxHeartbeats 8000000 in
theorem afterA_arg (b : Ref sig .tc) (hb : b = main_arg0 ∨ b = main_arg1 ∨ b = main_arg2) : after (opsA (F := F)) X (Proc.devRef .tc b) = X (Proc.devRef .tc b) := by
  rcases hb with rfl | rfl | rfl <;> (after_results_simp <;> rfl)

/-! ## The second stretch -/

set_option maxRecDepth 16384 in
set_option maxHeartbeats 8000000 in
theorem afterB_v23 (x0 x1 : (⟨S32x2048x256, .f32⟩ : BufTy).Contents (Elt F)) (x2 : (⟨S32x1024x2, .i32⟩ : BufTy).Contents (Elt F))
    (h18 : X (Proc.devRef .tc main_v18) = val_main_v18 (F := F) x0 x2) (h1 : X (Proc.devRef .tc main_arg1) = x1) :
    after (opsB (F := F)) X (Proc.devRef .tc main_v23) = val_main_v23 (F := F) x0 x1 x2 := by
  after_results_simp <;> (try simp only [Cert.Lib.TypedRef.ofBuf_toBuf]) <;> (try rw [h18, h1]) <;> rfl

set_option maxRecDepth 16384 in
set_option maxHeartbeats 8000000 in
theorem afterB_keep (b : Ref sig .tc) (hb : b = main_v14 ∨ b = main_v16 ∨ b = main_arg0 ∨ b = main_arg1 ∨ b = main_arg2) :
    after (opsB (F := F)) X (Proc.devRef .tc b) = X (Proc.devRef .tc b) := by
  rcases hb with rfl | rfl | rfl | rfl | rfl <;> (after_results_simp <;> rfl)

/-! ## The third stretch -/

set_option maxRecDepth 16384 in
set_option maxHeartbeats 8000000 in
theorem afterC_v28 (x0 x1 : (⟨S32x2048x256, .f32⟩ : BufTy).Contents (Elt F)) (x2 : (⟨S32x1024x2, .i32⟩ : BufTy).Contents (Elt F))
    (h14 : X (Proc.devRef .tc main_v14) = val_main_v14 (F := F) x2) (h16 : X (Proc.devRef .tc main_v16) = val_main_v16 (F := F) x2)
    (h23 : X (Proc.devRef .tc main_v23) = val_main_v23 (F := F) x0 x1 x2) :
    after (opsC (F := F)) X (Proc.devRef .tc main_v28) = val_main_v28 (F := F) x0 x1 x2 := by
  after_results_simp <;> (try simp only [Cert.Lib.TypedRef.ofBuf_toBuf]) <;> (try simp only [ofBuf_main_call5_v5, ofBuf_main_cst_9, ofBuf_main_v14, ofBuf_main_v23, ofBuf_main_v24, ofBuf_main_v27, toBuf_main_call5_v4, toBuf_main_v25, toBuf_main_v28]) <;> (try rw [h14, h16, h23]) <;> rfl

set_option maxRecDepth 16384 in
set_option maxHeartbeats 8000000 in
theorem afterC_keep (b : Ref sig .tc) (hb : b = main_v14 ∨ b = main_arg0 ∨ b = main_arg1 ∨ b = main_arg2) :
    after (opsC (F := F)) X (Proc.devRef .tc b) = X (Proc.devRef .tc b) := by
  rcases hb with rfl | rfl | rfl | rfl <;> (after_results_simp <;> rfl)

/-! ## The fourth stretch -/

set_option maxRecDepth 16384 in
set_option maxHeartbeats 8000000 in
theorem afterD_v46 (x0 x1 : (⟨S32x2048x256, .f32⟩ : BufTy).Contents (Elt F)) (x2 : (⟨S32x1024x2, .i32⟩ : BufTy).Contents (Elt F))
    (h14 : X (Proc.devRef .tc main_v14) = val_main_v14 (F := F) x2) (h28 : X (Proc.devRef .tc main_v28) = val_main_v28 (F := F) x0 x1 x2) :
    after (opsD (F := F)) X (Proc.devRef .tc main_v46) = val_main_v46 (F := F) x0 x1 x2 := by
  after_results_simp
  simp only [Cert.Lib.TypedRef.ofBuf_toBuf]
  repeat (first | rw [ofBuf_main_cst_15] | rw [ofBuf_main_cst_19] | rw [ofBuf_main_v35] | rw [ofBuf_main_v37] | rw [ofBuf_main_v42] | rw [ofBuf_main_v45] | rw [toBuf_main_v40] | rw [toBuf_main_v46])
  rw [h14, h28]
  rfl
  all_goals first | rfl | decide

set_option maxRecDepth 16384 in
set_option maxHeartbeats 8000000 in
theorem afterD_keep (b : Ref sig .tc) (hb : b = main_arg0 ∨ b = main_arg1 ∨ b = main_arg2) :
    after (opsD (F := F)) X (Proc.devRef .tc b) = X (Proc.devRef .tc b) := by
  rcases hb with rfl | rfl | rfl <;> (after_results_simp <;> rfl)

/-! ## All of them -/

/-- The result buffer after the 144 operations, over any starting contents X: the last stage of X's arguments. -/
theorem after_result :
    after (ops (F := F)) X (Proc.devRef .tc main_v46)
      = val_main_v46 (F := F) (X (Proc.devRef .tc main_arg0)) (X (Proc.devRef .tc main_arg1)) (X (Proc.devRef .tc main_arg2)) := by
  rw [ops_split, StableHlo.after_append, StableHlo.after_append, StableHlo.after_append]
  refine afterD_v46 _ _ _ _ ?_ ?_
  · rw [afterC_keep _ _ (.inl rfl), afterB_keep _ _ (.inl rfl), afterA_v14]
  · refine afterC_v28 _ _ _ _ ?_ ?_ ?_
    · rw [afterB_keep _ _ (.inl rfl), afterA_v14]
    · rw [afterB_keep _ _ (.inr (.inl rfl)), afterA_v16]
    · exact afterB_v23 _ _ _ _ (afterA_v18 X) (afterA_arg X main_arg1 (.inr (.inl rfl)))

/-- An argument's buffer after the 144 operations is as it was. -/
theorem after_arg (b : Ref sig .tc) (hb : b = main_arg0 ∨ b = main_arg1 ∨ b = main_arg2) :
    after (ops (F := F)) X (Proc.devRef .tc b) = X (Proc.devRef .tc b) := by
  rw [ops_split, StableHlo.after_append, StableHlo.after_append, StableHlo.after_append,
    afterD_keep _ b hb, afterC_keep _ b (.inr hb), afterB_keep _ b (.inr (.inr hb)), afterA_arg _ b hb]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = val_main_v46 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v46).trans (after_result _),
      (h c main_arg0).trans (after_arg _ main_arg0 (.inl rfl)),
      (h c main_arg1).trans (after_arg _ main_arg1 (.inr (.inl rfl))),
      (h c main_arg2).trans (after_arg _ main_arg2 (.inr (.inr rfl)))⟩)
    (run_seq scopedRefs_eq scopedSems_eq defs main (fun _ => ops) main_eq (fun _ => ops_sub) m ρ)

end Cert.ReferenceIdeal.RunValue

end
-- ==== Proof.KTail.lean ====
/-
  After the region. The host lines that follow it read only the two result arrays [32,2,1,1]: each batch's loss
  sum and count are the sums of its two tiles' entries, its loss the quotient of the sum by the count (at least
  one), its flag "count > 0"; and the result is the mean of the flagged batches' losses, the sum divided by the
  number of flags (at least one), or the pattern of 0.1 when no batch is flagged.
-/
import proofs.«403447_j22960895164759_3_alg».proof.Proof.Gen.KernelIdeal.Frame
import Idealize.ShloMosaic.Lib.StableHlo.Run
import Idealize.ShloMosaic.Lib.Pipeline.Value

noncomputable section

namespace Cert.KernelIdeal.HostOut

open Cert.KernelIdeal Cert.KernelIdeal.Gen Idealize.ShloMosaic Idealize.ShloMosaic.TcCoe Idealize.SL.Sem Idealize.ShloMosaic.StableHlo

variable {F : FTy → Type} [FloatOps F] [Named F]

/-- A per-batch vector from a result array: the two tiles' entries added from +0.0. -/
def tilesAdded (s : (⟨S32x2x1x1, .f32⟩ : BufTy).Contents (Elt F)) : (⟨S32, .f32⟩ : BufTy).Contents (Elt F) :=
  Host.reduceAdd (shapeCast S32x2 s shapeCasts_S32x2x1x1_S32x2) (constant S_ .f32 0x00000000#32) reducesTo_S32x2_S32_d1 h_S_

/-- A batch's loss: its loss sum over its count, the count at least 1. -/
def lossVec (s n : (⟨S32x2x1x1, .f32⟩ : BufTy).Contents (Elt F)) : (⟨S32, .f32⟩ : BufTy).Contents (Elt F) :=
  Host.divf (tilesAdded s) (maximumf (tilesAdded n) (broadcastInDim S32 ![] bcast_S_S32 (constant S_ .f32 0x3F800000#32)))

/-- A batch's flag: it has a valid match. -/
def hasVec (n : (⟨S32x2x1x1, .f32⟩ : BufTy).Contents (Elt F)) : (⟨S32, .i1⟩ : BufTy).Contents (Elt F) :=
  cmpf .ogt (tilesAdded n) (broadcastInDim S32 ![] bcast_S_S32 (constant S_ .f32 0x00000000#32))

/-- The number of flagged batches, as a 32-bit word. -/
def flagCount (hv : (⟨S32, .i1⟩ : BufTy).Contents (Elt F)) : (⟨S_, .i32⟩ : BufTy).Contents (Elt F) :=
  Host.reduce IntOp.addi (extui 32 hv natLt_1_32) (constantI S_ 32 0#32) reducesTo_S32_S_d0 h_S_

/-- The mean of the flagged batches' losses, or the pattern of 0.1 when there is none. -/
def meanOf (hv : (⟨S32, .i1⟩ : BufTy).Contents (Elt F)) (bl : (⟨S32, .f32⟩ : BufTy).Contents (Elt F)) : (⟨S_, .f32⟩ : BufTy).Contents (Elt F) :=
  select (cmpi .sgt (flagCount (F := F) hv) (constantI S_ 32 0#32))
    (Host.divf
      (Host.reduceAdd (select hv bl (broadcastInDim S32 ![] bcast_S_S32 (id (constant S_ .f32 0x00000000#32)))) (constant S_ .f32 0x00000000#32) reducesTo_S32_S_d0 h_S_)
      (sitofp .f32 (maxsi (flagCount (F := F) hv) (constantI S_ 32 1#32))))
    (constant S_ .f32 0x3DCCCCCD#32)

variable (m : (ℓ : Loc nD τ sig) → Buf (Elt F) ℓ)

/-- The two result arrays after the region. -/
abbrev sumA (c : Dev nD) : (⟨S32x2x1x1, .f32⟩ : BufTy).Contents (Elt F) := (dats m 0 c).arrAt 3 cfg0.N
abbrev cntA (c : Dev nD) : (⟨S32x2x1x1, .f32⟩ : BufTy).Contents (Elt F) := (dats m 0 c).arrAt 4 cfg0.N

set_option maxRecDepth 16384 in
set_option maxHeartbeats 4000000 in
/-- The host lines after the region, over any contents X of the buffers: the result is the mean over the batches
    read off the two result arrays as X holds them. -/
theorem tail_of (X : Valuation τ sig (Elt F)) :
    StableHlo.after (List.flatten [hostOps1, hostOps1_1, hostOps1_2, hostOps1_3]) X (Proc.devRef .tc main_v40)
      = meanOf (hasVec (X (Proc.devRef .tc main_v22_1))) (lossVec (X (Proc.devRef .tc main_v22_0)) (X (Proc.devRef .tc main_v22_1))) := by
  simp only [hostOps1, hostOps1_1, hostOps1_2, hostOps1_3, List.flatten_cons, List.flatten_nil, List.append_nil, List.cons_append, List.nil_append]
  after_results_simp <;> rfl

theorem result_eq (c : Dev nD) :
    Pipeline.afterTail₀ cfgs (dats m) 0 (V0 m) [hostOps1, hostOps1_1, hostOps1_2, hostOps1_3] c main_v40
      = meanOf (hasVec (cntA m c)) (lossVec (sumA m c) (cntA m c)) := by
  unfold Pipeline.afterTail₀
  rw [tail_of]
  have e3 : Pipeline.withArrays (cfgs 0).spec c (V0 m c) (fun w => (dats m 0 c).arrAt w (cfgs 0).N) (Proc.devRef .tc main_v22_0) = sumA m c :=
    Pipeline.withArrays_arr spec0 launch0.win.arr_inj c _ _ 3
  have e4 : Pipeline.withArrays (cfgs 0).spec c (V0 m c) (fun w => (dats m 0 c).arrAt w (cfgs 0).N) (Proc.devRef .tc main_v22_1) = cntA m c :=
    Pipeline.withArrays_arr spec0 launch0.win.arr_inj c _ _ 4
  rw [e3, e4]

end Cert.KernelIdeal.HostOut

end
-- ==== Proof.Spec.lean ====
/-
  The mathematics both programs compute, row by row, over the extended reals.

  A match (b, m) pairs a query descriptor a = md1[b, m, :] (256 entries) with the key matrix B = desc2[b, :, :]
  (2048 rows). Its logits are the inner products a · B[n], scaled by the inverse temperature and clipped to
  [-50, 50]; its loss is the cross-entropy of the softmax of the logits against the target column:
  log-sum-exp(logits) − logits[target], the log-sum-exp taken stably around the row maximum. A batch's loss is the
  sum of its valid matches' losses over their number (at least one), and the result the mean of the batches that
  have a valid match (0.1 when none has).

  This module fixes the row-level functions and the per-tile and per-batch sums built from them; it imports no
  program. The inverse temperature is the closed form 1 / D of the divisor D = 9395241 / 2^27 the reference
  divides by, so a product with it is the quotient by D on every extended real.
-/
import Idealize.ShloMosaic.PureOps.Ideal
import Idealize.ShloMosaic.PureOps.Ideal.Laws
import Idealize.ShloMosaic.Lib.ValueIdx

noncomputable section

namespace Cert.MatchLoss

open Idealize.ShloMosaic Idealize.ShloMosaic.ValueIdx

/-- The inverse temperature: the reciprocal of the divisor 9395241 / 2^27. -/
def invTemp : EReal := ((134217728 / 9395241 : ℝ) : EReal)

/-- The clip's lower and upper bounds, −50 and 50, as the patterns both programs carry. -/
abbrev clipLo : EReal := Ideal.ofBits .f32 0xC2480000#32
abbrev clipHi : EReal := Ideal.ofBits .f32 0x42480000#32
/-- The maximum's initial value, the pattern of −∞. -/
abbrev negInf : EReal := Ideal.ofBits .f32 0xFF800000#32
/-- The pattern of +0.0, the initial value of every sum. -/
abbrev zeroF : EReal := Ideal.ofBits .f32 0x00000000#32

/-- Logit n of a row: the inner product with key n, times the inverse temperature, clipped to [−50, 50]. -/
def logitR (a : Fin 256 → EReal) (B : Fin 2048 → Fin 256 → EReal) (n : Fin 2048) : EReal :=
  min clipHi (max clipLo ((∑ d : Fin 256, a d * B n d) * invTemp))

/-- The row's largest logit (a fold of max from −∞ over the 2048 keys). -/
def maxR (a : Fin 256 → EReal) (B : Fin 2048 → Fin 256 → EReal) : EReal :=
  Finset.univ.fold max negInf (logitR a B)

/-- The row's log-sum-exp, computed around its maximum. -/
def lseR (a : Fin 256 → EReal) (B : Fin 2048 → Fin 256 → EReal) : EReal :=
  Ideal.log (∑ n : Fin 2048, Ideal.exp (logitR a B n - maxR a B)) + maxR a B

/-- The column a word names: its value as a natural number, reduced into the 2048 keys (the identity on a word
    in [0, 2047]). -/
def pick (w : BitVec 32) : Fin 2048 := ⟨w.toNat % 2048, Nat.mod_lt _ (by norm_num)⟩

/-- The row's cross-entropy against target word w. -/
def lossR (a : Fin 256 → EReal) (B : Fin 2048 → Fin 256 → EReal) (w : BitVec 32) : EReal :=
  lseR a B - logitR a B (pick w)

/-- A target word clamped into [0, 2047] as signed words. -/
def clampW (w : BitVec 32) : BitVec 32 := IntOp.minsi 2047#32 (IntOp.maxsi 0#32 w)

/-- The flag "the word is non-negative" as a number, 1 or 0. -/
def flagW (w : BitVec 32) : EReal := (((IntOp.cmpi .sge w 0#32).setWidth 32).toInt : ℝ)

/-- Row r of tile t among a batch's 1024 matches. -/
def rowOf (t : Fin 2) (r : Fin 512) : Fin 1024 := ⟨512 * t.val + r.val, by have := t.isLt; have := r.isLt; omega⟩

/-- A tile's masked loss sum, from the merged target words (a negative word marks an invalid match: its flag is
    0 and its loss, read at the clamped word, is multiplied away). -/
def tileSum (a : Fin 512 → Fin 256 → EReal) (B : Fin 2048 → Fin 256 → EReal) (w : Fin 512 → BitVec 32) : EReal :=
  ∑ r : Fin 512, lossR (a r) B (clampW (w r)) * flagW (w r)

/-- A tile's count of valid matches, as a number. -/
def tileCnt (w : Fin 512 → BitVec 32) : EReal := ∑ r : Fin 512, flagW (w r)

/-- A batch's loss sum over its valid matches. -/
def batchSum (a : Fin 1024 → Fin 256 → EReal) (B : Fin 2048 → Fin 256 → EReal) (valid : Fin 1024 → BitVec 1)
    (w : Fin 1024 → BitVec 32) : EReal :=
  ∑ m : Fin 1024, if valid m = 1#1 then lossR (a m) B (w m) else 0

/-- A batch's number of valid matches. -/
def batchCnt (valid : Fin 1024 → BitVec 1) : ℕ := (Finset.univ.filter fun m : Fin 1024 => valid m = 1#1).card

end Cert.MatchLoss

end
-- ==== Proof.KBody.lean ====
/-
  What the kernel body leaves in its two output blocks at one grid point, as the tile-level sums of Spec.lean:
  block 3 holds the tile's masked loss sum and block 4 its count of valid matches, each a [1,1,1,1] block, from
  the query block x0 [1,512,256], the key block x1 [1,2048,256] and the merged target words x2 [1,512,1].

  The body's arithmetic is read index by index: the product at (r, n) is the inner product of query row r with key
  row n; scaled and clipped it is logit n of row r; a row's maximum, its sum of exponentials and its one-hot sum
  against the clamped target word give the row's log-sum-exp and its logit at the target; the flag is the word's
  sign test as a number; and the two final column sums over the 512 rows are the tile's sums.
-/
import proofs.«403447_j22960895164759_3_alg».proof.Proof.Gen.KernelIdeal.Frame
import proofs.«403447_j22960895164759_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.WordArith

noncomputable section

namespace Cert.KernelIdeal.Body

open Cert.KernelIdeal Cert.KernelIdeal.Gen Idealize.ShloMosaic Idealize.ShloMosaic.ValueIdx Cert.MatchLoss

/-! ## The contraction: one row of queries against one row of keys, over the 256 entries -/

/-- On the left operand, axis 0 reads the output's row; -/
private theorem lhs_0 (j : S512x2048.Idx) (k : dot_S512x256_S2048x256_S512x2048_1_1_0_0_n_n.contr.Idx) :
    (dot_S512x256_S2048x256_S512x2048_1_1_0_0_n_n.lhsIdx j k (0 : Fin 2)).val = (j 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl

/-- axis 1 reads the contracted entry. -/
private theorem lhs_1 (j : S512x2048.Idx) (k : dot_S512x256_S2048x256_S512x2048_1_1_0_0_n_n.contr.Idx) :
    (dot_S512x256_S2048x256_S512x2048_1_1_0_0_n_n.lhsIdx j k (1 : Fin 2)).val = (k ⟨0, by decide⟩).val :=
  dot_S512x256_S2048x256_S512x2048_1_1_0_0_n_n.lhsIdx_val_of_single (cl := (1 : Fin 2)) rfl j k

/-- On the right operand, axis 0 reads the output's column; -/
private theorem rhs_0 (j : S512x2048.Idx) (k : dot_S512x256_S2048x256_S512x2048_1_1_0_0_n_n.contr.Idx) :
    (dot_S512x256_S2048x256_S512x2048_1_1_0_0_n_n.rhsIdx j k (0 : Fin 2)).val = (j 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl

/-- axis 1 reads the contracted entry. -/
private theorem rhs_1 (j : S512x2048.Idx) (k : dot_S512x256_S2048x256_S512x2048_1_1_0_0_n_n.contr.Idx) :
    (dot_S512x256_S2048x256_S512x2048_1_1_0_0_n_n.rhsIdx j k (1 : Fin 2)).val = (k ⟨0, by decide⟩).val :=
  dot_S512x256_S2048x256_S512x2048_1_1_0_0_n_n.rhsIdx_val_of_single (cr := (1 : Fin 2)) rfl j k

/-- The product into a zero accumulator, at (r, n), is the inner product of row r of the left operand with row n of
    the right one. -/
theorem matmul_at (A : FVec Ideal S512x256 .bf16) (B : FVec Ideal S2048x256 .bf16) (r : Fin 512) (n : Fin 2048) :
    matmul dot_S512x256_S2048x256_S512x2048_1_1_0_0_n_n none A B (constant (F := Ideal) S512x2048 .f32 0x00000000#32) (ix2 r n)
      = ∑ d : Fin 256, A (ix2 r d) * B (ix2 n d) := by
  simp only [matmul]
  rw [Ideal.matmul_constant_zero_apply,
    ← Equiv.sum_comp (contrEquiv1 dot_S512x256_S2048x256_S512x2048_1_1_0_0_n_n 256 rfl rfl).symm]
  refine Finset.sum_congr rfl fun d _ => ?_
  have hl : dot_S512x256_S2048x256_S512x2048_1_1_0_0_n_n.lhsIdx (ix2 r n)
      ((contrEquiv1 dot_S512x256_S2048x256_S512x2048_1_1_0_0_n_n 256 rfl rfl).symm d) = ix2 r d := by
    funext a
    apply Fin.ext
    match a with
    | ⟨0, _⟩ => exact lhs_0 _ _
    | ⟨1, _⟩ => exact (lhs_1 _ _).trans (contrEquiv1_symm_val _ 256 rfl rfl d)
  have hr : dot_S512x256_S2048x256_S512x2048_1_1_0_0_n_n.rhsIdx (ix2 r n)
      ((contrEquiv1 dot_S512x256_S2048x256_S512x2048_1_1_0_0_n_n 256 rfl rfl).symm d) = ix2 n d := by
    funext a
    apply Fin.ext
    match a with
    | ⟨0, _⟩ => exact rhs_0 _ _
    | ⟨1, _⟩ => exact (rhs_1 _ _).trans (contrEquiv1_symm_val _ 256 rfl rfl d)
  rw [hl, hr]

/-! ## The logits -/

/-- The named scale is the inverse temperature. -/
theorem invTemp_named :
    Named.named (F := Ideal) κ "inv_temperature" (φ := .f32) 0x41649249#32 = invTemp :=
  IdealRules.named_const.ideal_named_scalar _ _ _ _ rfl

/-- Entry (r, n) of the clipped, scaled product is logit n of row r. -/
theorem pay4_apply (x0 : Vec Ideal S1x512x256 .bf16) (x1 : Vec Ideal S1x2048x256 .f32) (r : Fin 512) (n : Fin 2048) :
    k0_pay4 (F := Ideal) x0 x1 (ix2 r n)
      = logitR (fun d => x0 (ix3 (0 : Fin 1) r d)) (fun n d => x1 (ix3 (0 : Fin 1) n d)) n := by
  unfold k0_pay4 logitR
  simp only [minimumf_apply, maximumf_apply, mulf_apply, broadcast_apply]
  rw [matmul_at]
  simp only [truncf_apply, shapeCast_1ab_ab_apply, invTemp_named]
  rfl

/-! ## Columns, rows and their reductions read at an index -/

/-- A column cast: an [a] vector viewed [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over many: an [a, 1] array broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row r with column n inserted is the index (r, n). -/
theorem lift_row (r : Fin 512) (n : Fin 2048) : reduces_S512x2048_S512.lift (ix1 r) n = ix2 r n := by
  funext c
  apply Fin.ext
  match c with
  | ⟨0, _⟩ => rfl
  | ⟨1, _⟩ => rfl

/-- A sum along the rows of a [512, 2048] array, at row r, is the sum over the 2048 columns. -/
theorem rowSum_apply (v : FVec Ideal S512x2048 .f32) (hφ : FKind.Formats .f32)
    (hacc : (0x00000000#32 : BitVec 32) = 0x00000000#32) (r : Fin 512) :
    multiReduction .add [1] S512 v 0x00000000#32 reduces_S512x2048_S512 hφ hacc (ix1 r) = ∑ n : Fin 2048, v (ix2 r n) := by
  refine (Ideal.multiReduction_add_single v _ reduces_S512x2048_S512 hφ hacc (ix1 r)).trans ?_
  exact Finset.sum_congr rfl fun n _ => congrArg v (lift_row r n)

/-- A maximum along the rows, at row r, is the fold of max from −∞ over the 2048 columns. -/
theorem rowMax_apply (v : FVec Ideal S512x2048 .f32) (hφ : FKind.Formats .f32)
    (hacc : (0xFF800000#32 : BitVec 32) = 0xFF800000#32) (r : Fin 512) :
    multiReduction .maximumf [1] S512 v 0xFF800000#32 reduces_S512x2048_S512 hφ hacc (ix1 r)
      = Finset.univ.fold max negInf (fun n : Fin 2048 => v (ix2 r n)) := by
  refine (Ideal.multiReduction_maximumf_single v _ reduces_S512x2048_S512 hφ hacc (ix1 r)).trans ?_
  have e : (v ∘ reduces_S512x2048_S512.lift (ix1 r)) = fun n : Fin 2048 => v (ix2 r n) :=
    funext fun n => congrArg v (lift_row r n)
  rw [e]
  rfl

/-! ## The target words and the validity flag -/

/-- The merged target word of row r, read through the dropped leading unit axis. -/
theorem pay3_apply (x2 : Vec Ideal S1x512x1 .i32) (r : Fin 512) :
    k0_pay3 (F := Ideal) x2 (ix2 r (0 : Fin 1)) = x2 (ix3 (0 : Fin 1) r (0 : Fin 1)) := by
  unfold k0_pay3
  exact shapeCast_1ab_ab_apply _ _ r 0

/-- Row r's flag is 1 when its word is non-negative, 0 otherwise. -/
theorem pay5_apply (x2 : Vec Ideal S1x512x1 .i32) (r : Fin 512) :
    k0_pay5 (F := Ideal) x2 (ix2 r (0 : Fin 1)) = flagW (x2 (ix3 (0 : Fin 1) r (0 : Fin 1))) := by
  unfold k0_pay5
  show (((((IntOp.cmpi .sge (k0_pay3 (F := Ideal) x2 (ix2 r (0 : Fin 1))) 0#32).setWidth 32).toInt : ℝ)) : EReal) = _
  rw [pay3_apply]
  rfl

/-! ## The log-sum-exp of a row -/

/-- The exponential and the logarithm read elementwise. -/
theorem exp_apply' {s : Shape} (a : FVec Ideal s .f32) (i : s.Idx) : exp a i = Ideal.exp (a i) := rfl
theorem log_apply' {s : Shape} (a : FVec Ideal s .f32) (i : s.Idx) : log a i = Ideal.log (a i) := rfl
/-- Row r's log-sum-exp, taken around the row's maximum. -/
theorem pay7_apply (x0 : Vec Ideal S1x512x256 .bf16) (x1 : Vec Ideal S1x2048x256 .f32) (r : Fin 512) :
    k0_pay7 (F := Ideal) x0 x1 (ix2 r (0 : Fin 1))
      = lseR (fun d => x0 (ix3 (0 : Fin 1) r d)) (fun n d => x1 (ix3 (0 : Fin 1) n d)) := by
  unfold k0_pay7 lseR maxR
  simp only [addf_apply, log_apply', shapeCast_a_a1_apply]
  rw [rowSum_apply, rowMax_apply]
  simp only [exp_apply', subf_apply, broadcastTo_a1_ab_apply, shapeCast_a_a1_apply]
  rw [rowMax_apply]
  simp only [pay4_apply]

/-! ## The logit at the clamped target: a one-hot sum picks one entry -/

/-- Two words compare equal exactly when they are equal. -/
private theorem cmpi_eq_one_iff (a b : BitVec 32) : IntOp.cmpi .eq a b = 1#1 ↔ a = b := by
  show BitVec.ofBool (a == b) = 1#1 ↔ a = b
  by_cases h : a = b
  · subst h
    simp
  · rw [beq_false_of_ne h]
    exact ⟨fun h' => absurd h' (by decide), fun h' => absurd h' h⟩

/-- A clamped word lies in [0, 2047]. -/
theorem clampW_toNat_lt (w : BitVec 32) : (clampW w).toNat < 2048 := by
  unfold clampW
  have h1 : (IntOp.maxsi 0#32 w).toNat < 2 ^ 31 := by
    rw [WordArith.toNat_maxsi_zero]
    have := BitVec.toInt_lt (x := w)
    omega
  rw [WordArith.toNat_minsi_of_lt _ _ (by decide) h1]
  have h2 : (2047#32 : BitVec 32).toNat = 2047 := by decide
  omega

/-- The sum over the 2048 columns of the entries selected where the column's word equals c, zero elsewhere, is the
    entry at column c. -/
theorem onehot_sum (f : Fin 2048 → EReal) (c : BitVec 32) (hc : c.toNat < 2048) :
    ∑ n : Fin 2048, Scalar.select (IntOp.cmpi .eq (BitVec.ofNat 32 n.val) c) (f n) (Ideal.ofBits .f32 0x00000000#32)
      = f (pick c) := by
  have hp : (pick c).val = c.toNat := by show c.toNat % 2048 = c.toNat; omega
  rw [Finset.sum_eq_single (pick c)]
  · have e : BitVec.ofNat 32 (pick c).val = c := by
      apply BitVec.eq_of_toNat_eq
      rw [BitVec.toNat_ofNat, hp]
      omega
    rw [e, (cmpi_eq_one_iff c c).mpr rfl, select_one]
  · intro n _ hn
    have e : IntOp.cmpi .eq (BitVec.ofNat 32 n.val) c = 0#1 := eq_zero_of_ne_one fun h => hn (by
      have h' := congrArg BitVec.toNat ((cmpi_eq_one_iff _ _).mp h)
      rw [BitVec.toNat_ofNat] at h'
      have := n.isLt
      apply Fin.ext
      rw [hp]
      omega)
    rw [e, select_zero, Ideal.ofBits_zero_f32]
  · intro h
    exact absurd (Finset.mem_univ _) h

/-- Integer comparisons, maxima and minima read elementwise. -/
theorem cmpi_apply' {s : Shape} {w : Nat} (p : CmpIPredicate) (x y : IVec s w) (i : s.Idx) :
    cmpi p x y i = IntOp.cmpi p (x i) (y i) := rfl
theorem maxsi_apply' {s : Shape} {w : Nat} (x y : IVec s w) (i : s.Idx) : maxsi x y i = IntOp.maxsi (x i) (y i) := rfl
theorem minsi_apply' {s : Shape} {w : Nat} (x y : IVec s w) (i : s.Idx) : minsi x y i = IntOp.minsi (x i) (y i) := rfl

/-- The column counter at (r, n) is the word n. -/
theorem iota_col (r : Fin 512) (n : Fin 2048) :
    iota .tc S512x2048 32 [1] iota_S512x2048_d1_w32 (ix2 r n) = BitVec.ofNat 32 n.val :=
  iota_single_apply .tc S512x2048 32 1 _ (ix2 r n)

/-- Row r's selected logit is the logit at its clamped target word. -/
theorem pay6_apply (x0 : Vec Ideal S1x512x256 .bf16) (x1 : Vec Ideal S1x2048x256 .f32) (x2 : Vec Ideal S1x512x1 .i32)
    (r : Fin 512) :
    k0_pay6 (F := Ideal) x0 x1 x2 (ix2 r (0 : Fin 1))
      = logitR (fun d => x0 (ix3 (0 : Fin 1) r d)) (fun n d => x1 (ix3 (0 : Fin 1) n d))
          (pick (clampW (x2 (ix3 (0 : Fin 1) r (0 : Fin 1))))) := by
  unfold k0_pay6
  rw [shapeCast_a_a1_apply, rowSum_apply]
  simp only [select_apply, cmpi_apply', iota_col, broadcastTo_a1_ab_apply, minsi_apply', maxsi_apply', broadcast_apply,
    pay3_apply, pay4_apply]
  refine (Finset.sum_congr rfl fun n _ => ?_).trans (onehot_sum _ _ (clampW_toNat_lt _))
  rw [iota_col r n]
  rfl

/-! ## The two output blocks -/

/-- Between two shapes of one element each, a cast reads the operand's one element. -/
theorem unit_cast_apply {α : Type} (s t : Shape) (hs : s.numel = 1) (ht : t.numel = 1) (x : s.Idx → α)
    (h : s.ShapeCasts t) (j : t.Idx) (k : s.Idx) : shapeCast t x h j = x k :=
  shapeCast_apply x h j k (by
    have h1 := (s.rowMajor k).isLt
    have h2 := (t.rowMajor j).isLt
    omega)

/-- The one lane with row r inserted is the index (r, 0). -/
theorem lift_col (j : S1.Idx) (r : Fin 512) : reduces_S512x1_S1.lift j r = ix2 r (0 : Fin 1) := by
  funext c
  apply Fin.ext
  match c with
  | ⟨0, _⟩ => rfl
  | ⟨1, _⟩ =>
    have h : (j ⟨0, Nat.one_pos⟩).val < 1 := (j ⟨0, Nat.one_pos⟩).isLt
    show (j ⟨0, _⟩).val = 0
    exact Nat.lt_one_iff.mp h

/-- A sum down the one column of a [512, 1] array is the sum over the 512 rows. -/
theorem colSum_apply (v : FVec Ideal S512x1 .f32) (hφ : FKind.Formats .f32)
    (hacc : (0x00000000#32 : BitVec 32) = 0x00000000#32) (j : S1.Idx) :
    multiReduction .add [0] S1 v 0x00000000#32 reduces_S512x1_S1 hφ hacc j = ∑ r : Fin 512, v (ix2 r (0 : Fin 1)) := by
  refine (Ideal.multiReduction_add_single v _ reduces_S512x1_S1 hφ hacc j).trans ?_
  exact Finset.sum_congr rfl fun r _ => congrArg v (lift_col j r)

/-- The zero offsets, as constant functions. -/
private theorem hz3 : (![0, 0, 0] : Fin 3 → Nat) = fun _ => 0 := by
  funext a; match a with | ⟨0, _⟩ => rfl | ⟨1, _⟩ => rfl | ⟨2, _⟩ => rfl
private theorem hz4 : (![0, 0, 0, 0] : Fin 4 → Nat) = fun _ => 0 := by
  funext a; match a with | ⟨0, _⟩ => rfl | ⟨1, _⟩ => rfl | ⟨2, _⟩ => rfl | ⟨3, _⟩ => rfl

/-- Block 3 holds the tile's masked loss sum. -/
theorem out0_3_eq (x0 : Vec Ideal S1x512x256 .bf16) (x1 : Vec Ideal S1x2048x256 .f32) (x2 : Vec Ideal S1x512x1 .i32) :
    out0_3 (F := Ideal) x0 x1 x2
      = fun _ => tileSum (fun r d => x0 (ix3 (0 : Fin 1) r d)) (fun n d => x1 (ix3 (0 : Fin 1) n d)) (fun r => x2 (ix3 (0 : Fin 1) r (0 : Fin 1))) := by
  funext y
  unfold out0_3
  rw [View.canon_unit_zero (S := S1x1x1x1) hz4]
  simp only [View.ld_unit_zero (S := S1x512x256) hz3, View.ld_unit_zero (S := S1x2048x256) hz3,
    View.ld_unit_zero (S := S1x512x1) hz3]
  unfold k0_pay1
  rw [unit_cast_apply S1x1 S1x1x1x1 (by decide) (by decide) _ _ y (ix2 (0 : Fin 1) (0 : Fin 1)), shapeCast_a_1a_apply,
    colSum_apply]
  unfold tileSum lossR
  refine Finset.sum_congr rfl fun r _ => ?_
  rw [mulf_apply, subf_apply, pay7_apply, pay6_apply, pay5_apply]

/-- Block 4 holds the tile's count of valid matches. -/
theorem out0_4_eq (x0 : Vec Ideal S1x512x256 .bf16) (x1 : Vec Ideal S1x2048x256 .f32) (x2 : Vec Ideal S1x512x1 .i32) :
    out0_4 (F := Ideal) x0 x1 x2 = fun _ => tileCnt (fun r => x2 (ix3 (0 : Fin 1) r (0 : Fin 1))) := by
  funext y
  unfold out0_4
  rw [View.canon_unit_zero (S := S1x1x1x1) hz4]
  simp only [View.ld_unit_zero (S := S1x512x256) hz3, View.ld_unit_zero (S := S1x2048x256) hz3,
    View.ld_unit_zero (S := S1x512x1) hz3]
  unfold k0_pay2
  rw [unit_cast_apply S1x1 S1x1x1x1 (by decide) (by decide) _ _ y (ix2 (0 : Fin 1) (0 : Fin 1)), shapeCast_a_1a_apply,
    colSum_apply]
  unfold tileCnt
  exact Finset.sum_congr rfl fun r _ => pay5_apply x2 r

end Cert.KernelIdeal.Body

end
-- ==== Proof.KBlocks.lean ====
/-
  From blocks to arrays: after the region, the two result arrays [32,2,1,1] hold, at batch b and tile t, the
  tile's masked loss sum and its count of valid matches, read off the arrays the region was entered with — the
  query array [32,1024,256] (rows 512·t … 512·t + 511 of batch b), the key array [32,2048,256] (batch b, every
  row) and the merged target words [32,1024,1]. Grid point (b, t) writes block (b, t, 0, 0) of each result, and
  these 64 blocks tile the arrays.
-/
import proofs.«403447_j22960895164759_3_alg».proof.Proof.KBody
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem Idealize.ShloMosaic.ValueIdx Cert.MatchLoss
open Idealize.ShloMosaic.Pipeline (Dat)

variable (m : (ℓ : Loc nD τ sig) → Buf (Elt Ideal) ℓ)

/-- The arrays the region is entered with, by their literal types. -/
abbrev qArr (c : Dev nD) : Vec Ideal S32x1024x256 .bf16 := V m c main_v19
abbrev kArr (c : Dev nD) : Vec Ideal S32x2048x256 .f32 := V m c main_arg1
abbrev wArr (c : Dev nD) : Vec Ideal S32x1024x1 .i32 := V m c main_v21
/-- The two result arrays after the region. -/
abbrev sumArr (c : Dev nD) : Vec Ideal S32x2x1x1 .f32 := (dats m 0 c).arrAt 3 cfg0.N
abbrev cntArr (c : Dev nD) : Vec Ideal S32x2x1x1 .f32 := (dats m 0 c).arrAt 4 cfg0.N

/-! ## The grid's points: point n is batch n / 2, tile n % 2 -/

/-- The grid has 64 points. -/
theorem lt64 (n : Fin cfg0.N) : n.val < 64 := lt_of_lt_of_eq n.isLt N_0

/-- The batch of grid point n. -/
def batchOf (n : Fin cfg0.N) : Fin 32 := ⟨n.val / 2, by have := lt64 n; omega⟩
/-- The tile of grid point n. -/
def tileOf (n : Fin cfg0.N) : Fin 2 := ⟨n.val % 2, by omega⟩

/-- The point of batch b and tile t. -/
def pointOf (b : Fin 32) (t : Fin 2) : Fin cfg0.N :=
  ⟨2 * b.val + t.val, lt_of_lt_of_eq (by have := b.isLt; have := t.isLt; omega : 2 * b.val + t.val < 64) N_0.symm⟩

/-- The five index maps, decided once over the grid: queries, words and both results move with (batch, tile),
    the keys with the batch alone; every other block index is 0. -/
theorem idx_facts : ∀ n : Fin cfg0.N,
    win0_0.index n (0 : Fin 3) = n.val / 2 ∧ win0_0.index n (1 : Fin 3) = n.val % 2 ∧ win0_0.index n (2 : Fin 3) = 0
    ∧ win0_1.index n (0 : Fin 3) = n.val / 2 ∧ win0_1.index n (1 : Fin 3) = 0 ∧ win0_1.index n (2 : Fin 3) = 0
    ∧ win0_2.index n (0 : Fin 3) = n.val / 2 ∧ win0_2.index n (1 : Fin 3) = n.val % 2 ∧ win0_2.index n (2 : Fin 3) = 0
    ∧ win0_3.index n (0 : Fin 4) = n.val / 2 ∧ win0_3.index n (1 : Fin 4) = n.val % 2
    ∧ win0_3.index n (2 : Fin 4) = 0 ∧ win0_3.index n (3 : Fin 4) = 0
    ∧ win0_4.index n (0 : Fin 4) = n.val / 2 ∧ win0_4.index n (1 : Fin 4) = n.val % 2
    ∧ win0_4.index n (2 : Fin 4) = 0 ∧ win0_4.index n (3 : Fin 4) = 0 :=
  (by decide +kernel : ∀ n : Fin grid0.N, _)

/-! ## The three input blocks at a point, as entries of their arrays

A block's coordinate in its array is the block index times the block's extent plus the coordinate inside the block. -/

/-- The query block at point n is rows 512·(tile) … of batch (batch) of the query array. -/
theorem qblk_apply (c : Dev nD) (n : Fin cfg0.N) (r : Fin 512) (d : Fin 256) :
    (iblk m c 0 n : Vec Ideal S1x512x256 .bf16) (ix3 (0 : Fin 1) r d)
      = qArr m c (ix3 (batchOf n) (rowOf (tileOf n) r) d) := by
  obtain ⟨e0, e1, e2, -⟩ := idx_facts n
  unfold iblk
  rw [View.read_apply]
  show V m c main_v19 _ = V m c main_v19 _
  congr 1
  funext a
  apply Fin.ext
  match a with
  | ⟨0, _⟩ => show win0_0.index n (0 : Fin 3) * 1 + 1 * 0 = n.val / 2; omega
  | ⟨1, _⟩ => show win0_0.index n (1 : Fin 3) * 512 + 1 * r.val = 512 * (n.val % 2) + r.val; omega
  | ⟨2, _⟩ => show win0_0.index n (2 : Fin 3) * 256 + 1 * d.val = d.val; omega

/-- The key block at point n is batch (batch) of the key array, every row. -/
theorem kblk_apply (c : Dev nD) (n : Fin cfg0.N) (k : Fin 2048) (d : Fin 256) :
    (iblk m c 1 n : Vec Ideal S1x2048x256 .f32) (ix3 (0 : Fin 1) k d) = kArr m c (ix3 (batchOf n) k d) := by
  obtain ⟨-, -, -, e0, e1, e2, -⟩ := idx_facts n
  unfold iblk
  rw [View.read_apply]
  show V m c main_arg1 _ = V m c main_arg1 _
  congr 1
  funext a
  apply Fin.ext
  match a with
  | ⟨0, _⟩ => show win0_1.index n (0 : Fin 3) * 1 + 1 * 0 = n.val / 2; omega
  | ⟨1, _⟩ => show win0_1.index n (1 : Fin 3) * 2048 + 1 * k.val = k.val; omega
  | ⟨2, _⟩ => show win0_1.index n (2 : Fin 3) * 256 + 1 * d.val = d.val; omega

/-- The word block at point n is rows 512·(tile) … of batch (batch) of the word array. -/
theorem wblk_apply (c : Dev nD) (n : Fin cfg0.N) (r : Fin 512) :
    (iblk m c 2 n : Vec Ideal S1x512x1 .i32) (ix3 (0 : Fin 1) r (0 : Fin 1))
      = wArr m c (ix3 (batchOf n) (rowOf (tileOf n) r) (0 : Fin 1)) := by
  obtain ⟨-, -, -, -, -, -, e0, e1, e2, -⟩ := idx_facts n
  unfold iblk
  rw [View.read_apply]
  show V m c main_v21 _ = V m c main_v21 _
  congr 1
  funext a
  apply Fin.ext
  match a with
  | ⟨0, _⟩ => show win0_2.index n (0 : Fin 3) * 1 + 1 * 0 = n.val / 2; omega
  | ⟨1, _⟩ => show win0_2.index n (1 : Fin 3) * 512 + 1 * r.val = 512 * (n.val % 2) + r.val; omega
  | ⟨2, _⟩ => show win0_2.index n (2 : Fin 3) * 1 + 1 * 0 = 0; omega

/-! ## The whole-array functions the results restrict -/

/-- The masked loss sum of tile t of batch b, off the arrays. -/
def sumAt (c : Dev nD) (b : Fin 32) (t : Fin 2) : EReal :=
  tileSum (fun r d => qArr m c (ix3 b (rowOf t r) d)) (fun k d => kArr m c (ix3 b k d))
    (fun r => wArr m c (ix3 b (rowOf t r) (0 : Fin 1)))

/-- The count of valid matches of tile t of batch b, off the word array. -/
def cntAt (c : Dev nD) (b : Fin 32) (t : Fin 2) : EReal :=
  tileCnt (fun r => wArr m c (ix3 b (rowOf t r) (0 : Fin 1)))

/-- An index's batch and tile coordinates, at their literal types. -/
def jb (j : S32x2x1x1.Idx) : Fin 32 := ⟨(j 0).val, (j 0).isLt⟩
def jt (j : S32x2x1x1.Idx) : Fin 2 := ⟨(j 1).val, (j 1).isLt⟩

/-- The sums as one array. -/
def sumAll (c : Dev nD) : Vec Ideal S32x2x1x1 .f32 := fun j => sumAt m c (jb j) (jt j)
/-- The counts as one array. -/
def cntAll (c : Dev nD) : Vec Ideal S32x2x1x1 .f32 := fun j => cntAt m c (jb j) (jt j)

/-! ## What a point writes back is its block of the whole-array function -/

/-- The entry of the sums' array under point n's block is (batch, tile) of n. -/
theorem emb3 (n : Fin cfg0.N) (j : ((cfg0.win 3).xblock (cfg0.grid.coords n)).Idx) :
    jb (((cfg0.win 3).blk n).view.emb j) = batchOf n ∧ jt (((cfg0.win 3).blk n).view.emb j) = tileOf n := by
  obtain ⟨-, -, -, -, -, -, -, -, -, e0, e1, -⟩ := idx_facts n
  have h0 : (j 0).val < 1 := (j 0).isLt
  have h1 : (j 1).val < 1 := (j 1).isLt
  constructor
  · apply Fin.ext
    show win0_3.index n (0 : Fin 4) * 1 + 1 * (j 0).val = n.val / 2
    omega
  · apply Fin.ext
    show win0_3.index n (1 : Fin 4) * 1 + 1 * (j 1).val = n.val % 2
    omega

/-- The same for the counts' array. -/
theorem emb4 (n : Fin cfg0.N) (j : ((cfg0.win 4).xblock (cfg0.grid.coords n)).Idx) :
    jb (((cfg0.win 4).blk n).view.emb j) = batchOf n ∧ jt (((cfg0.win 4).blk n).view.emb j) = tileOf n := by
  obtain ⟨-, -, -, -, -, -, -, -, -, -, -, -, -, e0, e1, -⟩ := idx_facts n
  have h0 : (j 0).val < 1 := (j 0).isLt
  have h1 : (j 1).val < 1 := (j 1).isLt
  constructor
  · apply Fin.ext
    show win0_4.index n (0 : Fin 4) * 1 + 1 * (j 0).val = n.val / 2
    omega
  · apply Fin.ext
    show win0_4.index n (1 : Fin 4) * 1 + 1 * (j 1).val = n.val % 2
    omega

/-- The tile sum of point n's three blocks is the sum of its batch and tile off the arrays. -/
theorem blockSum_eq (c : Dev nD) (n : Fin cfg0.N) :
    tileSum (fun r d => (iblk m c 0 n : Vec Ideal S1x512x256 .bf16) (ix3 (0 : Fin 1) r d))
        (fun k d => (iblk m c 1 n : Vec Ideal S1x2048x256 .f32) (ix3 (0 : Fin 1) k d))
        (fun r => (iblk m c 2 n : Vec Ideal S1x512x1 .i32) (ix3 (0 : Fin 1) r (0 : Fin 1)))
      = sumAt m c (batchOf n) (tileOf n) := by
  have hq : (fun (r : Fin 512) (d : Fin 256) => (iblk m c 0 n : Vec Ideal S1x512x256 .bf16) (ix3 (0 : Fin 1) r d))
      = fun r d => qArr m c (ix3 (batchOf n) (rowOf (tileOf n) r) d) :=
    funext fun r => funext fun d => qblk_apply m c n r d
  have hk : (fun (k : Fin 2048) (d : Fin 256) => (iblk m c 1 n : Vec Ideal S1x2048x256 .f32) (ix3 (0 : Fin 1) k d))
      = fun k d => kArr m c (ix3 (batchOf n) k d) :=
    funext fun k => funext fun d => kblk_apply m c n k d
  have hw : (fun (r : Fin 512) => (iblk m c 2 n : Vec Ideal S1x512x1 .i32) (ix3 (0 : Fin 1) r (0 : Fin 1)))
      = fun r => wArr m c (ix3 (batchOf n) (rowOf (tileOf n) r) (0 : Fin 1)) :=
    funext fun r => wblk_apply m c n r
  unfold sumAt
  rw [hq, hk, hw]

/-- The tile count of point n's word block is the count of its batch and tile off the word array. -/
theorem blockCnt_eq (c : Dev nD) (n : Fin cfg0.N) :
    tileCnt (fun r => (iblk m c 2 n : Vec Ideal S1x512x1 .i32) (ix3 (0 : Fin 1) r (0 : Fin 1)))
      = cntAt m c (batchOf n) (tileOf n) := by
  have hw : (fun (r : Fin 512) => (iblk m c 2 n : Vec Ideal S1x512x1 .i32) (ix3 (0 : Fin 1) r (0 : Fin 1)))
      = fun r => wArr m c (ix3 (batchOf n) (rowOf (tileOf n) r) (0 : Fin 1)) :=
    funext fun r => wblk_apply m c n r
  unfold cntAt
  rw [hw]

/-- What point n writes back to the sums is block n of `sumAll`. -/
theorem flushed3_eq (c : Dev nD) (n : Fin cfg0.N) :
    (dats m 0 c).flushed 3 n = ((cfg0.win 3).blk n).view.read (Elt Ideal) (sumAll m c) := by
  show (cfg0.win 3).cut (grid0.coords n) ((dats m 0 c).after 3 n) = _
  rw [after0_3, Body.out0_3_eq (iblk m c 0 n) (iblk m c 1 n) (iblk m c 2 n)]
  funext j
  rw [View.read_apply]
  obtain ⟨hb, ht⟩ := emb3 n j
  show tileSum _ _ _ = sumAt m c (jb (((cfg0.win 3).blk n).view.emb j)) (jt (((cfg0.win 3).blk n).view.emb j))
  rw [hb, ht]
  exact blockSum_eq m c n

/-- What point n writes back to the counts is block n of `cntAll`. -/
theorem flushed4_eq (c : Dev nD) (n : Fin cfg0.N) :
    (dats m 0 c).flushed 4 n = ((cfg0.win 4).blk n).view.read (Elt Ideal) (cntAll m c) := by
  show (cfg0.win 4).cut (grid0.coords n) ((dats m 0 c).after 4 n) = _
  rw [after0_4, Body.out0_4_eq (iblk m c 0 n) (iblk m c 1 n) (iblk m c 2 n)]
  funext j
  rw [View.read_apply]
  obtain ⟨hb, ht⟩ := emb4 n j
  show tileCnt _ = cntAt m c (jb (((cfg0.win 4).blk n).view.emb j)) (jt (((cfg0.win 4).blk n).view.emb j))
  rw [hb, ht]
  exact blockCnt_eq m c n

/-! ## The 64 blocks cover each result array -/

/-- An index of the sums' array is in point n's block iff each coordinate is in the block's range on its axis. -/
theorem mem_blk3 (n : Fin cfg0.N) (i : S32x2x1x1.Idx) :
    i ∈ ((cfg0.win 3).blk n).view.set ↔ ∀ a : Fin 4, win0_3.index n a * S1x1x1x1.size a ≤ (i a).val
      ∧ (i a).val < win0_3.index n a * S1x1x1x1.size a + S1x1x1x1.size a := by
  show i ∈ ((View.whole main_v22_0).slice (win0_3.rect n)).set ↔ _
  rw [View.set_slice_whole, Rect.mem_set_unit]
  exact Iff.rfl

/-- The same for the counts' array. -/
theorem mem_blk4 (n : Fin cfg0.N) (i : S32x2x1x1.Idx) :
    i ∈ ((cfg0.win 4).blk n).view.set ↔ ∀ a : Fin 4, win0_4.index n a * S1x1x1x1.size a ≤ (i a).val
      ∧ (i a).val < win0_4.index n a * S1x1x1x1.size a + S1x1x1x1.size a := by
  show i ∈ ((View.whole main_v22_1).slice (win0_4.rect n)).set ↔ _
  rw [View.set_slice_whole, Rect.mem_set_unit]
  exact Iff.rfl

/-- Entry (b, t, 0, 0) of the sums' array is in the block of the point of batch b and tile t. -/
theorem cover3 (i : S32x2x1x1.Idx) :
    ∃ n : Fin cfg0.N, (cfg0.win 3).flush n = true ∧ i ∈ ((cfg0.win 3).blk n).view.set := by
  have h0 : (i 0).val < 32 := (i 0).isLt
  have h1 : (i 1).val < 2 := (i 1).isLt
  have h2 : (i 2).val < 1 := (i 2).isLt
  have h3 : (i 3).val < 1 := (i 3).isLt
  refine ⟨pointOf (jb i) (jt i), flush0_3 _, ?_⟩
  rw [mem_blk3]
  obtain ⟨-, -, -, -, -, -, -, -, -, e0, e1, e2, e3, -⟩ := idx_facts (pointOf (jb i) (jt i))
  have hv : (pointOf (jb i) (jt i)).val = 2 * (i 0).val + (i 1).val := rfl
  intro a
  match a with
  | ⟨0, _⟩ => show win0_3.index (pointOf (jb i) (jt i)) (0 : Fin 4) * 1 ≤ (i 0).val ∧ (i 0).val < win0_3.index (pointOf (jb i) (jt i)) (0 : Fin 4) * 1 + 1; omega
  | ⟨1, _⟩ => show win0_3.index (pointOf (jb i) (jt i)) (1 : Fin 4) * 1 ≤ (i 1).val ∧ (i 1).val < win0_3.index (pointOf (jb i) (jt i)) (1 : Fin 4) * 1 + 1; omega
  | ⟨2, _⟩ => show win0_3.index (pointOf (jb i) (jt i)) (2 : Fin 4) * 1 ≤ (i 2).val ∧ (i 2).val < win0_3.index (pointOf (jb i) (jt i)) (2 : Fin 4) * 1 + 1; omega
  | ⟨3, _⟩ => show win0_3.index (pointOf (jb i) (jt i)) (3 : Fin 4) * 1 ≤ (i 3).val ∧ (i 3).val < win0_3.index (pointOf (jb i) (jt i)) (3 : Fin 4) * 1 + 1; omega

/-- The same for the counts' array. -/
theorem cover4 (i : S32x2x1x1.Idx) :
    ∃ n : Fin cfg0.N, (cfg0.win 4).flush n = true ∧ i ∈ ((cfg0.win 4).blk n).view.set := by
  have h0 : (i 0).val < 32 := (i 0).isLt
  have h1 : (i 1).val < 2 := (i 1).isLt
  have h2 : (i 2).val < 1 := (i 2).isLt
  have h3 : (i 3).val < 1 := (i 3).isLt
  refine ⟨pointOf (jb i) (jt i), flush0_4 _, ?_⟩
  rw [mem_blk4]
  obtain ⟨-, -, -, -, -, -, -, -, -, -, -, -, -, e0, e1, e2, e3⟩ := idx_facts (pointOf (jb i) (jt i))
  have hv : (pointOf (jb i) (jt i)).val = 2 * (i 0).val + (i 1).val := rfl
  intro a
  match a with
  | ⟨0, _⟩ => show win0_4.index (pointOf (jb i) (jt i)) (0 : Fin 4) * 1 ≤ (i 0).val ∧ (i 0).val < win0_4.index (pointOf (jb i) (jt i)) (0 : Fin 4) * 1 + 1; omega
  | ⟨1, _⟩ => show win0_4.index (pointOf (jb i) (jt i)) (1 : Fin 4) * 1 ≤ (i 1).val ∧ (i 1).val < win0_4.index (pointOf (jb i) (jt i)) (1 : Fin 4) * 1 + 1; omega
  | ⟨2, _⟩ => show win0_4.index (pointOf (jb i) (jt i)) (2 : Fin 4) * 1 ≤ (i 2).val ∧ (i 2).val < win0_4.index (pointOf (jb i) (jt i)) (2 : Fin 4) * 1 + 1; omega
  | ⟨3, _⟩ => show win0_4.index (pointOf (jb i) (jt i)) (3 : Fin 4) * 1 ≤ (i 3).val ∧ (i 3).val < win0_4.index (pointOf (jb i) (jt i)) (3 : Fin 4) * 1 + 1; omega

/-! ## The result arrays after the region -/

/-- The sums' array ends holding `sumAll`. -/
theorem sumArr_eq (c : Dev nD) : sumArr m c = sumAll m c :=
  (dats m 0 c).arrAt_eq_of_cover 3 (sumAll m c) (fun n _ => flushed3_eq m c n) cover3

/-- The counts' array ends holding `cntAll`. -/
theorem cntArr_eq (c : Dev nD) : cntArr m c = cntAll m c :=
  (dats m 0 c).arrAt_eq_of_cover 4 (cntAll m c) (fun n _ => flushed4_eq m c n) cover4

theorem final3 (c : Dev nD) (b : Fin 32) (t : Fin 2) :
    sumArr m c (ix4 b t (0 : Fin 1) (0 : Fin 1))
      = tileSum (fun r d => qArr m c (ix3 b (rowOf t r) d)) (fun n d => kArr m c (ix3 b n d))
          (fun r => wArr m c (ix3 b (rowOf t r) (0 : Fin 1))) :=
  congrFun (sumArr_eq m c) (ix4 b t (0 : Fin 1) (0 : Fin 1))

theorem final4 (c : Dev nD) (b : Fin 32) (t : Fin 2) :
    cntArr m c (ix4 b t (0 : Fin 1) (0 : Fin 1)) = tileCnt (fun r => wArr m c (ix3 b (rowOf t r) (0 : Fin 1))) :=
  congrFun (cntArr_eq m c) (ix4 b t (0 : Fin 1) (0 : Fin 1))

end Cert.KernelIdeal.Blocks

end
-- ==== Proof.KHost.lean ====
/-
  The arrays the kernel's region is entered with, as the reference's own stages of the same arguments: both
  programs begin with the same host operations (the validity flags, the clipped columns, the gather of the matched
  query descriptors), so the query array is the reference's gathered descriptors (narrowed to bf16, which changes
  no value over the extended reals) and the merged target word of a match is its clipped target column where
  the match is valid and −1 where it is not.
-/
import proofs.«403447_j22960895164759_3_alg».proof.Proof.Gen.KernelIdeal.Frame
import proofs.«403447_j22960895164759_3_alg».proof.Proof.RefRead
import Idealize.ShloMosaic.Lib.StableHlo.Run
import Idealize.ShloMosaic.Lib.ValueIdx

noncomputable section

namespace Cert.KernelIdeal.HostIn

open Cert.KernelIdeal Cert.KernelIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-- The kernel's three arguments as launched, by the literal types the reference's stages take. -/
abbrev a0 (c : Dev nD) : (⟨Cert.ReferenceIdeal.S32x2048x256, .f32⟩ : BufTy).Contents (Elt F) := m ((c.tc : Thread nD τ).loc main_arg0)
abbrev a1 (c : Dev nD) : (⟨Cert.ReferenceIdeal.S32x2048x256, .f32⟩ : BufTy).Contents (Elt F) := m ((c.tc : Thread nD τ).loc main_arg1)
abbrev a2 (c : Dev nD) : (⟨Cert.ReferenceIdeal.S32x1024x2, .i32⟩ : BufTy).Contents (Elt F) := m ((c.tc : Thread nD τ).loc main_arg2)

set_option maxRecDepth 16384 in
set_option maxHeartbeats 8000000 in
/-- The host lines before the region, over any contents X of the buffers: the query array they leave. -/
theorem qry_of (X : Valuation τ sig (Elt F)) :
    StableHlo.after (List.flatten [hostOps0, hostOps0_1, hostOps0_2, hostOps0_3, hostOps0_4, hostOps0_5, hostOps0_6, hostOps0_7, hostOps0_8]) X (Proc.devRef .tc main_v19)
      = truncf .bf16 (Cert.ReferenceIdeal.ReadP.val_main_v18 (F := F) (X (Proc.devRef .tc main_arg0)) (X (Proc.devRef .tc main_arg2))) bitsLt_bf16_f32 := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

set_option maxRecDepth 16384 in
set_option maxHeartbeats 8000000 in
/-- And the merged target words they leave. -/
theorem wrd_of (X : Valuation τ sig (Elt F)) :
    StableHlo.after (List.flatten [hostOps0, hostOps0_1, hostOps0_2, hostOps0_3, hostOps0_4, hostOps0_5, hostOps0_6, hostOps0_7, hostOps0_8]) X (Proc.devRef .tc main_v21)
      = broadcastInDim S32x1024x1 ![0, 1] bcast_S32x1024_S32x1024x1_0_1
          (select (Cert.ReferenceIdeal.ReadP.val_main_v14 (F := F) (X (Proc.devRef .tc main_arg2))) (Cert.ReferenceIdeal.ReadP.val_main_v16 (F := F) (X (Proc.devRef .tc main_arg2)))
            (broadcastInDim S32x1024 ![] bcast_S_S32x1024 (constantI S_ 32 4294967295#32))) := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

/-- The query array: the reference's gathered descriptors, narrowed. -/
theorem qry_eq (c : Dev nD) :
    V m c main_v19 = truncf .bf16 (Cert.ReferenceIdeal.ReadP.val_main_v18 (F := F) (a0 m c) (a2 m c)) bitsLt_bf16_f32 :=
  qry_of (fun b => m (c, b))

/-- The merged target words: the clipped column where the match is valid, the word of −1 where it is not, as a
    [32,1024,1] array. -/
theorem wrd_eq (c : Dev nD) :
    V m c main_v21 = broadcastInDim S32x1024x1 ![0, 1] bcast_S32x1024_S32x1024x1_0_1
      (select (Cert.ReferenceIdeal.ReadP.val_main_v14 (F := F) (a2 m c)) (Cert.ReferenceIdeal.ReadP.val_main_v16 (F := F) (a2 m c))
        (broadcastInDim S32x1024 ![] bcast_S_S32x1024 (constantI S_ 32 4294967295#32))) :=
  wrd_of (fun b => m (c, b))

end Cert.KernelIdeal.HostIn

end
-- ==== Proof.SpecLaws.lean ====
/-
  Laws of the row-level functions of Spec.lean over the extended reals, and of the signed words that carry the
  targets and the validity flags. Nothing here mentions a program.
-/
import proofs.«403447_j22960895164759_3_alg».proof.Proof.Spec
import Mathlib.Data.Finset.Fold
import Mathlib.Algebra.BigOperators.Fin
import Mathlib.Algebra.BigOperators.Ring.Finset

noncomputable section

namespace Cert.MatchLoss

open Idealize.ShloMosaic Idealize.ShloMosaic.ValueIdx

/-! ### The constants -/

/-- The pattern of −∞ denotes the bottom element. -/
theorem negInf_eq : negInf = (⊥ : EReal) := by
  simp [negInf, Ideal.ofBits, Ideal.ieee]

/-- The pattern of +0.0 denotes zero. -/
theorem zeroF_eq : zeroF = (0 : EReal) := Ideal.ofBits_zero_f32

/-- The clip's lower bound denotes −50. -/
theorem clipLo_eq : clipLo = ((-50 : ℝ) : EReal) := by
  simp [clipLo, Ideal.ofBits, Ideal.ieee, -EReal.coe_mul]; norm_num

/-- The clip's upper bound denotes 50. -/
theorem clipHi_eq : clipHi = ((50 : ℝ) : EReal) := by
  simp [clipHi, Ideal.ofBits, Ideal.ieee, -EReal.coe_mul]; norm_num

/-- The pattern of 0.07 denotes 9395241 / 2^27. -/
theorem temperature_eq : Ideal.ofBits .f32 0x3D8F5C29#32 = ((9395241 / 134217728 : ℝ) : EReal) := by
  simp [Ideal.ofBits, Ideal.ieee, -EReal.coe_mul]; norm_num

/-- The reference's divisor, the pattern of 0.07, denotes 9395241 / 2^27, so the quotient by it is the product with
    the inverse temperature, on every extended real. -/
theorem div_temperature (x : EReal) : Ideal.div x (Ideal.ofBits .f32 0x3D8F5C29#32) = x * invTemp := by
  rw [temperature_eq, Ideal.div_coe (by norm_num), invTemp]
  congr 2
  norm_num

/-! ### Clipped values and the row maximum are real numbers -/

/-- A clipped value is at most 50. -/
private theorem clip_le (x : EReal) : min clipHi (max clipLo x) ≤ ((50 : ℝ) : EReal) :=
  (min_le_left _ _).trans clipHi_eq.le

/-- A clipped value is at least −50 (the lower bound is below the upper one). -/
private theorem le_clip (x : EReal) : ((-50 : ℝ) : EReal) ≤ min clipHi (max clipLo x) := by
  refine le_min ?_ (clipLo_eq.ge.trans (le_max_left _ _))
  rw [clipHi_eq]
  exact_mod_cast (by norm_num : (-50 : ℝ) ≤ 50)

/-- An extended real between two real numbers is a real number. -/
private theorem real_of_between {v : EReal} {lo hi : ℝ} (h0 : (lo : EReal) ≤ v) (h1 : v ≤ (hi : EReal)) :
    ∃ r : ℝ, v = (r : EReal) := by
  refine ⟨v.toReal, (EReal.coe_toReal ?_ ?_).symm⟩
  · exact fun h => absurd (h ▸ h1) (not_le.mpr (EReal.coe_lt_top hi))
  · exact fun h => absurd (h ▸ h0) (not_le.mpr (EReal.bot_lt_coe lo))

/-- A clipped value is a real number, whatever was clipped. -/
theorem clip_real (x : EReal) : ∃ r : ℝ, min clipHi (max clipLo x) = (r : EReal) :=
  real_of_between (le_clip x) (clip_le x)

theorem logitR_real (a : Fin 256 → EReal) (B : Fin 2048 → Fin 256 → EReal) (n : Fin 2048) :
    ∃ r : ℝ, logitR a B n = (r : EReal) := clip_real _

/-- The row maximum is a real number (a maximum of 2048 reals): it is at least the first logit, which is at least
    −50, and at most 50 as −∞ and every logit are. -/
theorem maxR_real (a : Fin 256 → EReal) (B : Fin 2048 → Fin 256 → EReal) : ∃ r : ℝ, maxR a B = (r : EReal) := by
  refine real_of_between (lo := -50) (hi := 50) ?_ ?_
  · rw [maxR, Finset.le_fold_max]
    exact Or.inr ⟨0, Finset.mem_univ _, le_clip _⟩
  · rw [maxR, Finset.fold_max_le]
    exact ⟨by rw [negInf_eq]; exact bot_le, fun n _ => clip_le _⟩

/-- Taking the maximum with −∞ once more changes nothing. -/
theorem max_negInf_maxR (a : Fin 256 → EReal) (B : Fin 2048 → Fin 256 → EReal) : max negInf (maxR a B) = maxR a B := by
  rw [negInf_eq]; exact max_eq_right bot_le

/-! ### The two forms of the loss -/

/-- For real x and m and any extended real l: −((x − m) − l) = (l + m) − x. At l = −∞ both sides are −∞
    (a real minus −∞ is +∞), at l = +∞ both are +∞. -/
private theorem neg_sub_sub_eq (x m : ℝ) (l : EReal) :
    -(((x : EReal) - (m : EReal)) - l) = (l + (m : EReal)) - (x : EReal) := by
  induction l using EReal.rec with
  | bot => simp [← EReal.coe_sub]
  | top => simp [← EReal.coe_sub]
  | coe l => norm_cast; ring

/-- The log-softmax form of the loss: minus ((logit − max) − log Σ exp(logit − max)), the sum started from +0.0, is
    log-sum-exp minus the logit. Holds because the logit and the maximum are real numbers (the logarithm may be
    anything). -/
theorem neg_logSoftmax_eq (a : Fin 256 → EReal) (B : Fin 2048 → Fin 256 → EReal) (k : Fin 2048) :
    -((logitR a B k - maxR a B) - Ideal.log (zeroF + ∑ n : Fin 2048, Ideal.exp (logitR a B n - maxR a B)))
      = lseR a B - logitR a B k := by
  obtain ⟨x, hx⟩ := logitR_real a B k
  obtain ⟨m, hm⟩ := maxR_real a B
  rw [zeroF_eq, zero_add, lseR]
  generalize Ideal.log (∑ n : Fin 2048, Ideal.exp (logitR a B n - maxR a B)) = l
  rw [hx, hm]
  exact neg_sub_sub_eq x m l

/-! ### Signed words: the clamp and the non-negativity flag -/

private theorem toInt_zero32 : (0#32 : BitVec 32).toInt = 0 := by decide
private theorem toInt_2047 : (2047#32 : BitVec 32).toInt = 2047 := by decide
private theorem toInt_allOnes : (4294967295#32 : BitVec 32).toInt = -1 := by decide

/-- The signed maximum of zero and a word reads as the larger of 0 and the word's signed value. -/
private theorem toInt_maxsi_zero (w : BitVec 32) : (IntOp.maxsi 0#32 w).toInt = max 0 w.toInt := by
  rw [IntOp.maxsi]
  by_cases h : w.slt 0#32 = true
  · rw [if_pos h]; rw [BitVec.slt_iff_toInt_lt, toInt_zero32] at h; rw [toInt_zero32]; omega
  · rw [if_neg h]; rw [BitVec.slt_iff_toInt_lt, toInt_zero32] at h; omega

/-- The clamp reads as the word's signed value clamped into [0, 2047]. -/
private theorem toInt_clampW (w : BitVec 32) : (clampW w).toInt = min 2047 (max 0 w.toInt) := by
  rw [clampW, IntOp.minsi]
  by_cases h : (2047#32 : BitVec 32).slt (IntOp.maxsi 0#32 w) = true
  · rw [if_pos h]; rw [BitVec.slt_iff_toInt_lt, toInt_2047, toInt_maxsi_zero] at h; rw [toInt_2047]; omega
  · rw [if_neg h]; rw [BitVec.slt_iff_toInt_lt, toInt_2047, toInt_maxsi_zero] at h; rw [toInt_maxsi_zero]; omega

/-- A word in [0, 2047] is its own clamp. -/
theorem clampW_of_range {w : BitVec 32} (h0 : 0 ≤ w.toInt) (h1 : w.toInt ≤ 2047) : clampW w = w := by
  have h1' : ¬ (w.slt 0#32 = true) := by rw [BitVec.slt_iff_toInt_lt, toInt_zero32]; omega
  have h2' : ¬ ((2047#32 : BitVec 32).slt w = true) := by rw [BitVec.slt_iff_toInt_lt, toInt_2047]; omega
  rw [clampW, IntOp.maxsi, if_neg h1', IntOp.minsi, if_neg h2']

/-- The clamp of any word is in [0, 2047]. -/
theorem clampW_range (w : BitVec 32) : 0 ≤ (clampW w).toInt ∧ (clampW w).toInt ≤ 2047 := by
  rw [toInt_clampW]; omega

/-- The comparison "w ≥ 0" of signed words is the bit of the inequality 0 ≤ w on their signed values. -/
private theorem cmpi_sge_zero (w : BitVec 32) : IntOp.cmpi .sge w 0#32 = BitVec.ofBool (decide (0 ≤ w.toInt)) := by
  show BitVec.ofBool ((0#32 : BitVec 32).sle w) = BitVec.ofBool (decide (0 ≤ w.toInt))
  rw [BitVec.sle_eq_decide, toInt_zero32]

theorem flagW_of_nonneg {w : BitVec 32} (h : 0 ≤ w.toInt) : flagW w = 1 := by
  have e : ((BitVec.ofBool true).setWidth 32).toInt = 1 := by decide
  rw [flagW, cmpi_sge_zero, decide_eq_true h, e]
  simp

theorem flagW_of_neg {w : BitVec 32} (h : w.toInt < 0) : flagW w = 0 := by
  have e : ((BitVec.ofBool false).setWidth 32).toInt = 0 := by decide
  rw [flagW, cmpi_sge_zero, decide_eq_false (not_le.mpr h), e]
  simp

/-- The word a valid match's target becomes in the merged side input, and −1 for an invalid one. -/
def mergedW (valid : BitVec 1) (w : BitVec 32) : BitVec 32 := if valid = 1#1 then w else 4294967295#32

/-! ### A batch's 1024 matches as two tiles of 512 rows -/

/-- A sum over the 1024 matches is the sum over tile 0's rows plus the sum over tile 1's (row r of tile t is
    match 512·t + r). -/
private theorem sum_rowOf {M : Type*} [AddCommMonoid M] (f : Fin 1024 → M) :
    ∑ m, f m = ∑ r : Fin 512, f (rowOf 0 r) + ∑ r : Fin 512, f (rowOf 1 r) := by
  refine (Fin.sum_univ_add (a := 512) (b := 512) f).trans ?_
  congr 1 <;> refine Finset.sum_congr rfl fun r _ => congrArg f (Fin.ext ?_) <;> simp [rowOf]

/-- One match's term: for a valid match the merged word is the target, its own clamp, and its flag is 1; for an
    invalid one the merged word is −1, whose flag is 0, and a product with 0 is 0 on every extended real. -/
private theorem row_term (x : BitVec 32 → EReal) (v : BitVec 1) (w : BitVec 32) (h0 : 0 ≤ w.toInt)
    (h1 : w.toInt ≤ 2047) : (if v = 1#1 then x w else 0) = x (clampW (mergedW v w)) * flagW (mergedW v w) := by
  by_cases hv : v = 1#1
  · rw [if_pos hv, mergedW, if_pos hv, clampW_of_range h0 h1, flagW_of_nonneg h0, mul_one]
  · rw [if_neg hv, mergedW, if_neg hv, flagW_of_neg (by rw [toInt_allOnes]; omega), mul_zero]

/-- A batch's loss sum is its two tiles' masked sums, the targets in [0, 2047] and merged with the validity
    flags (an invalid match's term is a loss times the flag 0). -/
theorem batchSum_eq_tiles (a : Fin 1024 → Fin 256 → EReal) (B : Fin 2048 → Fin 256 → EReal) (valid : Fin 1024 → BitVec 1)
    (w : Fin 1024 → BitVec 32) (hw : ∀ m, 0 ≤ (w m).toInt ∧ (w m).toInt ≤ 2047) :
    batchSum a B valid w
      = tileSum (fun r => a (rowOf 0 r)) B (fun r => mergedW (valid (rowOf 0 r)) (w (rowOf 0 r)))
        + tileSum (fun r => a (rowOf 1 r)) B (fun r => mergedW (valid (rowOf 1 r)) (w (rowOf 1 r))) := by
  rw [batchSum, sum_rowOf, tileSum, tileSum]
  congr 1 <;> exact Finset.sum_congr rfl fun r _ => row_term (lossR (a _) B) _ _ (hw _).1 (hw _).2

/-- The embedding of the reals in the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The flag of a merged word is the indicator of validity. -/
private theorem flag_term (v : BitVec 1) (w : BitVec 32) (h0 : 0 ≤ w.toInt) :
    flagW (mergedW v w) = (((if v = 1#1 then 1 else 0 : ℝ)) : EReal) := by
  by_cases hv : v = 1#1
  · rw [if_pos hv, mergedW, if_pos hv, flagW_of_nonneg h0, EReal.coe_one]
  · rw [if_neg hv, mergedW, if_neg hv, flagW_of_neg (by rw [toInt_allOnes]; omega), EReal.coe_zero]

/-- A batch's number of valid matches is its two tiles' flag sums. -/
theorem batchCnt_eq_tiles (valid : Fin 1024 → BitVec 1) (w : Fin 1024 → BitVec 32) (hw : ∀ m, 0 ≤ (w m).toInt) :
    ((batchCnt valid : ℝ) : EReal)
      = tileCnt (fun r => mergedW (valid (rowOf 0 r)) (w (rowOf 0 r)))
        + tileCnt (fun r => mergedW (valid (rowOf 1 r)) (w (rowOf 1 r))) := by
  have h : ((batchCnt valid : ℝ) : EReal) = ∑ m : Fin 1024, flagW (mergedW (valid m) (w m)) := by
    rw [batchCnt, ← Finset.sum_boole, coe_sum]
    exact Finset.sum_congr rfl fun m _ => (flag_term _ _ (hw m)).symm
  rw [h, sum_rowOf, tileCnt, tileCnt]

end Cert.MatchLoss

end
-- ==== Proof.RefValue.lean ====
/-
  The reference, batch by batch. From its stages as the generated read-back names them: the validity flags
  [32,1024] (stage v14), the clipped target columns [32,1024] (stage v16, in [0, 2047]), the gathered query
  descriptors [32,1024,256] (stage v18) and the key array x1, the per-batch loss sum (stage v31) is the sum over the
  batch's valid matches of log-sum-exp(logits) − logits[target] — the reference computes it as minus the gathered
  log-softmax — and the per-batch count (stage v30) is the number of valid matches as a 32-bit word.
-/
import proofs.«403447_j22960895164759_3_alg».proof.Proof.RefRead
import proofs.«403447_j22960895164759_3_alg».proof.Proof.Spec
import proofs.«403447_j22960895164759_3_alg».proof.Proof.SpecLaws
import Idealize.ShloMosaic.Lib.ValueIdx
import Idealize.ShloMosaic.Lib.Pipeline.Value
import Idealize.ShloMosaic.Lib.IndicatorCount
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx Cert.MatchLoss

variable (x0 x1 : (⟨S32x2048x256, .f32⟩ : BufTy).Contents (Elt Ideal)) (x2 : (⟨S32x1024x2, .i32⟩ : BufTy).Contents (Elt Ideal))

/-- The stages both programs share, by their literal types. -/
abbrev validArr : S32x1024.Idx → BitVec 1 := val_main_v14 (F := Ideal) x2
abbrev tgtArr : S32x1024.Idx → BitVec 32 := val_main_v16 (F := Ideal) x2
abbrev qryArr : S32x1024x256.Idx → EReal := val_main_v18 (F := Ideal) x0 x2
/-- The reference's per-batch loss sum and count. -/
abbrev sumVec : S32.Idx → EReal := val_main_v31 (F := Ideal) x0 x1 x2
abbrev cntVec : S32.Idx → BitVec 32 := val_main_v30 (F := Ideal) x2

/-! ## The clipped target column -/

/-- The target column is the raw second column clamped into [0, 2047] as a signed word. -/
theorem tgt_eq_clampW (j : S32x1024.Idx) : tgtArr x2 j = clampW (val_main_v3 (F := Ideal) x2 j) := by
  show val_main_v16 (F := Ideal) x2 j = _
  rw [val_main_v16_apply, val_main_call1_v4_apply, val_main_call1_v3_apply, val_main_c_6_apply, val_main_call1_v2_apply,
    val_main_call1_v1_apply, val_main_call1_v0_apply, val_main_c_5_apply]
  rfl

/-- The clipped target column is in [0, 2047]. -/
theorem tgt_range (j : S32x1024.Idx) : 0 ≤ (tgtArr x2 j).toInt ∧ (tgtArr x2 j).toInt ≤ 2047 := by
  rw [tgt_eq_clampW]
  exact clampW_range _

/-! ## The count: an integer sum of the widened flags over a batch's 1024 matches -/

/-- The source index over batch `b` with match `k` on the summed axis is (b, k). -/
theorem lift_matches (h : S32x1024.Reduces [1] S32) (b : Fin 32) (k : Fin 1024) :
    h.lift (ix1 b) k = ix2 b k := by
  funext c; apply Fin.ext
  match c with
  | ⟨0, _⟩ => rfl
  | ⟨1, _⟩ => rfl

theorem cnt_eq (b : Fin 32) :
    cntVec x2 (ix1 b) = BitVec.ofNat 32 (batchCnt (fun m => validArr x2 (ix2 b m))) := by
  have h : S32x1024.Reduces [1] S32 := by decide
  show Host.reduce IntOp.addi (val_main_v29 (F := Ideal) x2) (val_main_c_10 (F := Ideal)) reducesTo_S32x1024_S32_d1 h_S_ (ix1 b) = _
  rw [Host.reduce_eq_fold_single IntOp.addi _ _ reducesTo_S32x1024_S32_d1 h h_S_]
  have hf : (val_main_v29 (F := Ideal) x2 ∘ h.lift (ix1 b))
      = fun k : Fin 1024 => (validArr x2 (ix2 b k)).setWidth 32 := funext fun (k : Fin 1024) => by
    show val_main_v29 (F := Ideal) x2 (h.lift (ix1 b) k) = _
    rw [lift_matches h b k]
    rfl
  refine (congrArg (fun f => Finset.fold IntOp.addi (0#32) f (Finset.univ : Finset (Fin 1024))) hf).trans ?_
  exact IndicatorCount.fold_addi_setWidth_eq_card (fun k : Fin 1024 => validArr x2 (ix2 b k)) Finset.univ

/-! ## The logits, their row maximum and the log-softmax

Row (b, m)'s query descriptor is `qrow`, batch b's keys are `keys`: the arguments the row-level functions take. -/

/-- The query descriptor of match (b, m). -/
abbrev qrow (b : Fin 32) (m : Fin 1024) : Fin 256 → EReal := fun d => qryArr x0 x2 (ix3 b m d)
/-- The keys of batch b. -/
abbrev keys (b : Fin 32) : Fin 2048 → Fin 256 → EReal := fun n d => (x1 : S32x2048x256.Idx → EReal) (ix3 b n d)

/-- The contraction reads the query row (b, m) … -/
theorem lidx_v19 (b : Fin 32) (m : Fin 1024) (n : Fin 2048) (k : Fin 256) : lidx_main_v19 (ix3 b m n) k = ix3 b m k :=
  funext fun a => Fin.ext (by match a with | ⟨0, _⟩ => rfl | ⟨1, _⟩ => rfl | ⟨2, _⟩ => rfl)
/-- … against key n of batch b. -/
theorem ridx_v19 (b : Fin 32) (m : Fin 1024) (n : Fin 2048) (k : Fin 256) : ridx_main_v19 (ix3 b m n) k = ix3 b n k :=
  funext fun a => Fin.ext (by match a with | ⟨0, _⟩ => rfl | ⟨1, _⟩ => rfl | ⟨2, _⟩ => rfl)

/-- The clipped, scaled inner product at (b, m, n) is logit n of row (b, m). -/
theorem logit_eq (b : Fin 32) (m : Fin 1024) (n : Fin 2048) :
    val_main_v22 (F := Ideal) x0 x1 x2 (ix3 b m n) = logitR (qrow x0 x2 b m) (keys x1 b) n := by
  rw [val_main_v22_apply, val_main_call3_v4_apply, val_main_call3_v3_apply, val_main_cst_8_apply,
    val_main_call3_v2_apply, val_main_call3_v1_apply, val_main_call3_v0_apply, val_main_cst_7_apply,
    val_main_v21_apply, val_main_v20_apply, val_main_cst_apply, val_main_v19_apply]
  simp only [Ideal.minimumf_def, Ideal.maximumf_def, Ideal.hostDivf_def, Ideal.ofBits_def, div_temperature, lidx_v19, ridx_v19]
  rfl

/-- The source index over (b, m) with key k on the reduced axis is (b, m, k). -/
theorem lift_keys (h : S32x1024x2048.Reduces [2] S32x1024) (b : Fin 32) (m : Fin 1024) (k : Fin 2048) :
    h.lift (ix2 b m) k = ix3 b m k := by
  funext c; apply Fin.ext
  match c with
  | ⟨0, _⟩ => rfl
  | ⟨1, _⟩ => rfl
  | ⟨2, _⟩ => rfl

/-- The max-reduce over the 2048 logits of row (b, m) is the row's maximum. -/
theorem rowmax_eq (b : Fin 32) (m : Fin 1024) :
    val_main_call4_v0 (F := Ideal) x0 x1 x2 (ix2 b m) = maxR (qrow x0 x2 b m) (keys x1 b) := by
  have h : S32x1024x2048.Reduces [2] S32x1024 := by decide
  unfold val_main_call4_v0
  rw [Host.reduce_eq_fold_single (FloatOps.maximumf (F := Ideal) (φ := .f32)) _ _ reducesTo_S32x1024x2048_S32x1024_d2 h h_S_]
  have hf : (val_main_v22 (F := Ideal) x0 x1 x2 ∘ h.lift (ix2 b m)) = logitR (qrow x0 x2 b m) (keys x1 b) :=
    funext fun (k : Fin 2048) => by
      show val_main_v22 (F := Ideal) x0 x1 x2 (h.lift (ix2 b m) k) = _
      rw [lift_keys h b m k, logit_eq]
  show Finset.fold max negInf (val_main_v22 (F := Ideal) x0 x1 x2 ∘ h.lift (ix2 b m)) (Finset.univ : Finset (Fin 2048)) = _
  rw [hf]
  rfl

/-- The broadcast of the row maximum back over the keys reads row (b, m). -/
theorem idx_call4_v4 (b : Fin 32) (m : Fin 1024) (n : Fin 2048) :
    idx_main_call4_v3 (idx_main_call4_v4 (ix3 b m n)) = ix2 b m :=
  funext fun a => Fin.ext (by match a with | ⟨0, _⟩ => rfl | ⟨1, _⟩ => rfl)

/-- The shifted logit at (b, m, n): logit n minus the row maximum. -/
theorem shift_eq (b : Fin 32) (m : Fin 1024) (n : Fin 2048) :
    val_main_call4_v5 (F := Ideal) x0 x1 x2 (ix3 b m n)
      = logitR (qrow x0 x2 b m) (keys x1 b) n - maxR (qrow x0 x2 b m) (keys x1 b) := by
  rw [val_main_call4_v5_apply, logit_eq, val_main_call4_v4_apply, val_main_call4_v3_apply, idx_call4_v4,
    val_main_call4_v2_apply, val_main_call4_v1_apply, val_main_call4_cst_0_apply, rowmax_eq]
  simp only [Ideal.subf_def, Ideal.maximumf_def, Ideal.ofBits_def]
  rw [max_negInf_maxR]

/-- The sum's source index over (b, m) with key k is (b, m, k). -/
theorem idx_call4_v7 (b : Fin 32) (m : Fin 1024) (k : Fin 2048) : idx_main_call4_v7 (ix2 b m) k = ix3 b m k :=
  funext fun a => Fin.ext (by match a with | ⟨0, _⟩ => rfl | ⟨1, _⟩ => rfl | ⟨2, _⟩ => rfl)

/-- The sum of the exponentials of row (b, m)'s shifted logits, from the +0.0 pattern. -/
theorem sumexp_eq (b : Fin 32) (m : Fin 1024) :
    val_main_call4_v7 (F := Ideal) x0 x1 x2 (ix2 b m)
      = zeroF + ∑ n : Fin 2048, Ideal.exp (logitR (qrow x0 x2 b m) (keys x1 b) n - maxR (qrow x0 x2 b m) (keys x1 b)) := by
  rw [val_main_call4_v7_apply, val_main_call4_cst_1_apply]
  refine congrArg (_ + ·) (Finset.sum_congr rfl fun k _ => ?_)
  rw [idx_call4_v7, val_main_call4_v6_apply, shift_eq]
  exact Ideal.hostUnary_exp_def _

/-- The broadcast of the log of that sum back over the keys reads row (b, m). -/
theorem idx_call4_v10 (b : Fin 32) (m : Fin 1024) (n : Fin 2048) :
    idx_main_call4_v8 (idx_main_call4_v10 (ix3 b m n)) = ix2 b m :=
  funext fun a => Fin.ext (by match a with | ⟨0, _⟩ => rfl | ⟨1, _⟩ => rfl)

/-- The log-softmax at (b, m, n). -/
theorem logp_eq (b : Fin 32) (m : Fin 1024) (n : Fin 2048) :
    val_main_v23 (F := Ideal) x0 x1 x2 (ix3 b m n)
      = (logitR (qrow x0 x2 b m) (keys x1 b) n - maxR (qrow x0 x2 b m) (keys x1 b))
        - Ideal.log (zeroF + ∑ n' : Fin 2048, Ideal.exp (logitR (qrow x0 x2 b m) (keys x1 b) n' - maxR (qrow x0 x2 b m) (keys x1 b))) := by
  rw [val_main_v23_apply, shift_eq, val_main_call4_v10_apply, val_main_call4_v9_apply, val_main_call4_v8_apply,
    idx_call4_v10, sumexp_eq]
  simp only [Ideal.subf_def, Ideal.hostUnary_log_def]

/-! ## The gathered column: the target word, the bounds test and the gather -/

/-- A word in [0, 2047] is not below zero, … -/
theorem cmpi_slt_zero_of_range {w : BitVec 32} (h0 : 0 ≤ w.toInt) : IntOp.cmpi .slt w 0#32 = 0#1 := by
  have e0 : (0#32 : BitVec 32).toInt = 0 := by decide
  show BitVec.ofBool (w.slt 0#32) = 0#1
  rw [BitVec.slt_eq_decide, e0, decide_eq_false (by omega)]
  rfl
/-- … is at least zero, … -/
theorem cmpi_sge_zero_of_range {w : BitVec 32} (h0 : 0 ≤ w.toInt) : IntOp.cmpi .sge w 0#32 = 1#1 := by
  have e0 : (0#32 : BitVec 32).toInt = 0 := by decide
  show BitVec.ofBool ((0#32 : BitVec 32).sle w) = 1#1
  rw [BitVec.sle_eq_decide, e0, decide_eq_true h0]
  rfl
/-- … and is at most 2047. -/
theorem cmpi_sle_2047_of_range {w : BitVec 32} (h1 : w.toInt ≤ 2047) : IntOp.cmpi .sle w 2047#32 = 1#1 := by
  have e1 : (2047#32 : BitVec 32).toInt = 2047 := by decide
  show BitVec.ofBool (w.sle 2047#32) = 1#1
  rw [BitVec.sle_eq_decide, e1, decide_eq_true h1]
  rfl
/-- Read as a signed integer and clamped into the 2048 keys, it names the column `pick` does. -/
theorem clamp_eq_pick {w : BitVec 32} (h0 : 0 ≤ w.toInt) (h1 : w.toInt ≤ 2047) : min w.toInt.toNat 2047 = (pick w).val := by
  have e := BitVec.toInt_eq_toNat_cond w
  have hl := w.isLt
  show min w.toInt.toNat 2047 = w.toNat % 2048
  split at e <;> omega

/-- The target word broadcast to [32,1024,1], at (b, m, 0). -/
theorem tgt3_eq (b : Fin 32) (m : Fin 1024) : val_main_v24 (F := Ideal) x2 (ix3 b m (0 : Fin 1)) = tgtArr x2 (ix2 b m) := by
  rw [val_main_v24_apply]
  exact congrArg (val_main_v16 (F := Ideal) x2)
    (funext fun a => Fin.ext (by match a with | ⟨0, _⟩ => rfl | ⟨1, _⟩ => rfl))

/-- The wrap of a negative index is never taken: the start index at (b, m, 0) is the target word. -/
theorem start3_eq (b : Fin 32) (m : Fin 1024) :
    val_main_call5_v4 (F := Ideal) x2 (ix3 b m (0 : Fin 1)) = tgtArr x2 (ix2 b m) := by
  rw [val_main_call5_v4_apply, val_main_call5_v1_apply, tgt3_eq, val_main_call5_v0_apply, val_main_call5_c_apply,
    cmpi_slt_zero_of_range (tgt_range x2 (ix2 b m)).1, select_zero]

/-- The reshape to [32,1024,1,1] reads (b, m, 0). -/
theorem idx_call5_v5 (b : Fin 32) (m : Fin 1024) :
    idx_main_call5_v5 (ix4 b m (0 : Fin 1) (0 : Fin 1)) = ix3 b m (0 : Fin 1) :=
  funext fun a => Fin.ext (by
    have hb := b.isLt
    have hm := m.isLt
    match a with
    | ⟨0, _⟩ => show (((b.val * 1024 + m.val) * 1 + 0) * 1 + 0) / 1024 = b.val; omega
    | ⟨1, _⟩ => show (((b.val * 1024 + m.val) * 1 + 0) * 1 + 0) / 1 % 1024 = m.val; omega
    | ⟨2, _⟩ => rfl)

/-- The start index at (b, m, 0, 0) is the target word. -/
theorem start4_eq (b : Fin 32) (m : Fin 1024) :
    val_main_call5_v5 (F := Ideal) x2 (ix4 b m (0 : Fin 1) (0 : Fin 1)) = tgtArr x2 (ix2 b m) := by
  rw [val_main_call5_v5_apply, idx_call5_v5, start3_eq]

/-- The bounds test 0 ≤ · ≤ 2047 holds at (b, m, 0, 0). -/
theorem bounds4_eq (b : Fin 32) (m : Fin 1024) :
    val_main_call5_v11 (F := Ideal) x2 (ix4 b m (0 : Fin 1) (0 : Fin 1)) = 1#1 := by
  rw [val_main_call5_v11_apply, val_main_call5_v7_apply, val_main_call5_v10_apply, start4_eq, val_main_call5_v6_apply,
    val_main_call5_c_2_apply, val_main_call5_v9_apply, val_main_call5_v8_apply, val_main_call5_c_1_apply,
    cmpi_sge_zero_of_range (tgt_range x2 (ix2 b m)).1, cmpi_sle_2047_of_range (tgt_range x2 (ix2 b m)).2]
  rfl

/-- The source index over (b, m, 0) with the one coordinate of the reduced axis is (b, m, 0, 0). -/
theorem lift_unit (h : S32x1024x1x1.Reduces [3] S32x1024x1) (b : Fin 32) (m : Fin 1024) (k : Fin 1) :
    h.lift (ix3 b m (0 : Fin 1)) k = ix4 b m (0 : Fin 1) (0 : Fin 1) := by
  funext c; apply Fin.ext
  match c with
  | ⟨0, _⟩ => rfl
  | ⟨1, _⟩ => rfl
  | ⟨2, _⟩ => rfl
  | ⟨3, _⟩ => show k.val = 0; omega

/-- Its and-reduce over the last axis (of size one) holds at (b, m, 0). -/
theorem bounds3_eq (b : Fin 32) (m : Fin 1024) :
    val_main_call5_v12 (F := Ideal) x2 (ix3 b m (0 : Fin 1)) = 1#1 := by
  have h : S32x1024x1x1.Reduces [3] S32x1024x1 := by decide
  unfold val_main_call5_v12
  rw [Host.reduce_eq_fold_single (IntOp.andi (w := 1)) _ _ reducesTo_S32x1024x1x1_S32x1024x1_d3 h h_S_]
  show Finset.fold IntOp.andi (1#1) (fun k : Fin 1 => val_main_call5_v11 (F := Ideal) x2 (h.lift (ix3 b m (0 : Fin 1)) k))
    (Finset.univ : Finset (Fin 1)) = 1#1
  rw [Finset.univ_unique, Finset.fold_singleton]
  show IntOp.andi (val_main_call5_v11 (F := Ideal) x2 (h.lift (ix3 b m (0 : Fin 1)) (default : Fin 1))) 1#1 = 1#1
  rw [lift_unit h b m, bounds4_eq]
  rfl

/-- The gather reads, on the two batching axes, its own coordinates … -/
theorem gather_axis0 (idx : IVec S32x1024x1x1 32) (b : Fin 32) (m : Fin 1024) :
    (gather_S32x1024x2048_S32x1024x1x1_S32x1024x1_n_2_01_01_2_3_111.operandIdx (ix3 b m (0 : Fin 1)) idx 0).val = b.val := by
  show gather_S32x1024x2048_S32x1024x1x1_S32x1024x1_n_2_01_01_2_3_111.start (ix3 b m (0 : Fin 1)) idx 0
      + gather_S32x1024x2048_S32x1024x1x1_S32x1024x1_n_2_01_01_2_3_111.batchCoord (ix3 b m (0 : Fin 1)) 0
      + gather_S32x1024x2048_S32x1024x1x1_S32x1024x1_n_2_01_01_2_3_111.offCoord (ix3 b m (0 : Fin 1)) 0 = _
  rw [GatherDims.start_batching _ _ _ _ (show (0 : Fin S32x1024x2048.rank) ∈ gather_S32x1024x2048_S32x1024x1x1_S32x1024x1_n_2_01_01_2_3_111.operandBatchingDims by decide),
    GatherDims.offCoord_eq_zero _ _ _ (show (0 : Fin S32x1024x2048.rank) ∉ gather_S32x1024x2048_S32x1024x1x1_S32x1024x1_n_2_01_01_2_3_111.sKept by decide)]
  unfold GatherDims.batchCoord
  rw [dif_pos (show (0 : Fin S32x1024x2048.rank) ∈ gather_S32x1024x2048_S32x1024x1x1_S32x1024x1_n_2_01_01_2_3_111.operandBatchingDims by decide)]
  rw [Nat.zero_add, Nat.add_zero]
  rfl
theorem gather_axis1 (idx : IVec S32x1024x1x1 32) (b : Fin 32) (m : Fin 1024) :
    (gather_S32x1024x2048_S32x1024x1x1_S32x1024x1_n_2_01_01_2_3_111.operandIdx (ix3 b m (0 : Fin 1)) idx 1).val = m.val := by
  show gather_S32x1024x2048_S32x1024x1x1_S32x1024x1_n_2_01_01_2_3_111.start (ix3 b m (0 : Fin 1)) idx 1
      + gather_S32x1024x2048_S32x1024x1x1_S32x1024x1_n_2_01_01_2_3_111.batchCoord (ix3 b m (0 : Fin 1)) 1
      + gather_S32x1024x2048_S32x1024x1x1_S32x1024x1_n_2_01_01_2_3_111.offCoord (ix3 b m (0 : Fin 1)) 1 = _
  rw [GatherDims.start_batching _ _ _ _ (show (1 : Fin S32x1024x2048.rank) ∈ gather_S32x1024x2048_S32x1024x1x1_S32x1024x1_n_2_01_01_2_3_111.operandBatchingDims by decide),
    GatherDims.offCoord_eq_zero _ _ _ (show (1 : Fin S32x1024x2048.rank) ∉ gather_S32x1024x2048_S32x1024x1x1_S32x1024x1_n_2_01_01_2_3_111.sKept by decide)]
  unfold GatherDims.batchCoord
  rw [dif_pos (show (1 : Fin S32x1024x2048.rank) ∈ gather_S32x1024x2048_S32x1024x1x1_S32x1024x1_n_2_01_01_2_3_111.operandBatchingDims by decide)]
  rw [Nat.zero_add, Nat.add_zero]
  rfl
/-- … and on the collapsed axis the start index at (b, m, 0, 0), read signed and clamped into the 2048 keys. -/
theorem gather_axis2 (idx : IVec S32x1024x1x1 32) (b : Fin 32) (m : Fin 1024) :
    (gather_S32x1024x2048_S32x1024x1x1_S32x1024x1_n_2_01_01_2_3_111.operandIdx (ix3 b m (0 : Fin 1)) idx 2).val
      = min (idx (ix4 b m (0 : Fin 1) (0 : Fin 1))).toInt.toNat 2047 := by
  show gather_S32x1024x2048_S32x1024x1x1_S32x1024x1_n_2_01_01_2_3_111.start (ix3 b m (0 : Fin 1)) idx 2
      + gather_S32x1024x2048_S32x1024x1x1_S32x1024x1_n_2_01_01_2_3_111.batchCoord (ix3 b m (0 : Fin 1)) 2
      + gather_S32x1024x2048_S32x1024x1x1_S32x1024x1_n_2_01_01_2_3_111.offCoord (ix3 b m (0 : Fin 1)) 2 = _
  rw [GatherDims.batchCoord_eq_zero _ _ _ (show (2 : Fin S32x1024x2048.rank) ∉ gather_S32x1024x2048_S32x1024x1x1_S32x1024x1_n_2_01_01_2_3_111.operandBatchingDims by decide),
    GatherDims.offCoord_eq_zero _ _ _ (show (2 : Fin S32x1024x2048.rank) ∉ gather_S32x1024x2048_S32x1024x1x1_S32x1024x1_n_2_01_01_2_3_111.sKept by decide)]
  unfold GatherDims.start
  rw [dif_pos (show (2 : Fin S32x1024x2048.rank) ∈ gather_S32x1024x2048_S32x1024x1x1_S32x1024x1_n_2_01_01_2_3_111.startIndexMap by decide)]
  have hsi : gather_S32x1024x2048_S32x1024x1x1_S32x1024x1_n_2_01_01_2_3_111.siIdx (ix3 b m (0 : Fin 1))
      ⟨List.idxOf (2 : Fin S32x1024x2048.rank) gather_S32x1024x2048_S32x1024x1x1_S32x1024x1_n_2_01_01_2_3_111.startIndexMap,
        List.idxOf_lt_length_iff.2 (show (2 : Fin S32x1024x2048.rank) ∈ gather_S32x1024x2048_S32x1024x1x1_S32x1024x1_n_2_01_01_2_3_111.startIndexMap by decide)⟩
      = ix4 b m (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

/-- THE GATHER AT (b, m, 0): the operand at (b, m, the start index read signed and clamped into the 2048 keys). -/
theorem gather_col {α : Type} (x : S32x1024x2048.Idx → α) (idx : IVec S32x1024x1x1 32) (b : Fin 32) (m : Fin 1024) :
    Host.gather gather_S32x1024x2048_S32x1024x1x1_S32x1024x1_n_2_01_01_2_3_111 x idx (ix3 b m (0 : Fin 1))
      = x (ix3 b m (⟨min (idx (ix4 b m (0 : Fin 1) (0 : Fin 1))).toInt.toNat 2047, by omega⟩ : Fin 2048)) := by
  unfold Host.gather
  refine congrArg x (funext fun a => Fin.ext ?_)
  match a with
  | ⟨0, _⟩ => exact gather_axis0 idx b m
  | ⟨1, _⟩ => exact gather_axis1 idx b m
  | ⟨2, _⟩ => exact gather_axis2 idx b m

/-! ## A match's loss, the masked sum, and the batch's loss sum -/

/-- The gathered log-softmax at (b, m, 0): the column the target word names. -/
theorem taken_eq (b : Fin 32) (m : Fin 1024) :
    val_main_v25 (F := Ideal) x0 x1 x2 (ix3 b m (0 : Fin 1))
      = val_main_v23 (F := Ideal) x0 x1 x2 (ix3 b m (pick (tgtArr x2 (ix2 b m)))) := by
  rw [val_main_v25_apply, bounds3_eq, select_one]
  unfold val_main_call5_v13
  refine (gather_col _ _ b m).trans ?_
  refine congrArg (val_main_v23 (F := Ideal) x0 x1 x2)
    (congrArg (ix3 b m : Fin 2048 → S32x1024x2048.Idx) (Fin.ext ?_))
  show min (val_main_call5_v5 (F := Ideal) x2 (ix4 b m (0 : Fin 1) (0 : Fin 1))).toInt.toNat 2047 = _
  rw [start4_eq]
  exact clamp_eq_pick (tgt_range x2 (ix2 b m)).1 (tgt_range x2 (ix2 b m)).2

/-- The reshape back to [32,1024] reads (b, m, 0). -/
theorem idx_v26 (b : Fin 32) (m : Fin 1024) : idx_main_v26 (ix2 b m) = ix3 b m (0 : Fin 1) :=
  funext fun a => Fin.ext (by
    have hb := b.isLt
    have hm := m.isLt
    match a with
    | ⟨0, _⟩ => show (b.val * 1024 + m.val) / 1024 = b.val; omega
    | ⟨1, _⟩ => show (b.val * 1024 + m.val) / 1 % 1024 = m.val; omega
    | ⟨2, _⟩ => rfl)

/-- Minus the gathered log-softmax is the row's cross-entropy against its target word. -/
theorem perMatch_eq (b : Fin 32) (m : Fin 1024) :
    val_main_v27 (F := Ideal) x0 x1 x2 (ix2 b m) = lossR (qrow x0 x2 b m) (keys x1 b) (tgtArr x2 (ix2 b m)) := by
  rw [val_main_v27_apply, val_main_v26_apply, idx_v26, taken_eq, logp_eq]
  simp only [Ideal.hostNegf_def, Ideal.negf_def]
  unfold lossR
  exact neg_logSoftmax_eq _ _ _

/-- The masked loss of match (b, m): its cross-entropy when the match is valid, zero otherwise. -/
theorem masked_eq (b : Fin 32) (m : Fin 1024) :
    val_main_v28 (F := Ideal) x0 x1 x2 (ix2 b m)
      = if validArr x2 (ix2 b m) = 1#1 then lossR (qrow x0 x2 b m) (keys x1 b) (tgtArr x2 (ix2 b m)) else 0 := by
  rw [val_main_v28_apply, perMatch_eq, val_main_call6_v1_apply, val_main_call6_v0_apply, val_main_cst_9_apply]
  show Scalar.select (validArr x2 (ix2 b m)) (lossR (qrow x0 x2 b m) (keys x1 b) (tgtArr x2 (ix2 b m))) zeroF = _
  rw [zeroF_eq]
  by_cases hv : validArr x2 (ix2 b m) = 1#1
  · rw [if_pos hv, hv, select_one]
  · rw [if_neg hv, eq_zero_of_ne_one hv, select_zero]

/-- The sum's source index over batch b with match k is (b, k). -/
theorem idx_v31 (b : Fin 32) (k : Fin 1024) : idx_main_v31 (ix1 b) k = ix2 b k :=
  funext fun a => Fin.ext (by match a with | ⟨0, _⟩ => rfl | ⟨1, _⟩ => rfl)

theorem sum_eq (b : Fin 32) :
    sumVec x0 x1 x2 (ix1 b)
      = zeroF + batchSum (fun m d => qryArr x0 x2 (ix3 b m d)) (fun n d => (x1 : S32x2048x256.Idx → EReal) (ix3 b n d))
          (fun m => validArr x2 (ix2 b m)) (fun m => tgtArr x2 (ix2 b m)) := by
  show val_main_v31 (F := Ideal) x0 x1 x2 (ix1 b) = _
  rw [val_main_v31_apply, val_main_cst_11_apply]
  unfold batchSum
  refine congrArg (_ + ·) (Finset.sum_congr rfl fun k _ => ?_)
  rw [idx_v31, masked_eq]

end Cert.ReferenceIdeal.RefValue

end
-- ==== Proof.CountLaws.lean ====
/-
  The count of a batch's valid matches, read two ways: as the real number the kernel's flag sums add up to and as
  the 32-bit word the reference's integer sum gives. Both "at least one" and "positive" agree between the two
  readings for a count of at most 1024.
-/
import proofs.«403447_j22960895164759_3_alg».proof.Proof.Spec
import proofs.«403447_j22960895164759_3_alg».proof.Proof.SpecLaws

noncomputable section

namespace Cert.MatchLoss

open Idealize.ShloMosaic

/-- The pattern of 1.0 denotes one. -/
private theorem ofBits_one : Ideal.ofBits .f32 0x3F800000#32 = (1 : EReal) := by
  simp [Ideal.ofBits, Ideal.ieee, -EReal.coe_mul]; norm_num

private theorem toInt_zero32 : (0#32 : BitVec 32).toInt = 0 := by decide
private theorem toInt_one32 : (1#32 : BitVec 32).toInt = 1 := by decide

/-- A count of at most 1024, as a 32-bit word, reads signed as itself. -/
private theorem toInt_ofNat_count (k : ℕ) (hk : k ≤ 1024) : (BitVec.ofNat 32 k).toInt = (k : ℤ) := by
  have h := BitVec.toInt_eq_toNat_cond (BitVec.ofNat 32 k)
  rw [BitVec.toNat_ofNat] at h
  split at h <;> omega

/-- The signed maximum of the count word and 1 reads as the larger of the count and 1. -/
private theorem toInt_maxsi_one (k : ℕ) (hk : k ≤ 1024) :
    (IntOp.maxsi (BitVec.ofNat 32 k) 1#32).toInt = max (k : ℤ) 1 := by
  rw [IntOp.maxsi]
  by_cases h : (1#32 : BitVec 32).slt (BitVec.ofNat 32 k) = true
  · rw [if_pos h]; rw [BitVec.slt_iff_toInt_lt, toInt_one32, toInt_ofNat_count k hk] at h
    rw [toInt_ofNat_count k hk]; omega
  · rw [if_neg h]; rw [BitVec.slt_iff_toInt_lt, toInt_one32, toInt_ofNat_count k hk] at h
    rw [toInt_one32]; omega

/-- The kernel's count floor, max(count, 1.0) on reals started from +0.0, is the reference's, the signed maximum of
    the count word and 1 converted to a real. -/
theorem max_count_one (k : ℕ) (hk : k ≤ 1024) :
    max (zeroF + ((k : ℝ) : EReal)) (Ideal.ofBits .f32 0x3F800000#32)
      = (((IntOp.maxsi (BitVec.ofNat 32 k) 1#32).toInt : ℝ) : EReal) := by
  rw [zeroF_eq, zero_add, ofBits_one, toInt_maxsi_one k hk, Int.cast_max, EReal.coe_strictMono.monotone.map_max]
  simp

/-- "The count is positive", as a float comparison with +0.0 and as a signed word comparison with 0. -/
theorem count_pos (k : ℕ) (hk : k ≤ 1024) :
    Ideal.cmp .ogt (zeroF + ((k : ℝ) : EReal)) zeroF = IntOp.cmpi .sgt (BitVec.ofNat 32 k) 0#32 := by
  rw [zeroF_eq, zero_add]
  show BitVec.ofBool (decide ((0 : EReal) < ((k : ℝ) : EReal)))
    = BitVec.ofBool ((0#32 : BitVec 32).slt (BitVec.ofNat 32 k))
  congr 1
  rw [Bool.eq_iff_iff, decide_eq_true_iff, BitVec.slt_iff_toInt_lt, toInt_ofNat_count k hk, toInt_zero32,
    EReal.coe_pos, Nat.cast_pos, Int.natCast_pos]

/-- A count of valid matches among 1024 is at most 1024. -/
theorem batchCnt_le (valid : Fin 1024 → BitVec 1) : batchCnt valid ≤ 1024 := by
  exact (Finset.card_filter_le _ _).trans (by simp)

end Cert.MatchLoss

end
-- ==== Proof.Batch.lean ====
/-
  Batch by batch, the kernel's program and the reference agree. For batch b both compute the loss sum S_b over the
  batch's valid matches and their number k_b: the kernel as the two tiles' masked sums (an invalid match's loss
  times the flag 0) and flag sums, added from +0.0 after the region; the reference as a masked sum and an integer sum
  of the flags. Hence the batch's loss S_b / max(k_b, 1) and its flag k_b > 0 are the same on both sides, the
  kernel's count being the real number k_b and the reference's the 32-bit word of k_b, with k_b ≤ 1024.
-/
import proofs.«403447_j22960895164759_3_alg».proof.Proof.KTail
import proofs.«403447_j22960895164759_3_alg».proof.Proof.KBlocks
import proofs.«403447_j22960895164759_3_alg».proof.Proof.KHost
import proofs.«403447_j22960895164759_3_alg».proof.Proof.RefValue
import proofs.«403447_j22960895164759_3_alg».proof.Proof.SpecLaws
import proofs.«403447_j22960895164759_3_alg».proof.Proof.CountLaws
import Idealize.ShloMosaic.Lib.ValueIdx
import Idealize.ShloMosaic.Lib.Pipeline.Value
import Idealize.ShloMosaic.PureOps.Ideal.Laws

noncomputable section

namespace Cert.Proof.Batch

open Cert.KernelIdeal Cert.KernelIdeal.Gen Idealize.ShloMosaic Idealize.ShloMosaic.TcCoe Idealize.ShloMosaic.ValueIdx Cert.MatchLoss
open Cert.KernelIdeal.HostOut Cert.KernelIdeal.HostIn Cert.KernelIdeal.Blocks
open Cert.ReferenceIdeal.RefValue
open Cert.ReferenceIdeal.ReadP (val_main_v30 val_main_v31 val_main_v32 val_main_v33 val_main_v34 val_main_v35 val_main_v36 val_main_v37)

variable (m : (ℓ : Loc nD τ sig) → Buf (Elt Ideal) ℓ) (c : Dev nD)

/-- A result array's two tile entries of batch b, added from +0.0. -/
theorem tilesAdded_apply (s : (⟨S32x2x1x1, .f32⟩ : BufTy).Contents (Elt Ideal)) (b : Fin 32) :
    tilesAdded (F := Ideal) s (ix1 b)
      = zeroF + ((s : S32x2x1x1.Idx → EReal) (ix4 b (0 : Fin 2) (0 : Fin 1) (0 : Fin 1)) + (s : S32x2x1x1.Idx → EReal) (ix4 b (1 : Fin 2) (0 : Fin 1) (0 : Fin 1))) := by
  have hr : S32x2.Reduces [1] S32 := by decide
  unfold tilesAdded
  simp only [Host.reduceAdd, Ideal.hostReduceAdd_def]
  rw [Ideal.hostReduceAdd_single reducesTo_S32x2_S32_d1 hr]
  refine congrArg (_ + ·) ?_
  show ∑ k : Fin 2, shapeCast S32x2 (s : S32x2x1x1.Idx → EReal) shapeCasts_S32x2x1x1_S32x2 (hr.lift (ix1 b) k) = _
  rw [Fin.sum_univ_two]
  congr 1
  · exact shapeCast_apply (s : S32x2x1x1.Idx → EReal) shapeCasts_S32x2x1x1_S32x2 _ (ix4 b (0 : Fin 2) (0 : Fin 1) (0 : Fin 1)) (by
      rewrite [Shape.rowMajor_val_four, Shape.rowMajor_val_two]
      show ((b.val * 2 + 0) * 1 + 0) * 1 + 0 = b.val * 2 + 0
      omega)
  · exact shapeCast_apply (s : S32x2x1x1.Idx → EReal) shapeCasts_S32x2x1x1_S32x2 _ (ix4 b (1 : Fin 2) (0 : Fin 1) (0 : Fin 1)) (by
      rewrite [Shape.rowMajor_val_four, Shape.rowMajor_val_two]
      show ((b.val * 2 + 1) * 1 + 0) * 1 + 0 = b.val * 2 + 1
      omega)

/-- The region's query array is the reference's gathered descriptors (the narrowing changes no value). -/
theorem qArr_apply (b : Fin 32) (r : Fin 1024) (d : Fin 256) :
    qArr m c (ix3 b r d) = qryArr (a0 m c) (a2 m c) (ix3 b r d) := by
  show (V m c main_v19 : S32x1024x256.Idx → EReal) _ = Cert.ReferenceIdeal.ReadP.val_main_v18 (F := Ideal) (a0 m c) (a2 m c) _
  rw [qry_eq]
  generalize Cert.ReferenceIdeal.ReadP.val_main_v18 (F := Ideal) (a0 m c) (a2 m c) = y
  rfl

/-- The region's word array at a match: its clipped target where it is valid, −1 where it is not. -/
theorem wArr_apply (b : Fin 32) (r : Fin 1024) :
    wArr m c (ix3 b r (0 : Fin 1)) = mergedW (validArr (a2 m c) (ix2 b r)) (tgtArr (a2 m c) (ix2 b r)) := by
  show (V m c main_v21 : S32x1024x1.Idx → BitVec 32) _ = mergedW (Cert.ReferenceIdeal.ReadP.val_main_v14 (F := Ideal) (a2 m c) (ix2 b r)) (Cert.ReferenceIdeal.ReadP.val_main_v16 (F := Ideal) (a2 m c) (ix2 b r))
  rw [wrd_eq]
  generalize Cert.ReferenceIdeal.ReadP.val_main_v14 (F := Ideal) (a2 m c) = v
  generalize Cert.ReferenceIdeal.ReadP.val_main_v16 (F := Ideal) (a2 m c) = w
  rw [broadcastInDim_apply _ bcast_S32x1024_S32x1024x1_0_1 _ (ix3 b r (0 : Fin 1)) (ix2 b r) (fun a => match a with
    | ⟨0, _⟩ => by show b.val = if (32 : Nat) = 1 then 0 else b.val; rw [if_neg (by decide)]
    | ⟨1, _⟩ => by show r.val = if (1024 : Nat) = 1 then 0 else r.val; rw [if_neg (by decide)])]
  rfl

/-- The kernel's key array is the second argument as launched. -/
theorem kArr_eq : kArr m c = (a1 m c : S32x2048x256.Idx → EReal) := V_main_arg1 m c

/-- A tile's masked loss sum, read off the reference's stages. -/
theorem tileSum_stages (b : Fin 32) (t : Fin 2) :
    tileSum (fun r d => qArr m c (ix3 b (rowOf t r) d)) (fun n d => kArr m c (ix3 b n d)) (fun r => wArr m c (ix3 b (rowOf t r) (0 : Fin 1)))
      = tileSum (fun r d => qryArr (a0 m c) (a2 m c) (ix3 b (rowOf t r) d)) (fun n d => (a1 m c : S32x2048x256.Idx → EReal) (ix3 b n d))
          (fun r => mergedW (validArr (a2 m c) (ix2 b (rowOf t r))) (tgtArr (a2 m c) (ix2 b (rowOf t r)))) := by
  have hq : (fun (r : Fin 512) (d : Fin 256) => qArr m c (ix3 b (rowOf t r) d)) = fun r d => qryArr (a0 m c) (a2 m c) (ix3 b (rowOf t r) d) :=
    funext fun r => funext fun d => qArr_apply m c b (rowOf t r) d
  have hk : (fun (n : Fin 2048) (d : Fin 256) => kArr m c (ix3 b n d)) = fun n d => (a1 m c : S32x2048x256.Idx → EReal) (ix3 b n d) :=
    funext fun n => funext fun d => congrFun (kArr_eq m c) (ix3 b n d)
  have hw : (fun (r : Fin 512) => wArr m c (ix3 b (rowOf t r) (0 : Fin 1))) = fun r => mergedW (validArr (a2 m c) (ix2 b (rowOf t r))) (tgtArr (a2 m c) (ix2 b (rowOf t r))) :=
    funext fun r => wArr_apply m c b (rowOf t r)
  rw [hq, hk, hw]

/-- A tile's count, read off the reference's stages. -/
theorem tileCnt_stages (b : Fin 32) (t : Fin 2) :
    tileCnt (fun r => wArr m c (ix3 b (rowOf t r) (0 : Fin 1)))
      = tileCnt (fun r => mergedW (validArr (a2 m c) (ix2 b (rowOf t r))) (tgtArr (a2 m c) (ix2 b (rowOf t r)))) := by
  have hw : (fun (r : Fin 512) => wArr m c (ix3 b (rowOf t r) (0 : Fin 1))) = fun r => mergedW (validArr (a2 m c) (ix2 b (rowOf t r))) (tgtArr (a2 m c) (ix2 b (rowOf t r))) :=
    funext fun r => wArr_apply m c b (rowOf t r)
  rw [hw]

/-- Batch b's loss sum, from the region's sums. -/
theorem sum_tiles (b : Fin 32) :
    sumA m c (ix4 b (0 : Fin 2) (0 : Fin 1) (0 : Fin 1)) + sumA m c (ix4 b (1 : Fin 2) (0 : Fin 1) (0 : Fin 1))
      = batchSum (fun r d => qryArr (a0 m c) (a2 m c) (ix3 b r d)) (fun n d => (a1 m c : S32x2048x256.Idx → EReal) (ix3 b n d))
          (fun r => validArr (a2 m c) (ix2 b r)) (fun r => tgtArr (a2 m c) (ix2 b r)) := by
  rw [batchSum_eq_tiles _ _ _ _ (fun r => tgt_range (a2 m c) (ix2 b r))]
  show sumArr m c _ + sumArr m c _ = _
  rw [final3, final3, tileSum_stages, tileSum_stages]

/-- Batch b's count, from the region's counts. -/
theorem cnt_tiles (b : Fin 32) :
    cntA m c (ix4 b (0 : Fin 2) (0 : Fin 1) (0 : Fin 1)) + cntA m c (ix4 b (1 : Fin 2) (0 : Fin 1) (0 : Fin 1))
      = (((batchCnt (fun r => validArr (a2 m c) (ix2 b r)) : ℕ) : ℝ) : EReal) := by
  rw [batchCnt_eq_tiles _ (fun r => tgtArr (a2 m c) (ix2 b r)) (fun r => (tgt_range (a2 m c) (ix2 b r)).1)]
  show cntArr m c _ + cntArr m c _ = _
  rw [final4, final4, tileCnt_stages, tileCnt_stages]

/-- The batch losses agree. -/
theorem loss_eq (b : Fin 32) :
    lossVec (F := Ideal) (sumA m c) (cntA m c) (ix1 b) = val_main_v35 (F := Ideal) (a0 m c) (a1 m c) (a2 m c) (ix1 b) := by
  rw [Cert.ReferenceIdeal.ReadP.val_main_v35_apply, Cert.ReferenceIdeal.ReadP.val_main_v34_apply, Cert.ReferenceIdeal.ReadP.val_main_v33_apply,
    Cert.ReferenceIdeal.ReadP.val_main_v32_apply, Cert.ReferenceIdeal.ReadP.val_main_c_12_apply]
  have hs := sum_eq (a0 m c) (a1 m c) (a2 m c) b
  have hc := cnt_eq (a2 m c) b
  unfold sumVec at hs
  unfold cntVec at hc
  rw [hs, hc]
  show Ideal.div (tilesAdded (F := Ideal) (sumA m c) (ix1 b)) (max (tilesAdded (F := Ideal) (cntA m c) (ix1 b)) (Ideal.ofBits .f32 0x3F800000#32)) = Ideal.div _ _
  rw [tilesAdded_apply, tilesAdded_apply, sum_tiles, cnt_tiles, max_count_one _ (batchCnt_le _)]
  rfl

/-- The batch flags agree. -/
theorem has_eq (b : Fin 32) :
    hasVec (F := Ideal) (cntA m c) (ix1 b) = val_main_v37 (F := Ideal) (a2 m c) (ix1 b) := by
  rw [Cert.ReferenceIdeal.ReadP.val_main_v37_apply, Cert.ReferenceIdeal.ReadP.val_main_v36_apply, Cert.ReferenceIdeal.ReadP.val_main_c_13_apply]
  have hc := cnt_eq (a2 m c) b
  unfold cntVec at hc
  rw [hc]
  show Ideal.cmp .ogt (tilesAdded (F := Ideal) (cntA m c) (ix1 b)) zeroF = _
  rw [tilesAdded_apply, cnt_tiles, count_pos _ (batchCnt_le _)]

end Cert.Proof.Batch

end
-- ==== Proof.lean ====
/-
  Kernel and reference compute one number: the mean, over the batches that have a valid match, of the batch's
  mean cross-entropy between the softmax of its matches' clipped, temperature-scaled similarity logits and the
  matches' target columns (the pattern of 0.1 when no batch has a valid match).

  The kernel multiplies the inner products by a folded reciprocal of the temperature where the reference divides by
  the temperature's f32 value D = 9395241 / 2^27; the idealized kernel names that constant "inv_temperature" = 1 / D
  (its f32 rounding is the kernel's word), so over the extended reals the product is the quotient. The kernel picks
  the target logit by a one-hot masked row sum and the reference by a gather of the log-softmax; the kernel counts
  valid matches by summing flags as numbers, tile by tile, and the reference by an integer sum. Batch by batch the
  two agree (Proof/Batch.lean), and from the per-batch losses and flags on both programs apply the same operations,
  carried here as one function of those two vectors.

  The kernels' frames are the generated frame runs, the reference's its run over the stages of its read-back
  (Proof/RefRunValue.lean) with the result dropped; `preserves` is the one named constant's statement.
-/
import proofs.«403447_j22960895164759_3_alg».proof.Defs
import proofs.«403447_j22960895164759_3_alg».proof.Proof.Gen.Kernel
import proofs.«403447_j22960895164759_3_alg».proof.Proof.Gen.Kernel.Skeleton
import proofs.«403447_j22960895164759_3_alg».proof.Proof.Gen.Kernel.Launch
import proofs.«403447_j22960895164759_3_alg».proof.Proof.Gen.Kernel.Points
import proofs.«403447_j22960895164759_3_alg».proof.Proof.Gen.Kernel.Frame
import proofs.«403447_j22960895164759_3_alg».proof.Proof.Gen.KernelIdeal
import proofs.«403447_j22960895164759_3_alg».proof.Proof.Gen.KernelIdeal.Skeleton
import proofs.«403447_j22960895164759_3_alg».proof.Proof.Gen.KernelIdeal.Launch
import proofs.«403447_j22960895164759_3_alg».proof.Proof.Gen.KernelIdeal.Points
import proofs.«403447_j22960895164759_3_alg».proof.Proof.Gen.KernelIdeal.Frame
import proofs.«403447_j22960895164759_3_alg».proof.Proof.Gen.ReferenceIdeal
import proofs.«403447_j22960895164759_3_alg».proof.Proof.Gen.Pre_finite_inputs
import proofs.«403447_j22960895164759_3_alg».proof.Proof.RefRunValue
import proofs.«403447_j22960895164759_3_alg».proof.Proof.Batch
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's run, its result named -/

namespace KernelRun

open Cert.KernelIdeal Cert.KernelIdeal.Gen Cert.KernelIdeal.HostOut

variable (m : (ℓ : Loc nD τ sig) → Buf (Elt Ideal) ℓ) (ρ : Dev nD → PrngReg)

/-- The kernel's result: the mean over the batches, from the per-batch flags and losses the two result arrays give. -/
abbrev result (c : Dev nD) : Buf (Elt Ideal) ((c.tc : Thread nD τ).loc main_v40) :=
  meanOf (hasVec (cntA m c)) (lossVec (sumA m c) (cntA m c))

theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v40 (Pipeline.mem_restRefs_of main_v40 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

end KernelRun

/-! ## The two results are one -/

open Cert.KernelIdeal.HostOut Cert.KernelIdeal.HostIn in
/-- From the per-batch flags and losses on, the reference applies the kernel's host operations; and batch by batch
    the flags and losses agree. -/
theorem result_eq (m : (ℓ : Loc Cert.KernelIdeal.nD Cert.KernelIdeal.τ Cert.KernelIdeal.sig) → Buf (Elt Ideal) ℓ) (c : Dev Cert.KernelIdeal.nD) :
    KernelRun.result m c = Cert.ReferenceIdeal.ReadP.val_main_v46 (F := Ideal) (a0 m c) (a1 m c) (a2 m c) := by
  have h1 : hasVec (F := Ideal) (cntA m c) = Cert.ReferenceIdeal.ReadP.val_main_v37 (F := Ideal) (a2 m c) :=
    funext fun j => by rw [eq_ix1 j]; exact Batch.has_eq m c (j 0)
  have h2 : lossVec (F := Ideal) (sumA m c) (cntA m c) = Cert.ReferenceIdeal.ReadP.val_main_v35 (F := Ideal) (a0 m c) (a1 m c) (a2 m c) :=
    funext fun j => by rw [eq_ix1 j]; exact Batch.loss_eq m c (j 0)
  show meanOf _ _ = _
  rw [h1, h2]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunValue.run (F := Ideal) m ρ)

/-- The ledger's one entry: the certificate's table gives "inv_temperature" the value 134217728 / 9395241, and the
    printed constant is that value over the extended reals. -/
theorem preserves : Cert.preserves_Kernel_KernelIdeal :=
  IdealRules.named_const.statement Cert.KernelIdeal.κ "inv_temperature" .f32 0x41649249#32 ((134217728 / 9395241 : ℝ) : EReal) rfl

theorem algebraic : Cert.algebraic_KernelIdeal_ReferenceIdeal := by
  intro m ρ m' ρ' _ hagree
  refine ⟨fun c => KernelRun.result m c, KernelRun.run m ρ, ?_⟩
  refine (θ_run Cert.ReferenceIdeal.defs _ _).mono (fun _ h c => ⟨(h c).1.trans ?_, (h c).2⟩)
    (Cert.ReferenceIdeal.RunValue.run (F := Ideal) m' ρ')
  rw [(hagree c).1, (hagree c).2.1, (hagree c).2.2]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
